-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v41)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v41) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v63) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x11 : Shape := ⟨2, ![100000, 11]⟩
abbrev S2x3200000 : Shape := ⟨2, ![2, 3200000]⟩
abbrev S100000 : Shape := ⟨1, ![100000]⟩
abbrev S11x32 : Shape := ⟨2, ![11, 32]⟩
abbrev S32 : Shape := ⟨1, ![32]⟩
abbrev S32x1 : Shape := ⟨2, ![32, 1]⟩
abbrev S1 : Shape := ⟨1, ![1]⟩
abbrev S_ : Shape := ⟨0, ![]⟩

class Facts : Prop where
  bcast_S_S100000x11 : S_.BroadcastsInDim S100000x11 (![] : Fin 0 → Fin S100000x11.rank)
  reducesTo_S100000x11_S_d0_1 : S100000x11.ReducesTo [0, 1] S_
  h_S_ : 0 < S_.numel
  bcast_S_S11x32 : S_.BroadcastsInDim S11x32 (![] : Fin 0 → Fin S11x32.rank)
  reducesTo_S11x32_S_d0_1 : S11x32.ReducesTo [0, 1] S_
  bcast_S_S32 : S_.BroadcastsInDim S32 (![] : Fin 0 → Fin S32.rank)
  reducesTo_S32_S_d0 : S32.ReducesTo [0] S_
  bcast_S_S32x1 : S_.BroadcastsInDim S32x1 (![] : Fin 0 → Fin S32x1.rank)
  reducesTo_S32x1_S_d0_1 : S32x1.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg6 : FVec F S1 .f32) (main_v13 : IVec S_ 1) (main_v16 : IVec S32x1 1) : IVec S_ 1 :=
  let main_c_5 : IVec S_ 1 := constantI S_ 1 1#1
  let main_v17 : IVec S_ 1 := (fun x v => Host.reduce IntOp.andi x v reducesTo_S32x1_S_d0_1 h_S_) main_v16 main_c_5
  let main_v18 : IVec S_ 1 := andi main_v13 main_v17
  let main_v19 : FVec F S1 .f32 := Host.absf main_arg6
  let main_cst_6 : FVec F S_ .f32 := constant S_ .f32 0x7F800000#32
  let main_v20 : FVec F S1 .f32 := broadcastInDim S1 ![] bcast_S_S1 main_cst_6
  let main_v21 : IVec S1 1 := cmpf .olt main_v19 main_v20
  let main_c_7 : IVec S_ 1 := constantI S_ 1 1#1
  let main_v22 : IVec S_ 1 := (fun x v => Host.reduce IntOp.andi x v reducesTo_S1_S_d0 h_S_) main_v21 main_c_7
  let main_v23 : IVec S_ 1 := andi main_v18 main_v22
  main_v23

def fn {F : FTy → Type} [FloatOps F] (main_arg0 : FVec F S100000x11 .f32) (main_arg1 : IVec S2x3200000 32) (main_arg2 : IVec S100000 32) (main_arg3 : FVec F S11x32 .f32) (main_arg4 : FVec F S32 .f32) (main_arg5 : FVec F S32x1 .f32) (main_arg6 : FVec F S1 .f32) : IVec S_ 1 :=
  let main_v0 : FVec F S100000x11 .f32 := Host.absf main_arg0
  let main_cst : FVec F S_ .f32 := constant S_ .f32 0x7F800000#32
  let main_v1 : FVec F S100000x11 .f32 := broadcastInDim S100000x11 ![] bcast_S_S100000x11 main_cst
  let main_v2 : IVec S100000x11 1 := cmpf .olt main_v0 main_v1
  let main_c : IVec S_ 1 := constantI S_ 1 1#1
  let main_v3 : IVec S_ 1 := (fun x v => Host.reduce IntOp.andi x v reducesTo_S100000x11_S_d0_1 h_S_) main_v2 main_c
  let main_v4 : FVec F S11x32 .f32 := Host.absf main_arg3
  let main_cst_0 : FVec F S_ .f32 := constant S_ .f32 0x7F800000#32
  let main_v5 : FVec F S11x32 .f32 := broadcastInDim S11x32 ![] bcast_S_S11x32 main_cst_0
  let main_v6 : IVec S11x32 1 := cmpf .olt main_v4 main_v5
  let main_c_1 : IVec S_ 1 := constantI S_ 1 1#1
  let main_v7 : IVec S_ 1 := (fun x v => Host.reduce IntOp.andi x v reducesTo_S11x32_S_d0_1 h_S_) main_v6 main_c_1
  let main_v8 : IVec S_ 1 := andi main_v3 main_v7
  let main_v9 : FVec F S32 .f32 := Host.absf main_arg4
  let main_cst_2 : FVec F S_ .f32 := constant S_ .f32 0x7F800000#32
  let main_v10 : FVec F S32 .f32 := broadcastInDim S32 ![] bcast_S_S32 main_cst_2
  let main_v11 : IVec S32 1 := cmpf .olt main_v9 main_v10
  let main_c_3 : IVec S_ 1 := constantI S_ 1 1#1
  let main_v12 : IVec S_ 1 := (fun x v => Host.reduce IntOp.andi x v reducesTo_S32_S_d0 h_S_) main_v11 main_c_3
  let main_v13 : IVec S_ 1 := andi main_v8 main_v12
  let main_v14 : FVec F S32x1 .f32 := Host.absf main_arg5
  let main_cst_4 : FVec F S_ .f32 := constant S_ .f32 0x7F800000#32
  let main_v15 : FVec F S32x1 .f32 := broadcastInDim S32x1 ![] bcast_S_S32x1 main_cst_4
  let main_v16 : IVec S32x1 1 := cmpf .olt main_v14 main_v15
  fn_part1 (F := F) main_arg6 main_v13 main_v16
-- ==== Kernel.lean ====
abbrev S100000x11 : Shape := ⟨2, ![100000, 11]⟩
abbrev S2x3200000 : Shape := ⟨2, ![2, 3200000]⟩
abbrev S100000 : Shape := ⟨1, ![100000]⟩
abbrev S11x32 : Shape := ⟨2, ![11, 32]⟩
abbrev S32 : Shape := ⟨1, ![32]⟩
abbrev S32x1 : Shape := ⟨2, ![32, 1]⟩
abbrev S1 : Shape := ⟨1, ![1]⟩
abbrev S100000x32 : Shape := ⟨2, ![100000, 32]⟩
abbrev S5000x11 : Shape := ⟨2, ![5000, 11]⟩
abbrev S5000x32 : Shape := ⟨2, ![5000, 32]⟩
abbrev S1x3200000 : Shape := ⟨2, ![1, 3200000]⟩
abbrev S3200000 : Shape := ⟨1, ![3200000]⟩
abbrev S_ : Shape := ⟨0, ![]⟩
abbrev S3200000x1 : Shape := ⟨2, ![3200000, 1]⟩
abbrev S100000x1 : Shape := ⟨2, ![100000, 1]⟩
abbrev S3200000x32 : Shape := ⟨2, ![3200000, 32]⟩
abbrev S1x32 : Shape := ⟨2, ![1, 32]⟩
abbrev S64 : Shape := ⟨1, ![64]⟩
abbrev S1x64 : Shape := ⟨2, ![1, 64]⟩
abbrev S1x1 : Shape := ⟨2, ![1, 1]⟩
abbrev S64x1 : Shape := ⟨2, ![64, 1]⟩
abbrev S4000x32 : Shape := ⟨2, ![4000, 32]⟩
abbrev S4000x1 : Shape := ⟨2, ![4000, 1]⟩
abbrev S64x33 : Shape := ⟨2, ![64, 33]⟩
abbrev S4000x33 : Shape := ⟨2, ![4000, 33]⟩
abbrev S4000x64 : Shape := ⟨2, ![4000, 64]⟩
abbrev S64x32 : Shape := ⟨2, ![64, 32]⟩

abbrev nBuf : Space → Nat
  | .hbm => 59
  | .vmem => 15
  | .smem => 0
  | _ => 0

abbrev bufTy : (tb : Table) → Fin (tcTables nBuf tb) → BufTy
  | .hbm, ⟨0, _⟩ => ⟨S100000x11, .f32⟩
  | .hbm, ⟨1, _⟩ => ⟨S2x3200000, .i32⟩
  | .hbm, ⟨2, _⟩ => ⟨S100000, .i32⟩
  | .hbm, ⟨3, _⟩ => ⟨S11x32, .f32⟩
  | .hbm, ⟨4, _⟩ => ⟨S32, .f32⟩
  | .hbm, ⟨5, _⟩ => ⟨S32x1, .f32⟩
  | .hbm, ⟨6, _⟩ => ⟨S1, .f32⟩
  | .hbm, ⟨7, _⟩ => ⟨S100000x32, .f32⟩
  | .hbm, ⟨8, _⟩ => ⟨S1x3200000, .i32⟩
  | .hbm, ⟨9, _⟩ => ⟨S3200000, .i32⟩
  | .hbm, ⟨10, _⟩ => ⟨S1x3200000, .i32⟩
  | .hbm, ⟨11, _⟩ => ⟨S3200000, .i32⟩
  | .hbm, ⟨12, _⟩ => ⟨S_, .f32⟩
  | .hbm, ⟨13, _⟩ => ⟨S3200000, .f32⟩
  | .hbm, ⟨14, _⟩ => ⟨S_, .f32⟩
  | .hbm, ⟨15, _⟩ => ⟨S100000, .f32⟩
  | .hbm, ⟨16, _⟩ => ⟨S3200000x1, .i32⟩
  | .hbm, ⟨17, _⟩ => ⟨S100000, .f32⟩
  | .hbm, ⟨18, _⟩ => ⟨S_, .f32⟩
  | .hbm, ⟨19, _⟩ => ⟨S100000, .f32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .i1⟩
  | .hbm, ⟨24, _⟩ => ⟨S100000, .f32⟩
  | .hbm, ⟨25, _⟩ => ⟨S_, .f32⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S100000x1, .f32⟩
  | .hbm, ⟨30, _⟩ => ⟨S100000x32, .f32⟩
  | .hbm, ⟨31, _⟩ => ⟨S100000x32, .f32⟩
  | .hbm, ⟨32, _⟩ => ⟨S_, .i32⟩
  | .hbm, ⟨33, _⟩ => ⟨S3200000, .i32⟩
  | .hbm, ⟨34, _⟩ => ⟨S3200000, .i1⟩
  | .hbm, ⟨35, _⟩ => ⟨S_, .i32⟩
  | .hbm, ⟨36, _⟩ => ⟨S3200000, .i32⟩
  | .hbm, ⟨37, _⟩ => ⟨S3200000, .i32⟩
  | .hbm, ⟨38, _⟩ => ⟨S3200000, .i32⟩
  | .hbm, ⟨39, _⟩ => ⟨S3200000x1, .i32⟩
  | .hbm, ⟨40, _⟩ => ⟨S3200000x32, .f32⟩
  | .hbm, ⟨41, _⟩ => ⟨S_, .f32⟩
  | .hbm, ⟨42, _⟩ => ⟨S100000x32, .f32⟩
  | .hbm, ⟨43, _⟩ => ⟨S3200000x1, .i32⟩
  | .hbm, ⟨44, _⟩ => ⟨S100000x32, .f32⟩
  | .hbm, ⟨45, _⟩ => ⟨S100000x1, .f32⟩
  | .hbm, ⟨46, _⟩ => ⟨S100000x32, .f32⟩
  | .hbm, ⟨47, _⟩ => ⟨S100000x32, .f32⟩
  | .hbm, ⟨48, _⟩ => ⟨S100000, .f32⟩
  | .hbm, ⟨49, _⟩ => ⟨S100000x1, .f32⟩
  | .hbm, ⟨50, _⟩ => ⟨S100000x32, .f32⟩
  | .hbm, ⟨51, _⟩ => ⟨S100000x32, .f32⟩
  | .hbm, ⟨52, _⟩ => ⟨S100000x32, .f32⟩
  | .hbm, ⟨53, _⟩ => ⟨S100000x1, .i32⟩
  | .hbm, ⟨54, _⟩ => ⟨S1x32, .f32⟩
  | .hbm, ⟨55, _⟩ => ⟨S64, .i32⟩
  | .hbm, ⟨56, _⟩ => ⟨S1x64, .i32⟩
  | .hbm, ⟨57, _⟩ => ⟨S1x1, .f32⟩
  | .hbm, ⟨58, _⟩ => ⟨S64x1, .f32⟩
  | .local _ .vmem, ⟨0, _⟩ => ⟨S5000x11, .f32⟩
  | .local _ .vmem, ⟨1, _⟩ => ⟨S5000x11, .f32⟩
  | .local _ .vmem, ⟨2, _⟩ => ⟨S11x32, .f32⟩
  | .local _ .vmem, ⟨3, _⟩ => ⟨S5000x32, .f32⟩
  | .local _ .vmem, ⟨4, _⟩ => ⟨S5000x32, .f32⟩
  | .local _ .vmem, ⟨5, _⟩ => ⟨S4000x32, .f32⟩
  | .local _ .vmem, ⟨6, _⟩ => ⟨S4000x32, .f32⟩
  | .local _ .vmem, ⟨7, _⟩ => ⟨S4000x1, .i32⟩
  | .local _ .vmem, ⟨8, _⟩ => ⟨S4000x1, .i32⟩
  | .local _ .vmem, ⟨9, _⟩ => ⟨S1x32, .f32⟩
  | .local _ .vmem, ⟨10, _⟩ => ⟨S1x64, .i32⟩
  | .local _ .vmem, ⟨11, _⟩ => ⟨S32x1, .f32⟩
  | .local _ .vmem, ⟨12, _⟩ => ⟨S1x1, .f32⟩
  | .local _ .vmem, ⟨13, _⟩ => ⟨S64x1, .f32⟩
  | .local _ .vmem, ⟨14, _⟩ => ⟨S64x33, .f32⟩
  | _, _ => ⟨S100000x11, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst : Ref sig .tc := ⟨.hbm, 12, rfl⟩
abbrev main_v5 : Ref sig .tc := ⟨.hbm, 13, rfl⟩
abbrev main_cst_0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_cst_2 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_3 : Ref sig .tc := ⟨.hbm, 25, rfl⟩
abbrev main_call0_v0 : Ref sig .tc := ⟨.hbm, 26, rfl⟩
abbrev main_call0_v1 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_c : Ref sig .tc := ⟨.hbm, 32, rfl⟩
abbrev main_v18 : Ref sig .tc := ⟨.hbm, 33, rfl⟩
abbrev main_v19 : Ref sig .tc := ⟨.hbm, 34, rfl⟩
abbrev main_c_4 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_cst_5 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg4_0 : Ref sig .tc := ⟨.vmem, 11, rfl⟩
abbrev cc1_stg5_0 : Ref sig .tc := ⟨.vmem, 12, rfl⟩
abbrev cc1_stg6_0 : Ref sig .tc := ⟨.vmem, 13, rfl⟩
abbrev cc1_scratch0 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem3_0 : DmaSem sig := 10
abbrev cc1_sem4_0 : DmaSem sig := 11
abbrev cc1_sem5_0 : DmaSem sig := 12
abbrev cc1_sem6_0 : DmaSem sig := 13

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x11 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S11x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def k1_cond2 (i : grid1.Coords) : BitVec 1 :=
  let arg0 : BitVec 32 := BitVec.ofNat 32 (i 0).val
  let c24_i32 : BitVec 32 := 24#32
  let v30 : BitVec 1 := Scalar.cmpi .eq arg0 c24_i32
  let v31 : BitVec 32 := Scalar.extui v30
  let c0_i32_14 : BitVec 32 := 0#32
  let v32 : BitVec 1 := Scalar.cmpi .ne v31 c0_i32_14
  v32

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S4000x32 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4000x1 .i32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x32 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x64 .i32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S32x1 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x1 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S64x1 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

class Facts₀ : Prop where
  inb_S5000x11_S5000x11_0_0 : ∀ a, (![0, 0] : Fin 2 → Nat) a + S5000x11.size a ≤ S5000x11.size a
  h_S5000x11 : 0 < S5000x11.numel
  bitsLt_bf16_f32 : FTy.bits .bf16 < FTy.bits .f32
  inb_S11x32_S11x32_0_0 : ∀ a, (![0, 0] : Fin 2 → Nat) a + S11x32.size a ≤ S11x32.size a
  h_S11x32 : 0 < S11x32.numel
  inb_S5000x32_S5000x32_0_0 : ∀ a, (![0, 0] : Fin 2 → Nat) a + S5000x32.size a ≤ S5000x32.size a
  h_S5000x32 : 0 < S5000x32.numel
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  bcast_S_S3200000 : S_.BroadcastsInDim S3200000 (![] : Fin 0 → Fin S3200000.rank)
  bcast_S_S100000 : S_.BroadcastsInDim S100000 (![] : Fin 0 → Fin S100000.rank)
  bcast_S3200000_S3200000x1_0 : S3200000.BroadcastsInDim S3200000x1 (![0] : Fin 1 → Fin S3200000x1.rank)
  bcast_S100000_S100000x1_0 : S100000.BroadcastsInDim S100000x1 (![0] : Fin 1 → Fin S100000x1.rank)
  bcast_S100000x1_S100000x32_0_1 : S100000x1.BroadcastsInDim S100000x32 (![0, 1] : Fin 2 → Fin S100000x32.rank)
  bcast_S_S100000x32 : S_.BroadcastsInDim S100000x32 (![] : Fin 0 → Fin S100000x32.rank)
  shapeCasts_S32_S1x32 : S32.ShapeCasts S1x32
  shapeCasts_S64_S1x64 : S64.ShapeCasts S1x64
  shapeCasts_S1_S1x1 : S1.ShapeCasts S1x1
  inb_S64x33_S64x33_0_0 : ∀ a, (![0, 0] : Fin 2 → Nat) a + S64x33.size a ≤ S64x33.size a
  h_S64x33 : 0 < S64x33.numel
  shapeCasts_S64x33_S64x33 : S64x33.ShapeCasts S64x33
  inb_S4000x32_S4000x32_0_0 : ∀ a, (![0, 0] : Fin 2 → Nat) a + S4000x32.size a ≤ S4000x32.size a
  h_S4000x32 : 0 < S4000x32.numel
  shapeCasts_S4000x32_S4000x32 : S4000x32.ShapeCasts S4000x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S4000x32 : S1x32.Broadcasts S4000x32
  concatenates_S4000x32_S4000x1_S4000x33_d1 : Shape.Concatenates [S4000x32, S4000x1] S4000x33 1
  inb_S4000x1_S4000x1_0_0 : ∀ a, (![0, 0] : Fin 2 → Nat) a + S4000x1.size a ≤ S4000x1.size a
  h_S4000x1 : 0 < S4000x1.numel
  shapeCasts_S4000x1_S4000x1 : S4000x1.ShapeCasts S4000x1
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S4000x1_S4000x64 : S4000x1.Broadcasts S4000x64
  broadcasts_S1x64_S4000x64 : S1x64.Broadcasts S4000x64
  natLt_1_32 : 1 < 32
  inb_S64x33_S64x32_0_0 : ∀ a, (![0, 0] : Fin 2 → Nat) a + S64x32.size a ≤ S64x33.size a
  h_S64x32 : 0 < S64x32.numel
  inb_S64x33_S64x1_0_32 : ∀ a, (![0, 32] : Fin 2 → Nat) a + S64x1.size a ≤ S64x33.size a
  h_S64x1 : 0 < S64x1.numel
  broadcasts_S64x1_S64x32 : S64x1.Broadcasts S64x32
  inb_S32x1_S32x1_0_0 : ∀ a, (![0, 0] : Fin 2 → Nat) a + S32x1.size a ≤ S32x1.size a
  h_S32x1 : 0 < S32x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S64x1 : S1x1.Broadcasts S64x1
  inb_S64x1_S64x1_0_0 : ∀ a, (![0, 0] : Fin 2 → Nat) a + S64x1.size a ≤ S64x1.size a
  dot_S5000x11_S11x32_S5000x32_1_0_0_1_n_n_wf : DotDims.WF S5000x11 S11x32 S5000x32 [1] [0] [0] [1] [] []
  scatter_S100000_S3200000x1_S3200000_n_0_0_1_wf : ScatterDims.WF S100000 S3200000x1 S3200000 [] [0] [0] 1
  gather_S100000x32_S3200000x1_S3200000x32_1_0_n_n_0_1_132_wf : GatherDims.WF S100000x32 S3200000x1 S3200000x32 [1] [0] [] [0] [] 1 ![1, 32]
  scatter_S100000x32_S3200000x1_S3200000x32_1_0_0_1_wf : ScatterDims.WF S100000x32 S3200000x1 S3200000x32 [1] [0] [0] 1
  dot_S4000x64_S4000x33_S64x33_0_0_1_1_n_n_wf : DotDims.WF S4000x64 S4000x33 S64x33 [0] [0] [1] [1] [] []
  dot_S64x32_S32x1_S64x1_1_0_0_1_n_n_wf : DotDims.WF S64x32 S32x1 S64x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x11.size a ≤ S100000x11.size a
  hwx0_0 : ∀ i : grid0.Coords, EltTy.bits .f32 = 32 ∨ (Rect.block (s := S100000x11) S5000x11.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S11x32.size a ≤ S11x32.size a
  hwx0_1 : ∀ i : grid0.Coords, EltTy.bits .f32 = 32 ∨ (Rect.block (s := S11x32) S11x32.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x32.size a ≤ S100000x32.size a
  hwx0_2 : ∀ i : grid0.Coords, EltTy.bits .f32 = 32 ∨ (Rect.block (s := S100000x32) S5000x32.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x32.size a ≤ S100000x32.size a
  hwx1_0 : ∀ i : grid1.Coords, EltTy.bits .f32 = 32 ∨ (Rect.block (s := S100000x32) S4000x32.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4000x1.size a ≤ S100000x1.size a
  hwx1_1 : ∀ i : grid1.Coords, EltTy.bits .i32 = 32 ∨ (Rect.block (s := S100000x1) S4000x1.size (cc1_transform_1 i) (hinb1_1 i)).WholeWords (EltTy.packing .i32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x32.size a ≤ S1x32.size a
  hwx1_2 : ∀ i : grid1.Coords, EltTy.bits .f32 = 32 ∨ (Rect.block (s := S1x32) S1x32.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .i32 = 32 ∨ (Rect.block (s := S1x64) S1x64.size (cc1_transform_3 i) (hinb1_3 i)).WholeWords (EltTy.packing .i32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S32x1.size a ≤ S32x1.size a
  hwx1_4 : ∀ i : grid1.Coords, EltTy.bits .f32 = 32 ∨ (Rect.block (s := S32x1) S32x1.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x1.size a ≤ S1x1.size a
  hwx1_5 : ∀ i : grid1.Coords, EltTy.bits .f32 = 32 ∨ (Rect.block (s := S1x1) S1x1.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S64x1.size a ≤ S64x1.size a
  hwx1_6 : ∀ i : grid1.Coords, EltTy.bits .f32 = 32 ∨ (Rect.block (s := S64x1) S64x1.size (cc1_transform_6 i) (hinb1_6 i)).WholeWords (EltTy.packing .f32)

variable [Facts₀]

def dot_S5000x11_S11x32_S5000x32_1_0_0_1_n_n : DotDims S5000x11 S11x32 S5000x32 where
  lhsContracting := [1]
  rhsContracting := [0]
  lhsNonContracting := [0]
  rhsNonContracting := [1]
  lhsBatch := []
  rhsBatch := []
  wf := dot_S5000x11_S11x32_S5000x32_1_0_0_1_n_n_wf
def scatter_S100000_S3200000x1_S3200000_n_0_0_1 : ScatterDims S100000 S3200000x1 S3200000 where
  updateWindowDims := []
  insertedWindowDims := [0]
  scatterDimsToOperandDims := [0]
  indexVectorDim := 1
  wf := scatter_S100000_S3200000x1_S3200000_n_0_0_1_wf
def gather_S100000x32_S3200000x1_S3200000x32_1_0_n_n_0_1_132 : GatherDims S100000x32 S3200000x1 S3200000x32 where
  offsetDims := [1]
  collapsedSliceDims := [0]
  operandBatchingDims := []
  startIndicesBatchingDims := []
  startIndexMap := [0]
  indexVectorDim := 1
  sliceSizes := ![1, 32]
  wf := gather_S100000x32_S3200000x1_S3200000x32_1_0_n_n_0_1_132_wf
def scatter_S100000x32_S3200000x1_S3200000x32_1_0_0_1 : ScatterDims S100000x32 S3200000x1 S3200000x32 where
  updateWindowDims := [1]
  insertedWindowDims := [0]
  scatterDimsToOperandDims := [0]
  indexVectorDim := 1
  wf := scatter_S100000x32_S3200000x1_S3200000x32_1_0_0_1_wf
def dot_S4000x64_S4000x33_S64x33_0_0_1_1_n_n : DotDims S4000x64 S4000x33 S64x33 where
  lhsContracting := [0]
  rhsContracting := [0]
  lhsNonContracting := [1]
  rhsNonContracting := [1]
  lhsBatch := []
  rhsBatch := []
  wf := dot_S4000x64_S4000x33_S64x33_0_0_1_1_n_n_wf
def dot_S64x32_S32x1_S64x1_1_0_0_1_n_n : DotDims S64x32 S32x1 S64x1 where
  lhsContracting := [1]
  rhsContracting := [0]
  lhsNonContracting := [0]
  rhsNonContracting := [1]
  lhsBatch := []
  rhsBatch := []
  wf := dot_S64x32_S32x1_S64x1_1_0_0_1_n_n_wf

abbrev win0_0 : Pipeline.Window sig grid0 :=
  Pipeline.Window.ofSpec (Memref.whole main_arg0) S5000x11.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S11x32.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S5000x32.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v35) S4000x32.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v36) S4000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v37) S1x32.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v39) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg5) S32x1.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v40) S1x1.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v41) S64x1.size cc1_transform_6 reads1_6 true true 1 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev idle1 : Fin 7 → grid1.Coords → Bool := fun | 0 => fun _ => false | 1 => fun _ => false | 2 => fun _ => false | 3 => fun _ => false | 4 => fun _ => false | 5 => fun _ => false | 6 => fun i => !(k1_cond2 i == 1#1) | ⟨_ + 7, h⟩ => absurd h (Nat.not_lt.2 (Nat.le_add_left _ _))

class Facts : Prop extends Facts₀ where

variable [Facts]
-- ==== ReferenceIdeal.lean ====
abbrev S100000x11 : Shape := ⟨2, ![100000, 11]⟩
abbrev S2x3200000 : Shape := ⟨2, ![2, 3200000]⟩
abbrev S100000 : Shape := ⟨1, ![100000]⟩
abbrev S11x32 : Shape := ⟨2, ![11, 32]⟩
abbrev S32 : Shape := ⟨1, ![32]⟩
abbrev S32x1 : Shape := ⟨2, ![32, 1]⟩
abbrev S1 : Shape := ⟨1, ![1]⟩
abbrev S1x3200000 : Shape := ⟨2, ![1, 3200000]⟩
abbrev S3200000 : Shape := ⟨1, ![3200000]⟩
abbrev S3300000 : Shape := ⟨1, ![3300000]⟩
abbrev S_ : Shape := ⟨0, ![]⟩
abbrev S3300000x1 : Shape := ⟨2, ![3300000, 1]⟩
abbrev S100000x32 : Shape := ⟨2, ![100000, 32]⟩
abbrev S3300000x32 : Shape := ⟨2, ![3300000, 32]⟩
abbrev S1x32 : Shape := ⟨2, ![1, 32]⟩
abbrev S64x32 : Shape := ⟨2, ![64, 32]⟩
abbrev S100000x1 : Shape := ⟨2, ![100000, 1]⟩
abbrev S64 : Shape := ⟨1, ![64]⟩
abbrev S64x1 : Shape := ⟨2, ![64, 1]⟩
abbrev S1x1 : Shape := ⟨2, ![1, 1]⟩

abbrev nBuf : Space → Nat
  | .hbm => 90
  | .vmem => 0
  | .smem => 0
  | _ => 0

abbrev bufTy : (tb : Table) → Fin (tcTables nBuf tb) → BufTy
  | .hbm, ⟨0, _⟩ => ⟨S100000x11, .f32⟩
  | .hbm, ⟨1, _⟩ => ⟨S2x3200000, .i32⟩
  | .hbm, ⟨2, _⟩ => ⟨S100000, .i32⟩
  | .hbm, ⟨3, _⟩ => ⟨S11x32, .f32⟩
  | .hbm, ⟨4, _⟩ => ⟨S32, .f32⟩
  | .hbm, ⟨5, _⟩ => ⟨S32x1, .f32⟩
  | .hbm, ⟨6, _⟩ => ⟨S1, .f32⟩
  | .hbm, ⟨7, _⟩ => ⟨S100000, .i32⟩
  | .hbm, ⟨8, _⟩ => ⟨S1x3200000, .i32⟩
  | .hbm, ⟨9, _⟩ => ⟨S3200000, .i32⟩
  | .hbm, ⟨10, _⟩ => ⟨S3300000, .i32⟩
  | .hbm, ⟨11, _⟩ => ⟨S1x3200000, .i32⟩
  | .hbm, ⟨12, _⟩ => ⟨S3200000, .i32⟩
  | .hbm, ⟨13, _⟩ => ⟨S3300000, .i32⟩
  | .hbm, ⟨14, _⟩ => ⟨S_, .f32⟩
  | .hbm, ⟨15, _⟩ => ⟨S3300000, .f32⟩
  | .hbm, ⟨16, _⟩ => ⟨S_, .f32⟩
  | .hbm, ⟨17, _⟩ => ⟨S100000, .f32⟩
  | .hbm, ⟨18, _⟩ => ⟨S3300000x1, .i32⟩
  | .hbm, ⟨19, _⟩ => ⟨S100000, .f32⟩
  | .hbm, ⟨20, _⟩ => ⟨S_, .f32⟩
  | .hbm, ⟨21, _⟩ => ⟨S100000, .f32⟩
  | .hbm, ⟨22, _⟩ => ⟨S100000, .i1⟩
  | .hbm, ⟨23, _⟩ => ⟨S100000, .f32⟩
  | .hbm, ⟨24, _⟩ => ⟨S_, .f32⟩
  | .hbm, ⟨25, _⟩ => ⟨S_, .f32⟩
  | .hbm, ⟨26, _⟩ => ⟨S100000, .f32⟩
  | .hbm, ⟨27, _⟩ => ⟨S100000, .f32⟩
  | .hbm, ⟨28, _⟩ => ⟨S_, .i32⟩
  | .hbm, ⟨29, _⟩ => ⟨S3300000, .i32⟩
  | .hbm, ⟨30, _⟩ => ⟨S3300000, .i1⟩
  | .hbm, ⟨31, _⟩ => ⟨S_, .i32⟩
  | .hbm, ⟨32, _⟩ => ⟨S3300000, .i32⟩
  | .hbm, ⟨33, _⟩ => ⟨S3300000, .i32⟩
  | .hbm, ⟨34, _⟩ => ⟨S3300000, .i32⟩
  | .hbm, ⟨35, _⟩ => ⟨S3300000x1, .i32⟩
  | .hbm, ⟨36, _⟩ => ⟨S3300000, .f32⟩
  | .hbm, ⟨37, _⟩ => ⟨S_, .i32⟩
  | .hbm, ⟨38, _⟩ => ⟨S3300000, .i32⟩
  | .hbm, ⟨39, _⟩ => ⟨S3300000, .i1⟩
  | .hbm, ⟨40, _⟩ => ⟨S_, .i32⟩
  | .hbm, ⟨41, _⟩ => ⟨S3300000, .i32⟩
  | .hbm, ⟨42, _⟩ => ⟨S3300000, .i32⟩
  | .hbm, ⟨43, _⟩ => ⟨S3300000, .i32⟩
  | .hbm, ⟨44, _⟩ => ⟨S3300000x1, .i32⟩
  | .hbm, ⟨45, _⟩ => ⟨S3300000, .f32⟩
  | .hbm, ⟨46, _⟩ => ⟨S3300000, .f32⟩
  | .hbm, ⟨47, _⟩ => ⟨S100000x32, .f32⟩
  | .hbm, ⟨48, _⟩ => ⟨S_, .i32⟩
  | .hbm, ⟨49, _⟩ => ⟨S3300000, .i32⟩
  | .hbm, ⟨50, _⟩ => ⟨S3300000, .i1⟩
  | .hbm, ⟨51, _⟩ => ⟨S_, .i32⟩
  | .hbm, ⟨52, _⟩ => ⟨S3300000, .i32⟩
  | .hbm, ⟨53, _⟩ => ⟨S3300000, .i32⟩
  | .hbm, ⟨54, _⟩ => ⟨S3300000, .i32⟩
  | .hbm, ⟨55, _⟩ => ⟨S3300000x1, .i32⟩
  | .hbm, ⟨56, _⟩ => ⟨S3300000x32, .f32⟩
  | .hbm, ⟨57, _⟩ => ⟨S3300000x1, .f32⟩
  | .hbm, ⟨58, _⟩ => ⟨S3300000x32, .f32⟩
  | .hbm, ⟨59, _⟩ => ⟨S3300000x32, .f32⟩
  | .hbm, ⟨60, _⟩ => ⟨S_, .f32⟩
  | .hbm, ⟨61, _⟩ => ⟨S100000x32, .f32⟩
  | .hbm, ⟨62, _⟩ => ⟨S3300000x1, .i32⟩
  | .hbm, ⟨63, _⟩ => ⟨S100000x32, .f32⟩
  | .hbm, ⟨64, _⟩ => ⟨S1x32, .f32⟩
  | .hbm, ⟨65, _⟩ => ⟨S100000x32, .f32⟩
  | .hbm, ⟨66, _⟩ => ⟨S100000x32, .f32⟩
  | .hbm, ⟨67, _⟩ => ⟨S_, .f32⟩
  | .hbm, ⟨68, _⟩ => ⟨S100000x32, .f32⟩
  | .hbm, ⟨69, _⟩ => ⟨S100000x32, .f32⟩
  | .hbm, ⟨70, _⟩ => ⟨S_, .f32⟩
  | .hbm, ⟨71, _⟩ => ⟨S64x32, .f32⟩
  | .hbm, ⟨72, _⟩ => ⟨S100000x1, .i32⟩
  | .hbm, ⟨73, _⟩ => ⟨S64x32, .f32⟩
  | .hbm, ⟨74, _⟩ => ⟨S_, .f32⟩
  | .hbm, ⟨75, _⟩ => ⟨S100000, .f32⟩
  | .hbm, ⟨76, _⟩ => ⟨S_, .f32⟩
  | .hbm, ⟨77, _⟩ => ⟨S64, .f32⟩
  | .hbm, ⟨78, _⟩ => ⟨S100000x1, .i32⟩
  | .hbm, ⟨79, _⟩ => ⟨S64, .f32⟩
  | .hbm, ⟨80, _⟩ => ⟨S_, .f32⟩
  | .hbm, ⟨81, _⟩ => ⟨S64, .f32⟩
  | .hbm, ⟨82, _⟩ => ⟨S64, .f32⟩
  | .hbm, ⟨83, _⟩ => ⟨S64x1, .f32⟩
  | .hbm, ⟨84, _⟩ => ⟨S64x32, .f32⟩
  | .hbm, ⟨85, _⟩ => ⟨S64x32, .f32⟩
  | .hbm, ⟨86, _⟩ => ⟨S64x1, .f32⟩
  | .hbm, ⟨87, _⟩ => ⟨S1x1, .f32⟩
  | .hbm, ⟨88, _⟩ => ⟨S64x1, .f32⟩
  | .hbm, ⟨89, _⟩ => ⟨S64x1, .f32⟩
  | _, _ => ⟨S100000x11, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_2 : Ref sig .tc := ⟨.hbm, 24, rfl⟩
abbrev main_call0_v0 : Ref sig .tc := ⟨.hbm, 25, rfl⟩
abbrev main_call0_v1 : Ref sig .tc := ⟨.hbm, 26, rfl⟩
abbrev main_v14 : Ref sig .tc := ⟨.hbm, 27, rfl⟩
abbrev main_c : Ref sig .tc := ⟨.hbm, 28, rfl⟩
abbrev main_v15 : Ref sig .tc := ⟨.hbm, 29, rfl⟩
abbrev main_v16 : Ref sig .tc := ⟨.hbm, 30, rfl⟩
abbrev main_c_3 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_c_4 : Ref sig .tc := ⟨.hbm, 37, rfl⟩
abbrev main_v22 : Ref sig .tc := ⟨.hbm, 38, rfl⟩
abbrev main_v23 : Ref sig .tc := ⟨.hbm, 39, rfl⟩
abbrev main_c_5 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_c_6 : Ref sig .tc := ⟨.hbm, 48, rfl⟩
abbrev main_v31 : Ref sig .tc := ⟨.hbm, 49, rfl⟩
abbrev main_v32 : Ref sig .tc := ⟨.hbm, 50, rfl⟩
abbrev main_c_7 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_cst_8 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_call1_cst : Ref sig .tc := ⟨.hbm, 67, rfl⟩
abbrev main_call1_v0 : Ref sig .tc := ⟨.hbm, 68, rfl⟩
abbrev main_v47 : Ref sig .tc := ⟨.hbm, 69, rfl⟩
abbrev main_cst_9 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_cst_10 : Ref sig .tc := ⟨.hbm, 74, rfl⟩
abbrev main_v51 : Ref sig .tc := ⟨.hbm, 75, rfl⟩
abbrev main_cst_11 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_cst_12 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  bcast_S3300000x1_S3300000x32_0_1 : S3300000x1.BroadcastsInDim S3300000x32 (![0, 1] : Fin 2 → Fin S3300000x32.rank)
  bcast_S_S100000x32 : S_.BroadcastsInDim S100000x32 (![] : Fin 0 → Fin S100000x32.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  bcast_S_S64x32 : S_.BroadcastsInDim S64x32 (![] : Fin 0 → Fin S64x32.rank)
  bcast_S100000_S100000x1_0 : S100000.BroadcastsInDim S100000x1 (![0] : Fin 1 → Fin S100000x1.rank)
  bcast_S_S64 : S_.BroadcastsInDim S64 (![] : Fin 0 → Fin S64.rank)
  bcast_S64_S64x1_0 : S64.BroadcastsInDim S64x1 (![0] : Fin 1 → Fin S64x1.rank)
  bcast_S64x1_S64x32_0_1 : S64x1.BroadcastsInDim S64x32 (![0, 1] : Fin 2 → Fin S64x32.rank)
  bcast_S1_S1x1_1 : S1.BroadcastsInDim S1x1 (![1] : Fin 1 → Fin S1x1.rank)
  bcast_S1x1_S64x1_0_1 : S1x1.BroadcastsInDim S64x1 (![0, 1] : Fin 2 → Fin S64x1.rank)
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S100000x11_S11x32_S100000x32_1_0_0_1_n_n_wf : DotDims.WF S100000x11 S11x32 S100000x32 [1] [0] [0] [1] [] []
  gather_S100000x32_S3300000x1_S3300000x32_1_0_n_n_0_1_132_wf : GatherDims.WF S100000x32 S3300000x1 S3300000x32 [1] [0] [] [0] [] 1 ![1, 32]
  scatter_S100000x32_S3300000x1_S3300000x32_1_0_0_1_wf : ScatterDims.WF S100000x32 S3300000x1 S3300000x32 [1] [0] [0] 1
  scatter_S64x32_S100000x1_S100000x32_1_0_0_1_wf : ScatterDims.WF S64x32 S100000x1 S100000x32 [1] [0] [0] 1
  scatter_S64_S100000x1_S100000_n_0_0_1_wf : ScatterDims.WF S64 S100000x1 S100000 [] [0] [0] 1
  dot_S64x32_S32x1_S64x1_1_0_0_1_n_n_wf : DotDims.WF S64x32 S32x1 S64x1 [1] [0] [0] [1] [] []

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S100000x11_S11x32_S100000x32_1_0_0_1_n_n : DotDims S100000x11 S11x32 S100000x32 where
  lhsContracting := [1]
  rhsContracting := [0]
  lhsNonContracting := [0]
  rhsNonContracting := [1]
  lhsBatch := []
  rhsBatch := []
  wf := dot_S100000x11_S11x32_S100000x32_1_0_0_1_n_n_wf
def gather_S100000x32_S3300000x1_S3300000x32_1_0_n_n_0_1_132 : GatherDims S100000x32 S3300000x1 S3300000x32 where
  offsetDims := [1]
  collapsedSliceDims := [0]
  operandBatchingDims := []
  startIndicesBatchingDims := []
  startIndexMap := [0]
  indexVectorDim := 1
  sliceSizes := ![1, 32]
  wf := gather_S100000x32_S3300000x1_S3300000x32_1_0_n_n_0_1_132_wf
def scatter_S100000x32_S3300000x1_S3300000x32_1_0_0_1 : ScatterDims S100000x32 S3300000x1 S3300000x32 where
  updateWindowDims := [1]
  insertedWindowDims := [0]
  scatterDimsToOperandDims := [0]
  indexVectorDim := 1
  wf := scatter_S100000x32_S3300000x1_S3300000x32_1_0_0_1_wf
def scatter_S64x32_S100000x1_S100000x32_1_0_0_1 : ScatterDims S64x32 S100000x1 S100000x32 where
  updateWindowDims := [1]
  insertedWindowDims := [0]
  scatterDimsToOperandDims := [0]
  indexVectorDim := 1
  wf := scatter_S64x32_S100000x1_S100000x32_1_0_0_1_wf
def scatter_S64_S100000x1_S100000_n_0_0_1 : ScatterDims S64 S100000x1 S100000 where
  updateWindowDims := []
  insertedWindowDims := [0]
  scatterDimsToOperandDims := [0]
  indexVectorDim := 1
  wf := scatter_S64_S100000x1_S100000_n_0_0_1_wf
def dot_S64x32_S32x1_S64x1_1_0_0_1_n_n : DotDims S64x32 S32x1 S64x1 where
  lhsContracting := [1]
  rhsContracting := [0]
  lhsNonContracting := [0]
  rhsNonContracting := [1]
  lhsBatch := []
  rhsBatch := []
  wf := dot_S64x32_S32x1_S64x1_1_0_0_1_n_n_wf

class Facts : Prop extends Facts₀ where

variable [Facts]
-- ==== Proof.Region0.lean ====
/-
  The first kernel region: twenty row blocks of 5000 nodes, each block's features times the whole weight matrix.
  What each window's staging buffer holds after the body at a point, the region's proof data, and the body's
  obligation at every point.
-/
import proofs.«428440_j16372415332644_2_alg».proof.Proof.Gen.KernelIdeal.Launch
import proofs.«428440_j16372415332644_2_alg».proof.Proof.Gen.KernelIdeal.Skeleton
import proofs.«428440_j16372415332644_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! ## The proof data -/

/-- After the body at point `t`: the two inputs' buffers at their blocks, the output's at the product of the
    row block and the weights. The invariant is the untouched scoped rest; nothing is owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => k0_pay1 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) :
    (dat0 V c).after 2 t = k0_pay1 (iblk0 V c 0 t) (iblk0 V c 1 t) := by dsimp only [dat0]

/-! ## What the body finds in the inputs' buffers -/

/-- The two offsets of a whole-buffer rectangle are both zero. -/
theorem hz_lin : (![0, 0] : Fin 2 → Nat) = fun _ => 0 := by
  funext a; fin_cases a <;> rfl

/-- The row block's buffer holds the row block at every point: it is fetched at every point. -/
theorem before0_0 (c : Dev nD) (t : Fin cfg0.N) (d) : (dat0 V c).before 0 t d = iblk0 V c 0 t :=
  ((dat0 V c).before_in_eq_fetched 0 rfl (fun _ => rfl) (fun _ _ _ => rfl)
    (fun t => by rw [after0_0]; unfold Dat.blockOf iblk0; rw [A_eq0]; try rfl) t d).trans
    (by unfold Dat.fetched Dat.blockOf iblk0; rw [A_eq0]; try rfl)

/-- The weights' buffer holds the weights at every point: fetched at the first, and afterwards the body has left
    them in place and the block's index has not moved. -/
theorem before0_1 (c : Dev nD) (t : Fin cfg0.N) (d) : (dat0 V c).before 1 t d = iblk0 V c 1 t :=
  ((dat0 V c).before_in_eq_fetched 1 rfl (fun _ => rfl) (fun _ _ _ => rfl)
    (fun t => by rw [after0_1]; unfold Dat.blockOf iblk0; rw [A_eq0]; try rfl) t d).trans
    (by unfold Dat.fetched Dat.blockOf iblk0; rw [A_eq0]; try rfl)

/-! ## The body's triple -/

set_option maxHeartbeats 1000000 in
/-- The body on whole buffers, the inputs' at contents `x0` and `x1` and the output's at anything, runs to the
    continuation with the inputs' as they were and the output's at the product: its one store goes through the whole
    buffer, so what was there before (which the body also loads, and never uses) does not matter. -/
theorem sound_kernel0 (c : Dev nD) (E : Set ℕ) (i : grid0.Coords)
    (arg1 : Memref sig .tc .vmem S5000x11 .f32) (harg1 : arg1.IsWhole)
    (arg2 : Memref sig .tc .vmem S11x32 .f32) (harg2 : arg2.IsWhole)
    (arg3 : Memref sig .tc .vmem S5000x32 .f32) (harg3 : arg3.IsWhole)
    (x0 : Vec F S5000x11 .f32) (x1 : Vec F S11x32 .f32) (K : PUnit → sProp 𝕄) :
    iprop(owns (c : Thread nD τ) arg1 fullShare x0 ∗ owns (c : Thread nD τ) arg2 fullShare x1
        ∗ (∃ d, owns (c : Thread nD τ) arg3 fullShare d)
        ∗ (iprop(owns (c : Thread nD τ) arg1 fullShare x0 ∗ owns (c : Thread nD τ) arg2 fullShare x1
            ∗ owns (c : Thread nD τ) arg3 fullShare (k0_pay1 x0 x1)) -∗ K ⟨⟩))
      ⊢ wp frame (wpE (defs₀ (F := F)) Variants.none c none) E (cc0__linear_kernel i arg1 harg1 arg2 harg2 arg3 harg3) K := by
  simp only [cc0__linear_kernel_eq_skeleton]; unfold cc0__linear_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  rw [View.read_writes_eq_canon _ _ _ (fun y => ⟨_, List.mem_singleton_self _, View.mem_set_unit_zero hz_lin inb_S5000x32_S5000x32_0_0 y⟩),
    View.canon_unit_zero hz_lin]
  simp only [View.readAt_eq_ld, View.ld_unit_zero (S := S5000x11) hz_lin, View.ld_unit_zero (S := S11x32) hz_lin]

/-! ## The body obligation -/

/-- What the body is handed at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it hands back. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' buffers hold their blocks, so the body's triple applies; the invariant and
    what is owed pass through untouched. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- At every point the body, handed the two input blocks and the output buffer at anything, leaves the inputs in
    place and the output buffer at the product. -/
theorem body_obligation0 (c : Dev nD) :
    BodyObligation (dat0 (F := F) V c) (defs₀ (F := F)) Variants.none () Set.univ := fun t => by
  rw [bigSep_W0, bigSep_W0]
  exact sound_body0 V c t

end Cert.KernelIdeal.Hand

end
-- ==== Proof.Region1.lean ====
/-
  The second kernel region: twenty-five row blocks of 4000 nodes. A 64 × 33 accumulator carried between points
  collects, per graph, the sum of the rectified features and (in its last column) the node count; the last
  point divides, applies the output layer and stores the 64 × 1 result.
-/
import proofs.«428440_j16372415332644_2_alg».proof.Proof.Gen.KernelIdeal.Launch
import proofs.«428440_j16372415332644_2_alg».proof.Proof.Gen.KernelIdeal.Skeleton
import proofs.«428440_j16372415332644_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! ## The accumulator -/

/-- The carried scratch buffer as the kernel's body is handed it. -/
abbrev scM1 : Memref sig .tc .vmem S64x33 .f32 := Memref.whole cc1_scratch0

/-- The accumulator after point `n`: zeroed at the first point, then each point's block added in. -/
def accAt1 (c : Dev nD) : (n : ℕ) → n < cfg1.N → Vec F S64x33 .f32
  | 0, hn => k1_pay2 (iblk1 V c 0 ⟨0, hn⟩) (iblk1 V c 2 ⟨0, hn⟩) (iblk1 V c 1 ⟨0, hn⟩) (iblk1 V c 3 ⟨0, hn⟩) (k1_pay1 (F := F))
  | n + 1, hn => k1_pay2 (iblk1 V c 0 ⟨n + 1, hn⟩) (iblk1 V c 2 ⟨n + 1, hn⟩) (iblk1 V c 1 ⟨n + 1, hn⟩) (iblk1 V c 3 ⟨n + 1, hn⟩)
      (accAt1 c n (Nat.lt_of_succ_lt hn))

theorem accAt1_zero (c : Dev nD) (hn : 0 < cfg1.N) :
    accAt1 V c 0 hn = k1_pay2 (iblk1 V c 0 ⟨0, hn⟩) (iblk1 V c 2 ⟨0, hn⟩) (iblk1 V c 1 ⟨0, hn⟩) (iblk1 V c 3 ⟨0, hn⟩) (k1_pay1 (F := F)) := rfl

theorem accAt1_succ (c : Dev nD) (n : ℕ) (hn : n + 1 < cfg1.N) :
    accAt1 V c (n + 1) hn = k1_pay2 (iblk1 V c 0 ⟨n + 1, hn⟩) (iblk1 V c 2 ⟨n + 1, hn⟩) (iblk1 V c 1 ⟨n + 1, hn⟩) (iblk1 V c 3 ⟨n + 1, hn⟩)
      (accAt1 V c n (Nat.lt_of_succ_lt hn)) := rfl

/-- The two slices of the accumulator the last point reads: the 32 feature columns and the count column. -/
abbrev rSum : Rect S64x33 := Rect.unit (s := S64x33) ![0, 0] S64x32.size inb_S64x33_S64x32_0_0
abbrev rCnt : Rect S64x33 := Rect.unit (s := S64x33) ![0, 32] S64x1.size inb_S64x33_S64x1_0_32

/-- What the last point stores into the output buffer, from the accumulator after point `t`. -/
def outAt1 (c : Dev nD) (t : Fin cfg1.N) : Vec F S64x1 .f32 :=
  k1_pay3 (View.ld (accAt1 V c t.val t.isLt) rSum) (View.ld (accAt1 V c t.val t.isLt) rCnt) (iblk1 V c 4 t) (iblk1 V c 5 t)

/-! ## The invariant -/

/-- The other kernel's staging buffers, which this region never touches, each at some contents. -/
def restS1 (c : Dev nD) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg2_1), ((c : Thread nD τ).loc cc0_stg2_1) ↦{fullShare} f))

/-- Before the first point every scoped buffer is at anything; after point `n` the accumulator holds `accAt1 n`. -/
def PhiS1 (c : Dev nD) : (n : ℕ) → n ≤ cfg1.N → sProp 𝕄
  | 0, _ => Pipeline.ΦA spec1 c
  | n + 1, hn => iprop(owns (c : Thread nD τ) scM1 fullShare (accAt1 V c n hn) ∗ restS1 (F := F) c ∗ (∃ r, prngReg c r))

theorem PhiS1_zero (c : Dev nD) (h : 0 ≤ cfg1.N) : PhiS1 V c 0 h = Pipeline.ΦA spec1 c := rfl
theorem PhiS1_succ (c : Dev nD) (n : ℕ) (hn : n < cfg1.N) :
    PhiS1 V c (n + 1) hn = iprop(owns (c : Thread nD τ) scM1 fullShare (accAt1 V c n hn) ∗ restS1 (F := F) c ∗ (∃ r, prngReg c r)) := rfl

/-! ## The proof data -/

/-- After the body at point `t`: every input's buffer at its block; the output's at what the last point stores
    (at the earlier points the window is idle and the obligation hands its buffer back as found, so this value is
    read at the last point only). -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => outAt1 V c t
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem after1_6 (c : Dev nD) (t : Fin cfg1.N) : (dat1 V c).after 6 t = outAt1 V c t := by dsimp only [dat1]

/-! ## The branch conditions over the grid -/

/-- The first conditional's test: the point's coordinate is zero. -/
abbrev cond1_0 (i : grid1.Coords) : Prop :=
  (Scalar.cmpi .ne (Scalar.extui (Scalar.cmpi .eq (BitVec.ofNat 32 (i 0).val) 0#32)) 0#32) = 1#1

theorem hcond1_0 : ∀ t : Fin cfg1.N, cond1_0 (grid1.coords t) ↔ t.val % 25 = 0 :=
  (by decide +kernel : ∀ t : Fin grid1.N, cond1_0 (grid1.coords t) ↔ t.val % 25 = 0)

/-- The second conditional's test: the point is the last. -/
abbrev cond1_1 (i : grid1.Coords) : Prop := k1_cond2 i = 1#1

theorem hcond1_1 : ∀ t : Fin cfg1.N, cond1_1 (grid1.coords t) ↔ t.val % 25 = 24 :=
  (by decide +kernel : ∀ t : Fin grid1.N, cond1_1 (grid1.coords t) ↔ t.val % 25 = 24)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
theorem liveAt1_4 : ∀ t : Fin cfg1.N, cfg1.idle 4 (grid1.coords t) = false := by decide +kernel
theorem liveAt1_5 : ∀ t : Fin cfg1.N, cfg1.idle 5 (grid1.coords t) = false := by decide +kernel
/-- Away from the last point the output window is idle and is not written back; at the last point it is live. -/
theorem idleAt1_6 : ∀ t : Fin cfg1.N, ¬cond1_1 (grid1.coords t) → cfg1.idle 6 (grid1.coords t) = true := by decide +kernel
theorem noFlush1_6 : ∀ t : Fin cfg1.N, ¬cond1_1 (grid1.coords t) → (cfg1.win 6).flush t = false := by decide +kernel
theorem liveAt1_6 : ∀ t : Fin cfg1.N, cond1_1 (grid1.coords t) → cfg1.idle 6 (grid1.coords t) = false := by decide +kernel

/-! ## What the body finds in the inputs' buffers -/

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]

/-- Every input's current buffer holds its block at every point, fetched there or not. -/
theorem before1_0 (c : Dev nD) (t : Fin cfg1.N) (d) : (dat1 V c).before 0 t d = iblk1 V c 0 t :=
  ((dat1 V c).before_in_eq_fetched 0 rfl (fun _ => rfl) (fun _ _ _ => rfl)
    (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl)
    (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl)
    (fun t => by rw [after1_2]; unfold Dat.blockOf iblk1; rw [A_eq1]; try rfl) t d).trans
    (by unfold Dat.fetched Dat.blockOf iblk1; rw [A_eq1]; try rfl)
theorem before1_3 (c : Dev nD) (t : Fin cfg1.N) (d) : (dat1 V c).before 3 t d = iblk1 V c 3 t :=
  ((dat1 V c).before_in_eq_fetched 3 rfl (fun _ => rfl) (fun _ _ _ => rfl)
    (fun t => by rw [after1_3]; unfold Dat.blockOf iblk1; rw [A_eq1]; try rfl) t d).trans
    (by unfold Dat.fetched Dat.blockOf iblk1; rw [A_eq1]; try rfl)
theorem before1_4 (c : Dev nD) (t : Fin cfg1.N) (d) : (dat1 V c).before 4 t d = iblk1 V c 4 t :=
  ((dat1 V c).before_in_eq_fetched 4 rfl (fun _ => rfl) (fun _ _ _ => rfl)
    (fun t => by rw [after1_4]; unfold Dat.blockOf iblk1; rw [A_eq1]; try rfl) t d).trans
    (by unfold Dat.fetched Dat.blockOf iblk1; rw [A_eq1]; try rfl)
theorem before1_5 (c : Dev nD) (t : Fin cfg1.N) (d) : (dat1 V c).before 5 t d = iblk1 V c 5 t :=
  ((dat1 V c).before_in_eq_fetched 5 rfl (fun _ => rfl) (fun _ _ _ => rfl)
    (fun t => by rw [after1_5]; unfold Dat.blockOf iblk1; rw [A_eq1]; try rfl) t d).trans
    (by unfold Dat.fetched Dat.blockOf iblk1; rw [A_eq1]; try rfl)

/-! ## The body's three cases over any staging memrefs -/

/-- Offsets `![0, 0]` are the zero offsets. -/
theorem hz_pool : (![0, 0] : Fin 2 → Nat) = fun _ => 0 := by
  funext a; fin_cases a <;> rfl

/-- One store through the whole-shape rectangle covers the shape. -/
theorem cover_unit_pool {Val : EltTy → Type} {S : Shape} {e : EltTy} {off : Fin S.rank → Nat} (h : off = fun _ => 0)
    (inb : ∀ a, off a + S.size a ≤ S.size a) (w : S.Idx → Val e) (y : S.Idx) :
    ∃ p ∈ [(⟨Rect.unit off S.size inb, w⟩ : View.Piece Val S e)], y ∈ p.1.set :=
  ⟨_, List.mem_singleton_self _, View.mem_set_unit_zero h inb y⟩

/-- What the last point's store leaves in the output buffer, the two slices of the accumulator read through their rectangles. -/
theorem out_pieces_pool (arg7 : Memref sig .tc .vmem S64x1 .f32) (arg8 : Memref sig .tc .vmem S64x33 .f32)
    (f7 : arg7.view.ty.Contents (Elt F)) (W : Vec F S64x33 .f32) (x4 : Vec F S32x1 .f32) (x5 : Vec F S1x1 .f32) :
    View.read (Elt F) arg7.view
      (arg7.view.writes (Elt F) f7
        [⟨Rect.unit ![0, 0] S64x1.size inb_S64x1_S64x1_0_0,
            k1_pay3
              (arg8.view.readCov [⟨Rect.unit ![0, 0] S64x33.size inb_S64x33_S64x33_0_0, W⟩]
                (Rect.unit (s := S64x33) ![0, 0] S64x32.size inb_S64x33_S64x32_0_0).toLoadRect)
              (arg8.view.readCov [⟨Rect.unit ![0, 0] S64x33.size inb_S64x33_S64x33_0_0, W⟩]
                (Rect.unit (s := S64x33) ![0, 32] S64x1.size inb_S64x33_S64x1_0_32).toLoadRect)
              x4 x5⟩])
      = k1_pay3 (View.ld W rSum) (View.ld W rCnt) x4 x5 := by
  rw [View.read_writes_eq_canon arg7.view _ _ (cover_unit_pool (S := S64x1) hz_pool inb_S64x1_S64x1_0_0 _),
    View.canon_unit_zero (S := S64x1) hz_pool]
  rw [View.readCov_eq_canon_ld arg8.view _ rSum (cover_unit_pool (S := S64x33) hz_pool inb_S64x33_S64x33_0_0 W),
    View.readCov_eq_canon_ld arg8.view _ rCnt (cover_unit_pool (S := S64x33) hz_pool inb_S64x33_S64x33_0_0 W),
    View.canon_unit_zero (S := S64x33) hz_pool]

set_option maxHeartbeats 1000000 in
/-- The first point: the accumulator is zeroed, then the block is added into it. -/
theorem pool_first (c : Dev nD) (i : grid1.Coords)
    (arg1 : Memref sig .tc .vmem S4000x32 .f32) (harg1 : arg1.IsWhole) (arg2 : Memref sig .tc .vmem S4000x1 .i32) (harg2 : arg2.IsWhole)
    (arg3 : Memref sig .tc .vmem S1x32 .f32) (harg3 : arg3.IsWhole) (arg4 : Memref sig .tc .vmem S1x64 .i32) (harg4 : arg4.IsWhole)
    (arg5 : Memref sig .tc .vmem S32x1 .f32) (harg5 : arg5.IsWhole) (arg6 : Memref sig .tc .vmem S1x1 .f32) (harg6 : arg6.IsWhole)
    (arg7 : Memref sig .tc .vmem S64x1 .f32) (harg7 : arg7.IsWhole) (arg8 : Memref sig .tc .vmem S64x33 .f32) (harg8 : arg8.IsWhole)
    (hc0 : cond1_0 i) (hc1 : ¬cond1_1 i)
    (x0 : Vec F S4000x32 .f32) (x1 : Vec F S4000x1 .i32) (x2 : Vec F S1x32 .f32) (x3 : Vec F S1x64 .i32)
    (x4 : Vec F S32x1 .f32) (x5 : Vec F S1x1 .f32) (y : Vec F S64x1 .f32) (xs : Vec F S64x33 .f32)
    (E : Set ℕ) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ owns (c : Thread nD τ) arg5 fullShare x4 ∗ owns (c : Thread nD τ) arg6 fullShare x5
        ∗ owns (c : Thread nD τ) arg7 fullShare y ∗ owns (c : Thread nD τ) arg8 fullShare xs
        ∗ (iprop(owns (c : Thread nD τ) arg1 fullShare x0 ∗ owns (c : Thread nD τ) arg2 fullShare x1
        ∗ owns (c : Thread nD τ) arg3 fullShare x2 ∗ owns (c : Thread nD τ) arg4 fullShare x3
        ∗ owns (c : Thread nD τ) arg5 fullShare x4 ∗ owns (c : Thread nD τ) arg6 fullShare x5
            ∗ owns (c : Thread nD τ) arg7 fullShare y ∗ owns (c : Thread nD τ) arg8 fullShare (k1_pay2 x0 x2 x1 x3 (k1_pay1 (F := F)))) -∗ K ⟨⟩))
      ⊢ wp frame (wpE (defs₀ (F := F)) Variants.none c none) E
          (cc1__pool_kernel i arg1 harg1 arg2 harg2 arg3 harg3 arg4 harg4 arg5 harg5 arg6 harg6 arg7 harg7 arg8 harg8) K := by
  simp only [cc1__pool_kernel_eq_skeleton]; unfold cc1__pool_kernel_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, Hk⟩
  obtain rfl := harg1.eq_unread hf1; obtain rfl := harg2.eq_unread hf2; obtain rfl := harg3.eq_unread hf3
  obtain rfl := harg4.eq_unread hf4; obtain rfl := harg5.eq_unread hf5; obtain rfl := harg6.eq_unread hf6
  obtain rfl := harg7.eq_unread hf7; obtain rfl := harg8.eq_unread hf8
  sl_exec (disch := first | exact hc0 | exact hc1)
  sl_step
  iapply Hk
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [H5]
  · iexists _; isplitr; · ipureintro; exact hf5
    iexact H5
  isplitl [H6]
  · iexists _; isplitr; · ipureintro; exact hf6
    iexact H6
  isplitl [H7]
  · iexists _; isplitr; · ipureintro; exact hf7
    iexact H7
  iexists _; isplitr
  swap; · iexact H8
  ipureintro
  sl_unfold_words
  rw [View.read_writes_eq_canon _ _ _ (fun y => ⟨_, List.mem_cons_self, View.mem_set_unit_zero (S := S64x33) hz_pool inb_S64x33_S64x33_0_0 y⟩),
    View.canon_cons_unit_zero (S := S64x33) hz_pool]
  simp only [View.readAt_eq_ld, hf1, hf2, hf3, hf4, View.ld_unit_zero (S := S4000x32) hz_pool,
    View.ld_unit_zero (S := S4000x1) hz_pool, View.ld_unit_zero (S := S1x32) hz_pool, View.ld_unit_zero (S := S1x64) hz_pool,
    View.readCov_unit_zero (S := S64x33) _ hz_pool]

set_option maxHeartbeats 1000000 in
/-- A middle point: the block is added into the accumulator; nothing else changes. -/
theorem pool_mid (c : Dev nD) (i : grid1.Coords)
    (arg1 : Memref sig .tc .vmem S4000x32 .f32) (harg1 : arg1.IsWhole) (arg2 : Memref sig .tc .vmem S4000x1 .i32) (harg2 : arg2.IsWhole)
    (arg3 : Memref sig .tc .vmem S1x32 .f32) (harg3 : arg3.IsWhole) (arg4 : Memref sig .tc .vmem S1x64 .i32) (harg4 : arg4.IsWhole)
    (arg5 : Memref sig .tc .vmem S32x1 .f32) (harg5 : arg5.IsWhole) (arg6 : Memref sig .tc .vmem S1x1 .f32) (harg6 : arg6.IsWhole)
    (arg7 : Memref sig .tc .vmem S64x1 .f32) (harg7 : arg7.IsWhole) (arg8 : Memref sig .tc .vmem S64x33 .f32) (harg8 : arg8.IsWhole)
    (hc0 : ¬cond1_0 i) (hc1 : ¬cond1_1 i)
    (x0 : Vec F S4000x32 .f32) (x1 : Vec F S4000x1 .i32) (x2 : Vec F S1x32 .f32) (x3 : Vec F S1x64 .i32)
    (x4 : Vec F S32x1 .f32) (x5 : Vec F S1x1 .f32) (y : Vec F S64x1 .f32) (xs : Vec F S64x33 .f32)
    (E : Set ℕ) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ owns (c : Thread nD τ) arg5 fullShare x4 ∗ owns (c : Thread nD τ) arg6 fullShare x5
        ∗ owns (c : Thread nD τ) arg7 fullShare y ∗ owns (c : Thread nD τ) arg8 fullShare xs
        ∗ (iprop(owns (c : Thread nD τ) arg1 fullShare x0 ∗ owns (c : Thread nD τ) arg2 fullShare x1
        ∗ owns (c : Thread nD τ) arg3 fullShare x2 ∗ owns (c : Thread nD τ) arg4 fullShare x3
        ∗ owns (c : Thread nD τ) arg5 fullShare x4 ∗ owns (c : Thread nD τ) arg6 fullShare x5
            ∗ owns (c : Thread nD τ) arg7 fullShare y ∗ owns (c : Thread nD τ) arg8 fullShare (k1_pay2 x0 x2 x1 x3 xs)) -∗ K ⟨⟩))
      ⊢ wp frame (wpE (defs₀ (F := F)) Variants.none c none) E
          (cc1__pool_kernel i arg1 harg1 arg2 harg2 arg3 harg3 arg4 harg4 arg5 harg5 arg6 harg6 arg7 harg7 arg8 harg8) K := by
  simp only [cc1__pool_kernel_eq_skeleton]; unfold cc1__pool_kernel_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, Hk⟩
  obtain rfl := harg1.eq_unread hf1; obtain rfl := harg2.eq_unread hf2; obtain rfl := harg3.eq_unread hf3
  obtain rfl := harg4.eq_unread hf4; obtain rfl := harg5.eq_unread hf5; obtain rfl := harg6.eq_unread hf6
  obtain rfl := harg7.eq_unread hf7; obtain rfl := harg8.eq_unread hf8
  sl_exec (disch := first | exact hc0 | exact hc1)
  sl_step
  iapply Hk
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [H5]
  · iexists _; isplitr; · ipureintro; exact hf5
    iexact H5
  isplitl [H6]
  · iexists _; isplitr; · ipureintro; exact hf6
    iexact H6
  isplitl [H7]
  · iexists _; isplitr; · ipureintro; exact hf7
    iexact H7
  iexists _; isplitr
  swap; · iexact H8
  ipureintro
  rw [View.read_writes_eq_canon _ _ _ (fun y => ⟨_, List.mem_singleton_self _, View.mem_set_unit_zero (S := S64x33) hz_pool inb_S64x33_S64x33_0_0 y⟩),
    View.canon_unit_zero (S := S64x33) hz_pool]
  simp only [View.readAt_eq_ld, hf1, hf2, hf3, hf4, hf8, View.ld_unit_zero (S := S4000x32) hz_pool,
    View.ld_unit_zero (S := S4000x1) hz_pool, View.ld_unit_zero (S := S1x32) hz_pool, View.ld_unit_zero (S := S1x64) hz_pool,
    View.ld_unit_zero (S := S64x33) hz_pool]

set_option maxHeartbeats 1000000 in
/-- The last point: the block is added into the accumulator, and the output is computed from the result. -/
theorem pool_last (c : Dev nD) (i : grid1.Coords)
    (arg1 : Memref sig .tc .vmem S4000x32 .f32) (harg1 : arg1.IsWhole) (arg2 : Memref sig .tc .vmem S4000x1 .i32) (harg2 : arg2.IsWhole)
    (arg3 : Memref sig .tc .vmem S1x32 .f32) (harg3 : arg3.IsWhole) (arg4 : Memref sig .tc .vmem S1x64 .i32) (harg4 : arg4.IsWhole)
    (arg5 : Memref sig .tc .vmem S32x1 .f32) (harg5 : arg5.IsWhole) (arg6 : Memref sig .tc .vmem S1x1 .f32) (harg6 : arg6.IsWhole)
    (arg7 : Memref sig .tc .vmem S64x1 .f32) (harg7 : arg7.IsWhole) (arg8 : Memref sig .tc .vmem S64x33 .f32) (harg8 : arg8.IsWhole)
    (hc0 : ¬cond1_0 i) (hc1 : cond1_1 i)
    (x0 : Vec F S4000x32 .f32) (x1 : Vec F S4000x1 .i32) (x2 : Vec F S1x32 .f32) (x3 : Vec F S1x64 .i32)
    (x4 : Vec F S32x1 .f32) (x5 : Vec F S1x1 .f32) (y : Vec F S64x1 .f32) (xs : Vec F S64x33 .f32)
    (E : Set ℕ) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ owns (c : Thread nD τ) arg5 fullShare x4 ∗ owns (c : Thread nD τ) arg6 fullShare x5
        ∗ owns (c : Thread nD τ) arg7 fullShare y ∗ owns (c : Thread nD τ) arg8 fullShare xs
        ∗ (iprop(owns (c : Thread nD τ) arg1 fullShare x0 ∗ owns (c : Thread nD τ) arg2 fullShare x1
        ∗ owns (c : Thread nD τ) arg3 fullShare x2 ∗ owns (c : Thread nD τ) arg4 fullShare x3
        ∗ owns (c : Thread nD τ) arg5 fullShare x4 ∗ owns (c : Thread nD τ) arg6 fullShare x5
            ∗ owns (c : Thread nD τ) arg7 fullShare
                (k1_pay3 (View.ld (k1_pay2 x0 x2 x1 x3 xs) rSum) (View.ld (k1_pay2 x0 x2 x1 x3 xs) rCnt) x4 x5)
            ∗ owns (c : Thread nD τ) arg8 fullShare (k1_pay2 x0 x2 x1 x3 xs)) -∗ K ⟨⟩))
      ⊢ wp frame (wpE (defs₀ (F := F)) Variants.none c none) E
          (cc1__pool_kernel i arg1 harg1 arg2 harg2 arg3 harg3 arg4 harg4 arg5 harg5 arg6 harg6 arg7 harg7 arg8 harg8) K := by
  simp only [cc1__pool_kernel_eq_skeleton]; unfold cc1__pool_kernel_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, Hk⟩
  obtain rfl := harg1.eq_unread hf1; obtain rfl := harg2.eq_unread hf2; obtain rfl := harg3.eq_unread hf3
  obtain rfl := harg4.eq_unread hf4; obtain rfl := harg5.eq_unread hf5; obtain rfl := harg6.eq_unread hf6
  obtain rfl := harg7.eq_unread hf7; obtain rfl := harg8.eq_unread hf8
  sl_exec (disch := first | exact hc0 | exact hc1)
  sl_step
  iapply Hk
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [H5]
  · iexists _; isplitr; · ipureintro; exact hf5
    iexact H5
  isplitl [H6]
  · iexists _; isplitr; · ipureintro; exact hf6
    iexact H6
  isplitl [H7]
  · iexists _; isplitr
    swap; · iexact H7
    ipureintro
    sl_unfold_words
    rw [out_pieces_pool]
    simp only [View.readAt_eq_ld, hf1, hf2, hf3, hf4, hf5, hf6, hf8, View.ld_unit_zero (S := S4000x32) hz_pool,
      View.ld_unit_zero (S := S4000x1) hz_pool, View.ld_unit_zero (S := S1x32) hz_pool, View.ld_unit_zero (S := S1x64) hz_pool,
      View.ld_unit_zero (S := S64x33) hz_pool, View.ld_unit_zero (S := S32x1) hz_pool, View.ld_unit_zero (S := S1x1) hz_pool]
  iexists _; isplitr
  swap; · iexact H8
  ipureintro
  sl_unfold_words
  rw [View.read_writes_eq_canon _ _ _ (fun y => ⟨_, List.mem_singleton_self _, View.mem_set_unit_zero (S := S64x33) hz_pool inb_S64x33_S64x33_0_0 y⟩),
    View.canon_unit_zero (S := S64x33) hz_pool]
  simp only [View.readAt_eq_ld, hf1, hf2, hf3, hf4, hf8, View.ld_unit_zero (S := S4000x32) hz_pool,
    View.ld_unit_zero (S := S4000x1) hz_pool, View.ld_unit_zero (S := S1x32) hz_pool, View.ld_unit_zero (S := S1x64) hz_pool,
    View.ld_unit_zero (S := S64x33) hz_pool]

/-- The class's invariant opened: the other kernel's staging buffers, the accumulator at some contents, the generator. -/
theorem PhiA1_open (c : Dev nD) :
    (Pipeline.ΦA spec1 c : sProp 𝕄)
      ⊢ iprop((∃ d, owns (c : Thread nD τ) scM1 fullShare d) ∗ restS1 (F := F) c ∗ (∃ r, prngReg c r)) := by
  unfold Pipeline.ΦA restS1; rw [scopedRest1_eq]; simp only [scM1, owns_whole]
  iintro ⟨⟨A, B, C, D, E, S⟩, Hg⟩
  isplitl [S]; · iexact S
  isplitl [A B C D E]
  · isplitl [A]; · iexact A
    isplitl [B]; · iexact B
    isplitl [C]; · iexact C
    isplitl [D]; · iexact D
    iexact E
  iexact Hg

/-- and closed again. -/
theorem PhiA1_close (c : Dev nD) :
    iprop((∃ d, owns (c : Thread nD τ) scM1 fullShare d) ∗ restS1 (F := F) c ∗ (∃ r, prngReg c r))
      ⊢ (Pipeline.ΦA spec1 c : sProp 𝕄) := by
  unfold Pipeline.ΦA restS1; rw [scopedRest1_eq]; simp only [scM1, owns_whole]
  iintro ⟨S, ⟨A, B, C, D, E⟩, Hg⟩
  isplitl [A B C D E S]
  · isplitl [A]; · iexact A
    isplitl [B]; · iexact B
    isplitl [C]; · iexact C
    isplitl [D]; · iexact D
    isplitl [E]; · iexact E
    iexact S
  iexact Hg

/-! ## The body obligation at a point -/

/-- Each window's current staging memref at point `t`, as the pipeline passes it to the body. -/
abbrev ms1_0 (t : Fin cfg1.N) : Memref sig .tc .vmem S4000x32 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S4000x1 .i32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x32 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x64 .i32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S32x1 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1x1 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S64x1 .f32 := win1_6.stage (cfg1.slots t 6)
abbrev hs1_6 (t : Fin cfg1.N) : (ms1_6 t).IsWhole := hstage1_6 ((cfg1.slots t 6).cast nbuf1_6)

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t)

set_option maxHeartbeats 4800000 in
/-- The body at any point. Every input's buffer holds its block. At the first point the invariant hands the accumulator at
    anything and the body zeroes it before adding; at a later point it hands it at what the point before left. Away from the
    last point the output's buffer goes back as found; at the last point it holds the output computed from the accumulator. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).owesAt () t.succ = (dat1 V c).owesAt () t.castSucc from rfl]
  rw [show (dat1 V c).Φ t.succ = PhiS1 V c (t.val + 1) t.isLt from rfl, PhiS1_succ]
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [show (dat1 V c).leavesExact 3 t = owns (c : Thread nD τ) (ms1_3 t) fullShare ((dat1 V c).after 3 t) from by
    unfold Dat.leavesExact; rw [liveAt1_3 t], after1_3]
  rw [show (dat1 V c).leavesExact 4 t = owns (c : Thread nD τ) (ms1_4 t) fullShare ((dat1 V c).after 4 t) from by
    unfold Dat.leavesExact; rw [liveAt1_4 t], after1_4]
  rw [show (dat1 V c).leavesExact 5 t = owns (c : Thread nD τ) (ms1_5 t) fullShare ((dat1 V c).after 5 t) from by
    unfold Dat.leavesExact; rw [liveAt1_5 t], after1_5]
  have hN : t.val < 25 := lt_of_lt_of_eq t.isLt (show cfg1.N = 25 from N_1)
  obtain ⟨n, hn⟩ := t
  cases n with
  | zero =>
    have hc0 : cond1_0 (grid1.coords ⟨0, hn⟩) := (hcond1_0 ⟨0, hn⟩).mpr (Nat.zero_mod _)
    have hc1 : ¬cond1_1 (grid1.coords ⟨0, hn⟩) := fun h => by
      have := (hcond1_1 ⟨0, hn⟩).mp h; dsimp only at this; omega
    rw [Dat.leavesExact_idle (dat1 V c) 6 ⟨0, hn⟩ (idleAt1_6 _ hc1) (noFlush1_6 _ hc1)]
    rw [show (dat1 V c).Φ (Fin.castSucc ⟨0, hn⟩) = PhiS1 V c 0 (Nat.zero_le _) from rfl, PhiS1_zero, accAt1_zero]
    refine BIBase.Entails.trans (sep_mono (PhiA1_open c) .rfl) ?_
    iintro ⟨⟨⟨%ds, HS⟩, HR, Hg⟩, Ho, ⟨%d0, H0⟩, ⟨%d1, H1⟩, ⟨%d2, H2⟩, ⟨%d3, H3⟩, ⟨%d4, H4⟩, ⟨%d5, H5⟩, ⟨%d6, H6⟩⟩
    iapply (pool_first c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) scM1 (Memref.isWhole_whole _) hc0 hc1
      (iblk1 V c 0 ⟨0, hn⟩) (iblk1 V c 1 ⟨0, hn⟩) (iblk1 V c 2 ⟨0, hn⟩) (iblk1 V c 3 ⟨0, hn⟩) (iblk1 V c 4 ⟨0, hn⟩) (iblk1 V c 5 ⟨0, hn⟩) ((dat1 V c).before 6 ⟨0, hn⟩ d6) ds Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [HS]; · iexact HS
    iintro ⟨H0, H1, H2, H3, H4, H5, H6, HS⟩
    isplitl [HS HR Hg]
    · isplitl [HS]; · iexact HS
      isplitl [HR]; · iexact HR
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexists _; iexact H6
  | succ n =>
    have hN' : n + 1 < 25 := hN
    have hc0 : ¬cond1_0 (grid1.coords ⟨n + 1, hn⟩) := fun h => by
      have := (hcond1_0 ⟨n + 1, hn⟩).mp h; dsimp only at this; omega
    rw [show (dat1 V c).Φ (Fin.castSucc ⟨n + 1, hn⟩) = PhiS1 V c (n + 1) (Nat.le_of_lt hn) from rfl, PhiS1_succ, accAt1_succ]
    by_cases h24 : n + 1 = 24
    · have hc1 : cond1_1 (grid1.coords ⟨n + 1, hn⟩) := (hcond1_1 ⟨n + 1, hn⟩).mpr (by dsimp only; omega)
      rw [show (dat1 V c).leavesExact 6 ⟨n + 1, hn⟩ = owns (c : Thread nD τ) (ms1_6 ⟨n + 1, hn⟩) fullShare ((dat1 V c).after 6 ⟨n + 1, hn⟩) from by
        unfold Dat.leavesExact; rw [liveAt1_6 _ hc1], after1_6]
      unfold outAt1; dsimp only; rw [accAt1_succ]
      iintro ⟨⟨HS, HR, Hg⟩, Ho, ⟨%d0, H0⟩, ⟨%d1, H1⟩, ⟨%d2, H2⟩, ⟨%d3, H3⟩, ⟨%d4, H4⟩, ⟨%d5, H5⟩, ⟨%d6, H6⟩⟩
      iapply (pool_last c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1 (Memref.isWhole_whole _) hc0 hc1
        (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) ((dat1 V c).before 6 ⟨n + 1, hn⟩ d6) (accAt1 V c n (Nat.lt_of_succ_lt hn)) Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS]; · iexact HS
      iintro ⟨H0, H1, H2, H3, H4, H5, H6, HS⟩
      isplitl [HS HR Hg]
      · isplitl [HS]; · iexact HS
        isplitl [HR]; · iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6
    · have hc1 : ¬cond1_1 (grid1.coords ⟨n + 1, hn⟩) := fun h => by
        have := (hcond1_1 ⟨n + 1, hn⟩).mp h; dsimp only at this; omega
      rw [Dat.leavesExact_idle (dat1 V c) 6 ⟨n + 1, hn⟩ (idleAt1_6 _ hc1) (noFlush1_6 _ hc1)]
      iintro ⟨⟨HS, HR, Hg⟩, Ho, ⟨%d0, H0⟩, ⟨%d1, H1⟩, ⟨%d2, H2⟩, ⟨%d3, H3⟩, ⟨%d4, H4⟩, ⟨%d5, H5⟩, ⟨%d6, H6⟩⟩
      iapply (pool_mid c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1 (Memref.isWhole_whole _) hc0 hc1
        (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) ((dat1 V c).before 6 ⟨n + 1, hn⟩ d6) (accAt1 V c n (Nat.lt_of_succ_lt hn)) Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS]; · iexact HS
      iintro ⟨H0, H1, H2, H3, H4, H5, H6, HS⟩
      isplitl [HS HR Hg]
      · isplitl [HS]; · iexact HS
        isplitl [HR]; · iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6

/-! ## The body obligation and the invariant's two ends -/

/-- The library's body obligation, at every point: the windows conjoined one by one, then the point's case. -/
theorem body_obligation1 (c : Dev nD) :
    BodyObligation (dat1 (F := F) V c) (defs₀ (F := F)) Variants.none () Set.univ := fun t => by
  rw [bigSep_W1, bigSep_W1]
  exact sound_body1 V c t

/-- The region's entry: the class's invariant is the proof data's at the first point. -/
theorem hin1 (c : Dev nD) : Pipeline.ΦA spec1 c ⊢ (dat1 V c).Φ 0 := by
  rw [show (dat1 V c).Φ 0 = PhiS1 V c 0 (Nat.zero_le _) from rfl, PhiS1_zero]
  try exact Idealize.SL.BI.Entails.refl _

/-- The region's exit: the invariant after the last point gives the class's back (the accumulator at some contents). -/
theorem hout1 (c : Dev nD) : (dat1 V c).Φ (Fin.last cfg1.N) ⊢ Pipeline.ΦA spec1 c := by
  rw [show (dat1 V c).Φ (Fin.last cfg1.N) = PhiS1 V c (24 + 1) (Nat.le_of_eq (show 24 + 1 = cfg1.N from N_1.symm)) from rfl, PhiS1_succ]
  refine BIBase.Entails.trans ?_ (PhiA1_close c)
  iintro ⟨HS, HR, Hg⟩
  isplitl [HS]; · iexists _; iexact HS
  isplitl [HR]; · iexact HR
  iexact Hg

end Cert.KernelIdeal.Hand

end
-- ==== Proof.Run.lean ====
/-
  The whole program's run: the first region, three stretches of host operations, the second region. Every weakly
  fair execution ends, nothing faults, the arguments end as launched, and the result buffer holds what the second
  region's write-backs leave, computed from what the host operations make of the first region's result.
-/
import proofs.«428440_j16372415332644_2_alg».proof.Proof.Region0
import proofs.«428440_j16372415332644_2_alg».proof.Proof.Region1
import proofs.«428440_j16372415332644_2_alg».proof.Proof.Gen.KernelIdeal.Regions

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the two regions leave -/

/-- The first region's entry contents: the launch memory. -/
abbrev E0 : (c : Dev nD) → (b : Ref sig .tc) → Buf (Elt F) ((c : Thread nD τ).loc b) := fun c b => Gen.V0 m c b

/-- What the first region leaves in its result array: its write-backs folded over the twenty points. -/
def h0 (c : Dev nD) : Buf (Elt F) ((c : Thread nD τ).loc main_v0) := (dat0 (E0 m) c).arrAt 2 cfg0.N

/-- The contents the regions leave, as far as the first region: `main_v0` at `h0`. -/
def outs1 : Gen.Outs (F := F) := fun _ r c => Function.update (Gen.V0 m c) main_v0 (h0 m c) r

/-- The second region's entry contents: the launch memory, the first region's result, the host operations' results. -/
abbrev E1 : (c : Dev nD) → (b : Ref sig .tc) → Buf (Elt F) ((c : Thread nD τ).loc b) := fun c b => Gen.V4 m (outs1 m) c b

/-- What the second region leaves in the program's result array. -/
def out1 (c : Dev nD) : Buf (Elt F) ((c : Thread nD τ).loc main_v41) := (dat1 (E1 m) c).arrAt 6 cfg1.N

/-! ## The contents between items -/

/-- What the regions leave in the buffers they may change: the first region's result array at `h0`, the second's
    at `out1`. -/
def outs : Gen.Outs (F := F) := fun J r c =>
  if J = 5 then Function.update (Gen.V4 m (outs1 m) c) main_v41 (out1 m c) r else outs1 m J r c

theorem outs_one (c : Dev nD) : outs m 1 main_v0 c = h0 m c := by
  unfold outs outs1
  rw [if_neg (by decide)]
  exact Function.update_self ..

theorem outs_five (c : Dev nD) : outs m 5 main_v41 c = out1 m c := by
  unfold outs
  rw [if_pos rfl]
  exact Function.update_self ..

theorem outs1_one (c : Dev nD) : outs1 m 1 main_v0 c = h0 m c := by
  unfold outs1
  exact Function.update_self ..

/-- The contents after the first region do not depend on what the second leaves. -/
theorem V1_outs (c : Dev nD) : Gen.V1 m (outs m) c = Gen.V1 m (outs1 m) c := by
  show Function.update (Gen.V0 m c) main_v0 (outs m 1 main_v0 c) = Function.update (Gen.V0 m c) main_v0 (outs1 m 1 main_v0 c)
  rw [outs_one, outs1_one]

/-- Nor do the contents the second region is entered from. -/
theorem V4_outs (c : Dev nD) : Gen.V4 m (outs m) c = Gen.V4 m (outs1 m) c := by
  show StableHlo.after hostOps1_2 (StableHlo.after hostOps1_1 (StableHlo.after hostOps1 (Gen.V1 m (outs m) c)))
    = StableHlo.after hostOps1_2 (StableHlo.after hostOps1_1 (StableHlo.after hostOps1 (Gen.V1 m (outs1 m) c)))
  rw [V1_outs]

/-- The contents the first region leaves, read at the TensorCore's references. -/
abbrev left0 : (c : Dev nD) → (b : Ref sig .tc) → Buf (Elt F) ((c : Thread nD τ).loc b) := fun c b => Gen.V1 m (outs m) c b
/-- The contents the second region leaves, read at the TensorCore's references. -/
abbrev left1 : (c : Dev nD) → (b : Ref sig .tc) → Buf (Elt F) ((c : Thread nD τ).loc b) := fun c b => Gen.V5 m (outs m) c b

/-- At the first region's exit each of its arrays holds what the pipeline leaves: the two inputs what they held,
    the result array the folded write-backs. -/
theorem hF0 (c : Dev nD) : ∀ w : Fin cfg0.W, (dat0 (E0 m) c).arrAt w cfg0.N = left0 m c (Pipeline.arrRef spec0 w)
  | ⟨0, _⟩ => ((dat0 (E0 m) c).arrAt_in 0 rfl _).trans ((A_eq0 (E0 m) c 0).trans (Gen.V1_of m (outs m) c main_arg0 (by decide)).symm)
  | ⟨1, _⟩ => ((dat0 (E0 m) c).arrAt_in 1 rfl _).trans ((A_eq0 (E0 m) c 1).trans (Gen.V1_of m (outs m) c main_arg3 (by decide)).symm)
  | ⟨2, _⟩ => by
    show h0 m c = Function.update (Gen.V0 m c) (Proc.devRef .tc main_v0) (outs m 1 main_v0 c) (Proc.devRef .tc main_v0)
    rw [Function.update_self, outs_one]

/-- Every other buffer holds what it held when the first region was entered. -/
theorem hrest0 (c : Dev nD) : ∀ b, b ∉ Finset.univ.image (Pipeline.arrRef spec0) → left0 m c b = E0 m c b :=
  fun b hb => Gen.V1_of m (outs m) c b fun hmem => hb (Finset.mem_image.mpr ⟨2, Finset.mem_univ _, (List.mem_singleton.mp hmem).symm⟩)

/-- At the second region's exit each of its arrays holds what the pipeline leaves: the six inputs what they held,
    the result array the folded write-backs. -/
theorem hF1 (c : Dev nD) : ∀ w : Fin cfg1.W, (dat1 (E1 m) c).arrAt w cfg1.N = left1 m c (Pipeline.arrRef spec1 w)
  | ⟨0, _⟩ => ((dat1 (E1 m) c).arrAt_in 0 rfl _).trans ((A_eq1 (E1 m) c 0).trans
      ((Gen.V5_of m (outs m) c main_v35 (by decide)).trans (congrFun (V4_outs m c) _)).symm)
  | ⟨1, _⟩ => ((dat1 (E1 m) c).arrAt_in 1 rfl _).trans ((A_eq1 (E1 m) c 1).trans
      ((Gen.V5_of m (outs m) c main_v36 (by decide)).trans (congrFun (V4_outs m c) _)).symm)
  | ⟨2, _⟩ => ((dat1 (E1 m) c).arrAt_in 2 rfl _).trans ((A_eq1 (E1 m) c 2).trans
      ((Gen.V5_of m (outs m) c main_v37 (by decide)).trans (congrFun (V4_outs m c) _)).symm)
  | ⟨3, _⟩ => ((dat1 (E1 m) c).arrAt_in 3 rfl _).trans ((A_eq1 (E1 m) c 3).trans
      ((Gen.V5_of m (outs m) c main_v39 (by decide)).trans (congrFun (V4_outs m c) _)).symm)
  | ⟨4, _⟩ => ((dat1 (E1 m) c).arrAt_in 4 rfl _).trans ((A_eq1 (E1 m) c 4).trans
      ((Gen.V5_of m (outs m) c main_arg5 (by decide)).trans (congrFun (V4_outs m c) _)).symm)
  | ⟨5, _⟩ => ((dat1 (E1 m) c).arrAt_in 5 rfl _).trans ((A_eq1 (E1 m) c 5).trans
      ((Gen.V5_of m (outs m) c main_v40 (by decide)).trans (congrFun (V4_outs m c) _)).symm)
  | ⟨6, _⟩ => by
    show out1 m c = Function.update (Gen.V4 m (outs m) c) (Proc.devRef .tc main_v41) (outs m 5 main_v41 c) (Proc.devRef .tc main_v41)
    rw [Function.update_self, outs_five]

/-- Every other buffer holds what it held when the second region was entered. -/
theorem hrest1 (c : Dev nD) : ∀ b, b ∉ Finset.univ.image (Pipeline.arrRef spec1) → left1 m c b = E1 m c b :=
  fun b hb => (Gen.V5_of m (outs m) c b fun hmem => hb (Finset.mem_image.mpr ⟨6, Finset.mem_univ _, (List.mem_singleton.mp hmem).symm⟩)).trans
    (congrFun (V4_outs m c) _)

/-! ## The proof data and what rides beside the buffers -/

/-- Both pipelines' proof data, each at its region's entry contents. -/
def pdats : (p : Fin 2) → (c : Dev nD) → Dat τ (Elt F) Unit ℕ (UR sig nD τ) ℕ (Pipeline.pin (pcfgs (F := F)) adm p) c
  | ⟨0, _⟩ => fun c => dat0 (E0 m) c
  | ⟨1, _⟩ => fun c => dat1 (E1 m) c

/-- No core owes another anything: no level is assigned. -/
abbrev noPairs : GSem nD τ sig → Finset Unit := fun _ => ∅
abbrev noLevel : GSem nD τ sig → Unit → ℕ := fun _ _ => 0

/-- What rides beside the buffers through every item: the core's generator register at some state and the core
    owing nothing. -/
abbrev beside (c : Dev nD) : sProp 𝕄 := iprop((∃ r, prngReg c r) ∗ ∃ W, owes (c : Thread nD τ) (0 : CellTallies nD τ sig Unit) W)

/-- The same rest between any two items. -/
abbrev besideAt : Fin 3 → Dev nD → sProp 𝕄 := fun _ c => beside (F := F) c

/-! ## The regions as segments -/

set_option backward.isDefEq.respectTransparency.types false in
/-- The first region over the thread state: entered with every unscoped buffer at the launch contents, left with
    the result array replaced by the folded write-backs. Its arrays are split out of the unscoped buffers at entry
    and put back at exit; the generator register goes into the invariant and comes out; nothing is owed. -/
def reg0 : RegionSeg (pcfgs (F := F)) adm (pdats m) () defs₀ Variants.none noPairs noLevel 0 where
  win := launch0.win.to₀
  block_pos := launch0.block_pos
  stage_whole := launch0.stage_whole
  K := PEmpty
  osem k := k.elim
  ho := Pipeline.OwnSemFacts.none _
  hbody c := (body_obligation0 (E0 m) c).loose
  hwaits := Pipeline.hwaits_of_owed_zero _ _ _ _ noPairs noLevel 0 fun _ _ => rfl
  pre c := iprop(StableHlo.held (c : Thread nD τ) (Pipeline.ucRefs τ sig) (Gen.V0 m c) ∗ beside c)
  post c := iprop(StableHlo.held (c : Thread nD τ) (Pipeline.ucRefs τ sig) (Gen.V1 m (outs m) c) ∗ beside c)
  X c := iprop(∃ r, prngReg c r)
  Y c := iprop(∃ r, prngReg c r)
  Z c := Pipeline.unscopedRest (Ix := Unit) (Name := ℕ) (U := UR sig nD τ) (Lvl := ℕ) spec0 c (E0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (E0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (E0 m c) (left0 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second region over the thread state: entered with every unscoped buffer at what the host operations made
    of the first region's result, left with the program's result array replaced by the folded write-backs. The
    invariant's two ends are the region's own (the carried accumulator); the rest is as in the first region. -/
def reg1 : RegionSeg (pcfgs (F := F)) adm (pdats m) () defs₀ Variants.none noPairs noLevel 1 where
  win := launch1.win.to₀
  block_pos := launch1.block_pos
  stage_whole := launch1.stage_whole
  K := PEmpty
  osem k := k.elim
  ho := Pipeline.OwnSemFacts.none _
  hbody c := (body_obligation1 (E1 m) c).loose
  hwaits := Pipeline.hwaits_of_owed_zero _ _ _ _ noPairs noLevel 1 fun _ _ => rfl
  pre c := iprop(StableHlo.held (c : Thread nD τ) (Pipeline.ucRefs τ sig) (Gen.V4 m (outs m) c) ∗ beside c)
  post c := iprop(StableHlo.held (c : Thread nD τ) (Pipeline.ucRefs τ sig) (Gen.V5 m (outs m) c) ∗ beside c)
  X c := iprop(∃ r, prngReg c r)
  Y c := iprop(∃ r, prngReg c r)
  Z c := Pipeline.unscopedRest (Ix := Unit) (Name := ℕ) (U := UR sig nD τ) (Lvl := ℕ) spec1 c (E1 m c)
  hentry c := by
    rw [Pipeline.ownSems0_none, V4_outs m c]
    have hsplit := Pipeline.arrays_of_unscopedBufs (p := 1) (pcfgs (F := F)) adm (pdats m) launch1.win launch1.arr_whole c
      ((pdats m 1 c).share_full fun _ => rfl) (E1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin1 (E1 m) c)
    unfold Pipeline.ΦA
    iintro ⟨Hp, -, Hr⟩
    isplitl [Hr]; · iexact Hr
    iexact Hp
  hout c := by
    rw [Pipeline.ownSems0_none]
    refine BIBase.Entails.trans (hout1 (E1 m) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (E1 m c) (left1 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- The program's result array after the last item. -/
theorem V5_out (c : Dev nD) : Gen.V5 m (outs m) c (Proc.devRef .tc main_v41) = out1 m c := by
  show Function.update (Gen.V4 m (outs m) c) (Proc.devRef .tc main_v41) (outs m 5 main_v41 c) (Proc.devRef .tc main_v41) = out1 m c
  rw [Function.update_self, outs_five]

/-! ## The run -/

set_option backward.isDefEq.respectTransparency.types false in
/-- From any memory with zero counters every weakly fair execution of the program terminates, nothing faulting; the
    result array ends at `out1` and every argument array as launched. -/
theorem run_value : θ_run defs (onTc (τ := τ) (main (F := F))) ⟨m, fun _ => 0, ρ⟩ (fun r => ∀ c : Dev nD,
      r.2.mem ((c.tc : Thread nD τ).loc main_v41) = out1 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) := by
  refine Pipeline.θ_run_regions_kit_dev (pcfgs (F := F)) adm (pdats m) () cellOf_inj emb₁ defs₀ Variants.none noPairs noLevel m ρ main
    (Gen.segs m (outs m) Variants.none noPairs noLevel (besideAt (F := F)) () (pdats m) (reg0 m) (reg1 m))
    (fun c Q => by
      rewrite [main_chain c, Seg.run_eq_chain,
        show (Gen.segs m (outs m) Variants.none noPairs noLevel (besideAt (F := F)) () (pdats m) (reg0 m) (reg1 m) c).map Seg.prog = [
          Prog.lift (.customCall (Pipeline.entry 0) ()),
          StableHlo.seq hostOps1,
          StableHlo.seq hostOps1_1,
          StableHlo.seq hostOps1_2,
          Prog.lift (.customCall (Pipeline.entry 1) ()) ] from rfl]
      exact .rfl)
    (fun c => by simp only [Gen.segs, Seg.pipes_host, Seg.pipes_region, Seg.pipes_nil]; decide)
    (O₀ := 0) (hL := fun _ _ => rfl) (G := fun _ => iprop(emp))
    (u₀ := initOf (Pipeline.cells cfgs cellOf_inj) (Pipeline.launchToks cfgs cellOf_inj))
    (hu₀ := ?_)
    (T₀ := fun c => iprop(StableHlo.held (c : Thread nD τ) (Pipeline.ucRefs τ sig) (Gen.V0 m c) ∗ beside c))
    (Tₙ := fun c => StableHlo.held (c : Thread nD τ) (Pipeline.ucRefs τ sig) (Gen.V5 m (outs m) c))
    (hch := fun c => ⟨.rfl, .rfl, .rfl, .rfl, .rfl, sep_mono .rfl (by iintro ⟨-, HO⟩; iexact HO)⟩)
    (hinit := ?_)
    (QY := fun c s => s.mem ((c.tc : Thread nD τ).loc main_v41) = out1 m c
      ∧ s.mem ((c.tc : Thread nD τ).loc main_arg0) = m ((c.tc : Thread nD τ).loc main_arg0)
      ∧ s.mem ((c.tc : Thread nD τ).loc main_arg1) = m ((c.tc : Thread nD τ).loc main_arg1)
      ∧ s.mem ((c.tc : Thread nD τ).loc main_arg2) = m ((c.tc : Thread nD τ).loc main_arg2)
      ∧ s.mem ((c.tc : Thread nD τ).loc main_arg3) = m ((c.tc : Thread nD τ).loc main_arg3)
      ∧ s.mem ((c.tc : Thread nD τ).loc main_arg4) = m ((c.tc : Thread nD τ).loc main_arg4)
      ∧ s.mem ((c.tc : Thread nD τ).loc main_arg5) = m ((c.tc : Thread nD τ).loc main_arg5)
      ∧ s.mem ((c.tc : Thread nD τ).loc main_arg6) = m ((c.tc : Thread nD τ).loc main_arg6))
    (hfin := fun c s' => ?_) (hQ := fun _ h => h)
  · -- the launch element is the pipelines' own; no ghost resource is dealt
    iintro Hu; imodintro
    isplitl [Hu]
    · iapply (show (ownU (initOf (Pipeline.cells cfgs cellOf_inj) (Pipeline.launchToks cfgs cellOf_inj)) : sProp 𝕄)
          ⊢ BI.own (emb₁ (initOf (Pipeline.cells cfgs cellOf_inj) (Pipeline.launchToks cfgs cellOf_inj))) from .rfl)
      iexact Hu
    iapply (show (BI.emp : sProp 𝕄) ⊢ bigSep Finset.univ (fun _ : Dev nD => (BI.emp : sProp 𝕄)) from by rw [BI.bigSep_emp_const])
    iempintro
  · -- the launch: each core's unscoped buffers at the launch memory, its generator register, nothing owed
    refine Pipeline.initEach noPairs noLevel fun c => ?_
    rw [show unscopedBufs c (fun b => m ((c : Thread nD τ).loc b)) = StableHlo.held (c : Thread nD τ) (Pipeline.ucRefs τ sig) (Gen.V0 m c)
      from Pipeline.unscopedBufs_held c (Gen.V0 m c)]
    iintro ⟨⟨Hh, -, HO, -, Hp, -⟩, -⟩
    imodintro
    isplitl [Hh]; · iexact Hh
    isplitl [Hp]; · iexists _; iexact Hp
    iexists ∅; iexact HO
  · -- the end: the result array and each argument's buffer read off the last contents
    unfold StableHlo.held
    iintro ⟨Hh, HSI⟩
    ihave Hr := (pointsTo_read_all (Pipeline.ucRefs τ sig) (fun b => ((c : Thread nD τ).1, b)) (Gen.V5 m (outs m) c) s') $$ [Hh HSI]
    · isplitl [Hh] <;> iassumption
    icases Hr with ⟨%h, HSI⟩
    imodintro
    isplitr
    · ipureintro
      exact ⟨(h (Proc.devRef .tc main_v41) (Finset.mem_filter.mpr ⟨StableHlo.devRef_mem_tcRefs main_v41, by decide⟩)).trans (V5_out m c),
        (h (Proc.devRef .tc main_arg0) (Finset.mem_filter.mpr ⟨StableHlo.devRef_mem_tcRefs main_arg0, by decide⟩)).trans (Gen.V5_main_arg0 m (outs m) c),
        (h (Proc.devRef .tc main_arg1) (Finset.mem_filter.mpr ⟨StableHlo.devRef_mem_tcRefs main_arg1, by decide⟩)).trans (Gen.V5_main_arg1 m (outs m) c),
        (h (Proc.devRef .tc main_arg2) (Finset.mem_filter.mpr ⟨StableHlo.devRef_mem_tcRefs main_arg2, by decide⟩)).trans (Gen.V5_main_arg2 m (outs m) c),
        (h (Proc.devRef .tc main_arg3) (Finset.mem_filter.mpr ⟨StableHlo.devRef_mem_tcRefs main_arg3, by decide⟩)).trans (Gen.V5_main_arg3 m (outs m) c),
        (h (Proc.devRef .tc main_arg4) (Finset.mem_filter.mpr ⟨StableHlo.devRef_mem_tcRefs main_arg4, by decide⟩)).trans (Gen.V5_main_arg4 m (outs m) c),
        (h (Proc.devRef .tc main_arg5) (Finset.mem_filter.mpr ⟨StableHlo.devRef_mem_tcRefs main_arg5, by decide⟩)).trans (Gen.V5_main_arg5 m (outs m) c),
        (h (Proc.devRef .tc main_arg6) (Finset.mem_filter.mpr ⟨StableHlo.devRef_mem_tcRefs main_arg6, by decide⟩)).trans (Gen.V5_main_arg6 m (outs m) c)⟩
    · iexact HSI

end Cert.KernelIdeal.Hand

end
-- ==== Proof.KRegion0.lean ====
/-
  The first kernel region: twenty row blocks of 5000 nodes, each block's features times the whole weight matrix.
  What each window's staging buffer holds after the body at a point, the region's proof data, and the body's
  obligation at every point.
-/
import proofs.«428440_j16372415332644_2_alg».proof.Proof.Gen.Kernel.Launch
import proofs.«428440_j16372415332644_2_alg».proof.Proof.Gen.Kernel.Skeleton
import proofs.«428440_j16372415332644_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! ## The proof data -/

/-- After the body at point `t`: the two inputs' buffers at their blocks, the output's at the product of the
    row block and the weights. The invariant is the untouched scoped rest; nothing is owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => k0_pay1 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) :
    (dat0 V c).after 2 t = k0_pay1 (iblk0 V c 0 t) (iblk0 V c 1 t) := by dsimp only [dat0]

/-! ## What the body finds in the inputs' buffers -/

/-- The two offsets of a whole-buffer rectangle are both zero. -/
theorem hz_lin : (![0, 0] : Fin 2 → Nat) = fun _ => 0 := by
  funext a; fin_cases a <;> rfl

/-- The row block's buffer holds the row block at every point: it is fetched at every point. -/
theorem before0_0 (c : Dev nD) (t : Fin cfg0.N) (d) : (dat0 V c).before 0 t d = iblk0 V c 0 t :=
  ((dat0 V c).before_in_eq_fetched 0 rfl (fun _ => rfl) (fun _ _ _ => rfl)
    (fun t => by rw [after0_0]; unfold Dat.blockOf iblk0; rw [A_eq0]; try rfl) t d).trans
    (by unfold Dat.fetched Dat.blockOf iblk0; rw [A_eq0]; try rfl)

/-- The weights' buffer holds the weights at every point: fetched at the first, and afterwards the body has left
    them in place and the block's index has not moved. -/
theorem before0_1 (c : Dev nD) (t : Fin cfg0.N) (d) : (dat0 V c).before 1 t d = iblk0 V c 1 t :=
  ((dat0 V c).before_in_eq_fetched 1 rfl (fun _ => rfl) (fun _ _ _ => rfl)
    (fun t => by rw [after0_1]; unfold Dat.blockOf iblk0; rw [A_eq0]; try rfl) t d).trans
    (by unfold Dat.fetched Dat.blockOf iblk0; rw [A_eq0]; try rfl)

/-! ## The body's triple -/

set_option maxHeartbeats 1000000 in
/-- The body on whole buffers, the inputs' at contents `x0` and `x1` and the output's at anything, runs to the
    continuation with the inputs' as they were and the output's at the product: its one store goes through the whole
    buffer, so what was there before (which the body also loads, and never uses) does not matter. -/
theorem sound_kernel0 (c : Dev nD) (E : Set ℕ) (i : grid0.Coords)
    (arg1 : Memref sig .tc .vmem S5000x11 .f32) (harg1 : arg1.IsWhole)
    (arg2 : Memref sig .tc .vmem S11x32 .f32) (harg2 : arg2.IsWhole)
    (arg3 : Memref sig .tc .vmem S5000x32 .f32) (harg3 : arg3.IsWhole)
    (x0 : Vec F S5000x11 .f32) (x1 : Vec F S11x32 .f32) (K : PUnit → sProp 𝕄) :
    iprop(owns (c : Thread nD τ) arg1 fullShare x0 ∗ owns (c : Thread nD τ) arg2 fullShare x1
        ∗ (∃ d, owns (c : Thread nD τ) arg3 fullShare d)
        ∗ (iprop(owns (c : Thread nD τ) arg1 fullShare x0 ∗ owns (c : Thread nD τ) arg2 fullShare x1
            ∗ owns (c : Thread nD τ) arg3 fullShare (k0_pay1 x0 x1)) -∗ K ⟨⟩))
      ⊢ wp frame (wpE (defs₀ (F := F)) Variants.none c none) E (cc0__linear_kernel i arg1 harg1 arg2 harg2 arg3 harg3) K := by
  simp only [cc0__linear_kernel_eq_skeleton]; unfold cc0__linear_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  rw [View.read_writes_eq_canon _ _ _ (fun y => ⟨_, List.mem_singleton_self _, View.mem_set_unit_zero hz_lin inb_S5000x32_S5000x32_0_0 y⟩),
    View.canon_unit_zero hz_lin]
  simp only [View.readAt_eq_ld, View.ld_unit_zero (S := S5000x11) hz_lin, View.ld_unit_zero (S := S11x32) hz_lin]

/-! ## The body obligation -/

/-- What the body is handed at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it hands back. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' buffers hold their blocks, so the body's triple applies; the invariant and
    what is owed pass through untouched. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- At every point the body, handed the two input blocks and the output buffer at anything, leaves the inputs in
    place and the output buffer at the product. -/
theorem body_obligation0 (c : Dev nD) :
    BodyObligation (dat0 (F := F) V c) (defs₀ (F := F)) Variants.none () Set.univ := fun t => by
  rw [bigSep_W0, bigSep_W0]
  exact sound_body0 V c t

end Cert.Kernel.Hand

end
-- ==== Proof.KRegion1.lean ====
/-
  The second kernel region: twenty-five row blocks of 4000 nodes. A 64 × 33 accumulator carried between points
  collects, per graph, the sum of the rectified features and (in its last column) the node count; the last
  point divides, applies the output layer and stores the 64 × 1 result.
-/
import proofs.«428440_j16372415332644_2_alg».proof.Proof.Gen.Kernel.Launch
import proofs.«428440_j16372415332644_2_alg».proof.Proof.Gen.Kernel.Skeleton
import proofs.«428440_j16372415332644_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! ## The accumulator -/

/-- The carried scratch buffer as the kernel's body is handed it. -/
abbrev scM1 : Memref sig .tc .vmem S64x33 .f32 := Memref.whole cc1_scratch0

/-- The accumulator after point `n`: zeroed at the first point, then each point's block added in. -/
def accAt1 (c : Dev nD) : (n : ℕ) → n < cfg1.N → Vec F S64x33 .f32
  | 0, hn => k1_pay2 (iblk1 V c 0 ⟨0, hn⟩) (iblk1 V c 2 ⟨0, hn⟩) (iblk1 V c 1 ⟨0, hn⟩) (iblk1 V c 3 ⟨0, hn⟩) (k1_pay1 (F := F))
  | n + 1, hn => k1_pay2 (iblk1 V c 0 ⟨n + 1, hn⟩) (iblk1 V c 2 ⟨n + 1, hn⟩) (iblk1 V c 1 ⟨n + 1, hn⟩) (iblk1 V c 3 ⟨n + 1, hn⟩)
      (accAt1 c n (Nat.lt_of_succ_lt hn))

theorem accAt1_zero (c : Dev nD) (hn : 0 < cfg1.N) :
    accAt1 V c 0 hn = k1_pay2 (iblk1 V c 0 ⟨0, hn⟩) (iblk1 V c 2 ⟨0, hn⟩) (iblk1 V c 1 ⟨0, hn⟩) (iblk1 V c 3 ⟨0, hn⟩) (k1_pay1 (F := F)) := rfl

theorem accAt1_succ (c : Dev nD) (n : ℕ) (hn : n + 1 < cfg1.N) :
    accAt1 V c (n + 1) hn = k1_pay2 (iblk1 V c 0 ⟨n + 1, hn⟩) (iblk1 V c 2 ⟨n + 1, hn⟩) (iblk1 V c 1 ⟨n + 1, hn⟩) (iblk1 V c 3 ⟨n + 1, hn⟩)
      (accAt1 V c n (Nat.lt_of_succ_lt hn)) := rfl

/-- The two slices of the accumulator the last point reads: the 32 feature columns and the count column. -/
abbrev rSum : Rect S64x33 := Rect.unit (s := S64x33) ![0, 0] S64x32.size inb_S64x33_S64x32_0_0
abbrev rCnt : Rect S64x33 := Rect.unit (s := S64x33) ![0, 32] S64x1.size inb_S64x33_S64x1_0_32

/-- What the last point stores into the output buffer, from the accumulator after point `t`. -/
def outAt1 (c : Dev nD) (t : Fin cfg1.N) : Vec F S64x1 .f32 :=
  k1_pay3 (View.ld (accAt1 V c t.val t.isLt) rSum) (View.ld (accAt1 V c t.val t.isLt) rCnt) (iblk1 V c 4 t) (iblk1 V c 5 t)

/-! ## The invariant -/

/-- The other kernel's staging buffers, which this region never touches, each at some contents. -/
def restS1 (c : Dev nD) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg2_1), ((c : Thread nD τ).loc cc0_stg2_1) ↦{fullShare} f))

/-- Before the first point every scoped buffer is at anything; after point `n` the accumulator holds `accAt1 n`. -/
def PhiS1 (c : Dev nD) : (n : ℕ) → n ≤ cfg1.N → sProp 𝕄
  | 0, _ => Pipeline.ΦA spec1 c
  | n + 1, hn => iprop(owns (c : Thread nD τ) scM1 fullShare (accAt1 V c n hn) ∗ restS1 (F := F) c ∗ (∃ r, prngReg c r))

theorem PhiS1_zero (c : Dev nD) (h : 0 ≤ cfg1.N) : PhiS1 V c 0 h = Pipeline.ΦA spec1 c := rfl
theorem PhiS1_succ (c : Dev nD) (n : ℕ) (hn : n < cfg1.N) :
    PhiS1 V c (n + 1) hn = iprop(owns (c : Thread nD τ) scM1 fullShare (accAt1 V c n hn) ∗ restS1 (F := F) c ∗ (∃ r, prngReg c r)) := rfl

/-! ## The proof data -/

/-- After the body at point `t`: every input's buffer at its block; the output's at what the last point stores
    (at the earlier points the window is idle and the obligation hands its buffer back as found, so this value is
    read at the last point only). -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => outAt1 V c t
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem after1_6 (c : Dev nD) (t : Fin cfg1.N) : (dat1 V c).after 6 t = outAt1 V c t := by dsimp only [dat1]

/-! ## The branch conditions over the grid -/

/-- The first conditional's test: the point's coordinate is zero. -/
abbrev cond1_0 (i : grid1.Coords) : Prop :=
  (Scalar.cmpi .ne (Scalar.extui (Scalar.cmpi .eq (BitVec.ofNat 32 (i 0).val) 0#32)) 0#32) = 1#1

theorem hcond1_0 : ∀ t : Fin cfg1.N, cond1_0 (grid1.coords t) ↔ t.val % 25 = 0 :=
  (by decide +kernel : ∀ t : Fin grid1.N, cond1_0 (grid1.coords t) ↔ t.val % 25 = 0)

/-- The second conditional's test: the point is the last. -/
abbrev cond1_1 (i : grid1.Coords) : Prop := k1_cond2 i = 1#1

theorem hcond1_1 : ∀ t : Fin cfg1.N, cond1_1 (grid1.coords t) ↔ t.val % 25 = 24 :=
  (by decide +kernel : ∀ t : Fin grid1.N, cond1_1 (grid1.coords t) ↔ t.val % 25 = 24)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
theorem liveAt1_4 : ∀ t : Fin cfg1.N, cfg1.idle 4 (grid1.coords t) = false := by decide +kernel
theorem liveAt1_5 : ∀ t : Fin cfg1.N, cfg1.idle 5 (grid1.coords t) = false := by decide +kernel
/-- Away from the last point the output window is idle and is not written back; at the last point it is live. -/
theorem idleAt1_6 : ∀ t : Fin cfg1.N, ¬cond1_1 (grid1.coords t) → cfg1.idle 6 (grid1.coords t) = true := by decide +kernel
theorem noFlush1_6 : ∀ t : Fin cfg1.N, ¬cond1_1 (grid1.coords t) → (cfg1.win 6).flush t = false := by decide +kernel
theorem liveAt1_6 : ∀ t : Fin cfg1.N, cond1_1 (grid1.coords t) → cfg1.idle 6 (grid1.coords t) = false := by decide +kernel

/-! ## What the body finds in the inputs' buffers -/

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]

/-- Every input's current buffer holds its block at every point, fetched there or not. -/
theorem before1_0 (c : Dev nD) (t : Fin cfg1.N) (d) : (dat1 V c).before 0 t d = iblk1 V c 0 t :=
  ((dat1 V c).before_in_eq_fetched 0 rfl (fun _ => rfl) (fun _ _ _ => rfl)
    (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl)
    (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl)
    (fun t => by rw [after1_2]; unfold Dat.blockOf iblk1; rw [A_eq1]; try rfl) t d).trans
    (by unfold Dat.fetched Dat.blockOf iblk1; rw [A_eq1]; try rfl)
theorem before1_3 (c : Dev nD) (t : Fin cfg1.N) (d) : (dat1 V c).before 3 t d = iblk1 V c 3 t :=
  ((dat1 V c).before_in_eq_fetched 3 rfl (fun _ => rfl) (fun _ _ _ => rfl)
    (fun t => by rw [after1_3]; unfold Dat.blockOf iblk1; rw [A_eq1]; try rfl) t d).trans
    (by unfold Dat.fetched Dat.blockOf iblk1; rw [A_eq1]; try rfl)
theorem before1_4 (c : Dev nD) (t : Fin cfg1.N) (d) : (dat1 V c).before 4 t d = iblk1 V c 4 t :=
  ((dat1 V c).before_in_eq_fetched 4 rfl (fun _ => rfl) (fun _ _ _ => rfl)
    (fun t => by rw [after1_4]; unfold Dat.blockOf iblk1; rw [A_eq1]; try rfl) t d).trans
    (by unfold Dat.fetched Dat.blockOf iblk1; rw [A_eq1]; try rfl)
theorem before1_5 (c : Dev nD) (t : Fin cfg1.N) (d) : (dat1 V c).before 5 t d = iblk1 V c 5 t :=
  ((dat1 V c).before_in_eq_fetched 5 rfl (fun _ => rfl) (fun _ _ _ => rfl)
    (fun t => by rw [after1_5]; unfold Dat.blockOf iblk1; rw [A_eq1]; try rfl) t d).trans
    (by unfold Dat.fetched Dat.blockOf iblk1; rw [A_eq1]; try rfl)

/-! ## The body's three cases over any staging memrefs -/

/-- Offsets `![0, 0]` are the zero offsets. -/
theorem hz_pool : (![0, 0] : Fin 2 → Nat) = fun _ => 0 := by
  funext a; fin_cases a <;> rfl

/-- One store through the whole-shape rectangle covers the shape. -/
theorem cover_unit_pool {Val : EltTy → Type} {S : Shape} {e : EltTy} {off : Fin S.rank → Nat} (h : off = fun _ => 0)
    (inb : ∀ a, off a + S.size a ≤ S.size a) (w : S.Idx → Val e) (y : S.Idx) :
    ∃ p ∈ [(⟨Rect.unit off S.size inb, w⟩ : View.Piece Val S e)], y ∈ p.1.set :=
  ⟨_, List.mem_singleton_self _, View.mem_set_unit_zero h inb y⟩

/-- What the last point's store leaves in the output buffer, the two slices of the accumulator read through their rectangles. -/
theorem out_pieces_pool (arg7 : Memref sig .tc .vmem S64x1 .f32) (arg8 : Memref sig .tc .vmem S64x33 .f32)
    (f7 : arg7.view.ty.Contents (Elt F)) (W : Vec F S64x33 .f32) (x4 : Vec F S32x1 .f32) (x5 : Vec F S1x1 .f32) :
    View.read (Elt F) arg7.view
      (arg7.view.writes (Elt F) f7
        [⟨Rect.unit ![0, 0] S64x1.size inb_S64x1_S64x1_0_0,
            k1_pay3
              (arg8.view.readCov [⟨Rect.unit ![0, 0] S64x33.size inb_S64x33_S64x33_0_0, W⟩]
                (Rect.unit (s := S64x33) ![0, 0] S64x32.size inb_S64x33_S64x32_0_0).toLoadRect)
              (arg8.view.readCov [⟨Rect.unit ![0, 0] S64x33.size inb_S64x33_S64x33_0_0, W⟩]
                (Rect.unit (s := S64x33) ![0, 32] S64x1.size inb_S64x33_S64x1_0_32).toLoadRect)
              x4 x5⟩])
      = k1_pay3 (View.ld W rSum) (View.ld W rCnt) x4 x5 := by
  rw [View.read_writes_eq_canon arg7.view _ _ (cover_unit_pool (S := S64x1) hz_pool inb_S64x1_S64x1_0_0 _),
    View.canon_unit_zero (S := S64x1) hz_pool]
  rw [View.readCov_eq_canon_ld arg8.view _ rSum (cover_unit_pool (S := S64x33) hz_pool inb_S64x33_S64x33_0_0 W),
    View.readCov_eq_canon_ld arg8.view _ rCnt (cover_unit_pool (S := S64x33) hz_pool inb_S64x33_S64x33_0_0 W),
    View.canon_unit_zero (S := S64x33) hz_pool]

set_option maxHeartbeats 1000000 in
/-- The first point: the accumulator is zeroed, then the block is added into it. -/
theorem pool_first (c : Dev nD) (i : grid1.Coords)
    (arg1 : Memref sig .tc .vmem S4000x32 .f32) (harg1 : arg1.IsWhole) (arg2 : Memref sig .tc .vmem S4000x1 .i32) (harg2 : arg2.IsWhole)
    (arg3 : Memref sig .tc .vmem S1x32 .f32) (harg3 : arg3.IsWhole) (arg4 : Memref sig .tc .vmem S1x64 .i32) (harg4 : arg4.IsWhole)
    (arg5 : Memref sig .tc .vmem S32x1 .f32) (harg5 : arg5.IsWhole) (arg6 : Memref sig .tc .vmem S1x1 .f32) (harg6 : arg6.IsWhole)
    (arg7 : Memref sig .tc .vmem S64x1 .f32) (harg7 : arg7.IsWhole) (arg8 : Memref sig .tc .vmem S64x33 .f32) (harg8 : arg8.IsWhole)
    (hc0 : cond1_0 i) (hc1 : ¬cond1_1 i)
    (x0 : Vec F S4000x32 .f32) (x1 : Vec F S4000x1 .i32) (x2 : Vec F S1x32 .f32) (x3 : Vec F S1x64 .i32)
    (x4 : Vec F S32x1 .f32) (x5 : Vec F S1x1 .f32) (y : Vec F S64x1 .f32) (xs : Vec F S64x33 .f32)
    (E : Set ℕ) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ owns (c : Thread nD τ) arg5 fullShare x4 ∗ owns (c : Thread nD τ) arg6 fullShare x5
        ∗ owns (c : Thread nD τ) arg7 fullShare y ∗ owns (c : Thread nD τ) arg8 fullShare xs
        ∗ (iprop(owns (c : Thread nD τ) arg1 fullShare x0 ∗ owns (c : Thread nD τ) arg2 fullShare x1
        ∗ owns (c : Thread nD τ) arg3 fullShare x2 ∗ owns (c : Thread nD τ) arg4 fullShare x3
        ∗ owns (c : Thread nD τ) arg5 fullShare x4 ∗ owns (c : Thread nD τ) arg6 fullShare x5
            ∗ owns (c : Thread nD τ) arg7 fullShare y ∗ owns (c : Thread nD τ) arg8 fullShare (k1_pay2 x0 x2 x1 x3 (k1_pay1 (F := F)))) -∗ K ⟨⟩))
      ⊢ wp frame (wpE (defs₀ (F := F)) Variants.none c none) E
          (cc1__pool_kernel i arg1 harg1 arg2 harg2 arg3 harg3 arg4 harg4 arg5 harg5 arg6 harg6 arg7 harg7 arg8 harg8) K := by
  simp only [cc1__pool_kernel_eq_skeleton]; unfold cc1__pool_kernel_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, Hk⟩
  obtain rfl := harg1.eq_unread hf1; obtain rfl := harg2.eq_unread hf2; obtain rfl := harg3.eq_unread hf3
  obtain rfl := harg4.eq_unread hf4; obtain rfl := harg5.eq_unread hf5; obtain rfl := harg6.eq_unread hf6
  obtain rfl := harg7.eq_unread hf7; obtain rfl := harg8.eq_unread hf8
  sl_exec (disch := first | exact hc0 | exact hc1)
  sl_step
  iapply Hk
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [H5]
  · iexists _; isplitr; · ipureintro; exact hf5
    iexact H5
  isplitl [H6]
  · iexists _; isplitr; · ipureintro; exact hf6
    iexact H6
  isplitl [H7]
  · iexists _; isplitr; · ipureintro; exact hf7
    iexact H7
  iexists _; isplitr
  swap; · iexact H8
  ipureintro
  sl_unfold_words
  rw [View.read_writes_eq_canon _ _ _ (fun y => ⟨_, List.mem_cons_self, View.mem_set_unit_zero (S := S64x33) hz_pool inb_S64x33_S64x33_0_0 y⟩),
    View.canon_cons_unit_zero (S := S64x33) hz_pool]
  simp only [View.readAt_eq_ld, hf1, hf2, hf3, hf4, View.ld_unit_zero (S := S4000x32) hz_pool,
    View.ld_unit_zero (S := S4000x1) hz_pool, View.ld_unit_zero (S := S1x32) hz_pool, View.ld_unit_zero (S := S1x64) hz_pool,
    View.readCov_unit_zero (S := S64x33) _ hz_pool]

set_option maxHeartbeats 1000000 in
/-- A middle point: the block is added into the accumulator; nothing else changes. -/
theorem pool_mid (c : Dev nD) (i : grid1.Coords)
    (arg1 : Memref sig .tc .vmem S4000x32 .f32) (harg1 : arg1.IsWhole) (arg2 : Memref sig .tc .vmem S4000x1 .i32) (harg2 : arg2.IsWhole)
    (arg3 : Memref sig .tc .vmem S1x32 .f32) (harg3 : arg3.IsWhole) (arg4 : Memref sig .tc .vmem S1x64 .i32) (harg4 : arg4.IsWhole)
    (arg5 : Memref sig .tc .vmem S32x1 .f32) (harg5 : arg5.IsWhole) (arg6 : Memref sig .tc .vmem S1x1 .f32) (harg6 : arg6.IsWhole)
    (arg7 : Memref sig .tc .vmem S64x1 .f32) (harg7 : arg7.IsWhole) (arg8 : Memref sig .tc .vmem S64x33 .f32) (harg8 : arg8.IsWhole)
    (hc0 : ¬cond1_0 i) (hc1 : ¬cond1_1 i)
    (x0 : Vec F S4000x32 .f32) (x1 : Vec F S4000x1 .i32) (x2 : Vec F S1x32 .f32) (x3 : Vec F S1x64 .i32)
    (x4 : Vec F S32x1 .f32) (x5 : Vec F S1x1 .f32) (y : Vec F S64x1 .f32) (xs : Vec F S64x33 .f32)
    (E : Set ℕ) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ owns (c : Thread nD τ) arg5 fullShare x4 ∗ owns (c : Thread nD τ) arg6 fullShare x5
        ∗ owns (c : Thread nD τ) arg7 fullShare y ∗ owns (c : Thread nD τ) arg8 fullShare xs
        ∗ (iprop(owns (c : Thread nD τ) arg1 fullShare x0 ∗ owns (c : Thread nD τ) arg2 fullShare x1
        ∗ owns (c : Thread nD τ) arg3 fullShare x2 ∗ owns (c : Thread nD τ) arg4 fullShare x3
        ∗ owns (c : Thread nD τ) arg5 fullShare x4 ∗ owns (c : Thread nD τ) arg6 fullShare x5
            ∗ owns (c : Thread nD τ) arg7 fullShare y ∗ owns (c : Thread nD τ) arg8 fullShare (k1_pay2 x0 x2 x1 x3 xs)) -∗ K ⟨⟩))
      ⊢ wp frame (wpE (defs₀ (F := F)) Variants.none c none) E
          (cc1__pool_kernel i arg1 harg1 arg2 harg2 arg3 harg3 arg4 harg4 arg5 harg5 arg6 harg6 arg7 harg7 arg8 harg8) K := by
  simp only [cc1__pool_kernel_eq_skeleton]; unfold cc1__pool_kernel_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, Hk⟩
  obtain rfl := harg1.eq_unread hf1; obtain rfl := harg2.eq_unread hf2; obtain rfl := harg3.eq_unread hf3
  obtain rfl := harg4.eq_unread hf4; obtain rfl := harg5.eq_unread hf5; obtain rfl := harg6.eq_unread hf6
  obtain rfl := harg7.eq_unread hf7; obtain rfl := harg8.eq_unread hf8
  sl_exec (disch := first | exact hc0 | exact hc1)
  sl_step
  iapply Hk
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [H5]
  · iexists _; isplitr; · ipureintro; exact hf5
    iexact H5
  isplitl [H6]
  · iexists _; isplitr; · ipureintro; exact hf6
    iexact H6
  isplitl [H7]
  · iexists _; isplitr; · ipureintro; exact hf7
    iexact H7
  iexists _; isplitr
  swap; · iexact H8
  ipureintro
  rw [View.read_writes_eq_canon _ _ _ (fun y => ⟨_, List.mem_singleton_self _, View.mem_set_unit_zero (S := S64x33) hz_pool inb_S64x33_S64x33_0_0 y⟩),
    View.canon_unit_zero (S := S64x33) hz_pool]
  simp only [View.readAt_eq_ld, hf1, hf2, hf3, hf4, hf8, View.ld_unit_zero (S := S4000x32) hz_pool,
    View.ld_unit_zero (S := S4000x1) hz_pool, View.ld_unit_zero (S := S1x32) hz_pool, View.ld_unit_zero (S := S1x64) hz_pool,
    View.ld_unit_zero (S := S64x33) hz_pool]

set_option maxHeartbeats 1000000 in
/-- The last point: the block is added into the accumulator, and the output is computed from the result. -/
theorem pool_last (c : Dev nD) (i : grid1.Coords)
    (arg1 : Memref sig .tc .vmem S4000x32 .f32) (harg1 : arg1.IsWhole) (arg2 : Memref sig .tc .vmem S4000x1 .i32) (harg2 : arg2.IsWhole)
    (arg3 : Memref sig .tc .vmem S1x32 .f32) (harg3 : arg3.IsWhole) (arg4 : Memref sig .tc .vmem S1x64 .i32) (harg4 : arg4.IsWhole)
    (arg5 : Memref sig .tc .vmem S32x1 .f32) (harg5 : arg5.IsWhole) (arg6 : Memref sig .tc .vmem S1x1 .f32) (harg6 : arg6.IsWhole)
    (arg7 : Memref sig .tc .vmem S64x1 .f32) (harg7 : arg7.IsWhole) (arg8 : Memref sig .tc .vmem S64x33 .f32) (harg8 : arg8.IsWhole)
    (hc0 : ¬cond1_0 i) (hc1 : cond1_1 i)
    (x0 : Vec F S4000x32 .f32) (x1 : Vec F S4000x1 .i32) (x2 : Vec F S1x32 .f32) (x3 : Vec F S1x64 .i32)
    (x4 : Vec F S32x1 .f32) (x5 : Vec F S1x1 .f32) (y : Vec F S64x1 .f32) (xs : Vec F S64x33 .f32)
    (E : Set ℕ) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ owns (c : Thread nD τ) arg5 fullShare x4 ∗ owns (c : Thread nD τ) arg6 fullShare x5
        ∗ owns (c : Thread nD τ) arg7 fullShare y ∗ owns (c : Thread nD τ) arg8 fullShare xs
        ∗ (iprop(owns (c : Thread nD τ) arg1 fullShare x0 ∗ owns (c : Thread nD τ) arg2 fullShare x1
        ∗ owns (c : Thread nD τ) arg3 fullShare x2 ∗ owns (c : Thread nD τ) arg4 fullShare x3
        ∗ owns (c : Thread nD τ) arg5 fullShare x4 ∗ owns (c : Thread nD τ) arg6 fullShare x5
            ∗ owns (c : Thread nD τ) arg7 fullShare
                (k1_pay3 (View.ld (k1_pay2 x0 x2 x1 x3 xs) rSum) (View.ld (k1_pay2 x0 x2 x1 x3 xs) rCnt) x4 x5)
            ∗ owns (c : Thread nD τ) arg8 fullShare (k1_pay2 x0 x2 x1 x3 xs)) -∗ K ⟨⟩))
      ⊢ wp frame (wpE (defs₀ (F := F)) Variants.none c none) E
          (cc1__pool_kernel i arg1 harg1 arg2 harg2 arg3 harg3 arg4 harg4 arg5 harg5 arg6 harg6 arg7 harg7 arg8 harg8) K := by
  simp only [cc1__pool_kernel_eq_skeleton]; unfold cc1__pool_kernel_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, Hk⟩
  obtain rfl := harg1.eq_unread hf1; obtain rfl := harg2.eq_unread hf2; obtain rfl := harg3.eq_unread hf3
  obtain rfl := harg4.eq_unread hf4; obtain rfl := harg5.eq_unread hf5; obtain rfl := harg6.eq_unread hf6
  obtain rfl := harg7.eq_unread hf7; obtain rfl := harg8.eq_unread hf8
  sl_exec (disch := first | exact hc0 | exact hc1)
  sl_step
  iapply Hk
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [H5]
  · iexists _; isplitr; · ipureintro; exact hf5
    iexact H5
  isplitl [H6]
  · iexists _; isplitr; · ipureintro; exact hf6
    iexact H6
  isplitl [H7]
  · iexists _; isplitr
    swap; · iexact H7
    ipureintro
    sl_unfold_words
    rw [out_pieces_pool]
    simp only [View.readAt_eq_ld, hf1, hf2, hf3, hf4, hf5, hf6, hf8, View.ld_unit_zero (S := S4000x32) hz_pool,
      View.ld_unit_zero (S := S4000x1) hz_pool, View.ld_unit_zero (S := S1x32) hz_pool, View.ld_unit_zero (S := S1x64) hz_pool,
      View.ld_unit_zero (S := S64x33) hz_pool, View.ld_unit_zero (S := S32x1) hz_pool, View.ld_unit_zero (S := S1x1) hz_pool]
  iexists _; isplitr
  swap; · iexact H8
  ipureintro
  sl_unfold_words
  rw [View.read_writes_eq_canon _ _ _ (fun y => ⟨_, List.mem_singleton_self _, View.mem_set_unit_zero (S := S64x33) hz_pool inb_S64x33_S64x33_0_0 y⟩),
    View.canon_unit_zero (S := S64x33) hz_pool]
  simp only [View.readAt_eq_ld, hf1, hf2, hf3, hf4, hf8, View.ld_unit_zero (S := S4000x32) hz_pool,
    View.ld_unit_zero (S := S4000x1) hz_pool, View.ld_unit_zero (S := S1x32) hz_pool, View.ld_unit_zero (S := S1x64) hz_pool,
    View.ld_unit_zero (S := S64x33) hz_pool]

/-- The class's invariant opened: the other kernel's staging buffers, the accumulator at some contents, the generator. -/
theorem PhiA1_open (c : Dev nD) :
    (Pipeline.ΦA spec1 c : sProp 𝕄)
      ⊢ iprop((∃ d, owns (c : Thread nD τ) scM1 fullShare d) ∗ restS1 (F := F) c ∗ (∃ r, prngReg c r)) := by
  unfold Pipeline.ΦA restS1; rw [scopedRest1_eq]; simp only [scM1, owns_whole]
  iintro ⟨⟨A, B, C, D, E, S⟩, Hg⟩
  isplitl [S]; · iexact S
  isplitl [A B C D E]
  · isplitl [A]; · iexact A
    isplitl [B]; · iexact B
    isplitl [C]; · iexact C
    isplitl [D]; · iexact D
    iexact E
  iexact Hg

/-- and closed again. -/
theorem PhiA1_close (c : Dev nD) :
    iprop((∃ d, owns (c : Thread nD τ) scM1 fullShare d) ∗ restS1 (F := F) c ∗ (∃ r, prngReg c r))
      ⊢ (Pipeline.ΦA spec1 c : sProp 𝕄) := by
  unfold Pipeline.ΦA restS1; rw [scopedRest1_eq]; simp only [scM1, owns_whole]
  iintro ⟨S, ⟨A, B, C, D, E⟩, Hg⟩
  isplitl [A B C D E S]
  · isplitl [A]; · iexact A
    isplitl [B]; · iexact B
    isplitl [C]; · iexact C
    isplitl [D]; · iexact D
    isplitl [E]; · iexact E
    iexact S
  iexact Hg

/-! ## The body obligation at a point -/

/-- Each window's current staging memref at point `t`, as the pipeline passes it to the body. -/
abbrev ms1_0 (t : Fin cfg1.N) : Memref sig .tc .vmem S4000x32 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S4000x1 .i32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x32 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x64 .i32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S32x1 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1x1 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S64x1 .f32 := win1_6.stage (cfg1.slots t 6)
abbrev hs1_6 (t : Fin cfg1.N) : (ms1_6 t).IsWhole := hstage1_6 ((cfg1.slots t 6).cast nbuf1_6)

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t)

set_option maxHeartbeats 4800000 in
/-- The body at any point. Every input's buffer holds its block. At the first point the invariant hands the accumulator at
    anything and the body zeroes it before adding; at a later point it hands it at what the point before left. Away from the
    last point the output's buffer goes back as found; at the last point it holds the output computed from the accumulator. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).owesAt () t.succ = (dat1 V c).owesAt () t.castSucc from rfl]
  rw [show (dat1 V c).Φ t.succ = PhiS1 V c (t.val + 1) t.isLt from rfl, PhiS1_succ]
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [show (dat1 V c).leavesExact 3 t = owns (c : Thread nD τ) (ms1_3 t) fullShare ((dat1 V c).after 3 t) from by
    unfold Dat.leavesExact; rw [liveAt1_3 t], after1_3]
  rw [show (dat1 V c).leavesExact 4 t = owns (c : Thread nD τ) (ms1_4 t) fullShare ((dat1 V c).after 4 t) from by
    unfold Dat.leavesExact; rw [liveAt1_4 t], after1_4]
  rw [show (dat1 V c).leavesExact 5 t = owns (c : Thread nD τ) (ms1_5 t) fullShare ((dat1 V c).after 5 t) from by
    unfold Dat.leavesExact; rw [liveAt1_5 t], after1_5]
  have hN : t.val < 25 := lt_of_lt_of_eq t.isLt (show cfg1.N = 25 from N_1)
  obtain ⟨n, hn⟩ := t
  cases n with
  | zero =>
    have hc0 : cond1_0 (grid1.coords ⟨0, hn⟩) := (hcond1_0 ⟨0, hn⟩).mpr (Nat.zero_mod _)
    have hc1 : ¬cond1_1 (grid1.coords ⟨0, hn⟩) := fun h => by
      have := (hcond1_1 ⟨0, hn⟩).mp h; dsimp only at this; omega
    rw [Dat.leavesExact_idle (dat1 V c) 6 ⟨0, hn⟩ (idleAt1_6 _ hc1) (noFlush1_6 _ hc1)]
    rw [show (dat1 V c).Φ (Fin.castSucc ⟨0, hn⟩) = PhiS1 V c 0 (Nat.zero_le _) from rfl, PhiS1_zero, accAt1_zero]
    refine BIBase.Entails.trans (sep_mono (PhiA1_open c) .rfl) ?_
    iintro ⟨⟨⟨%ds, HS⟩, HR, Hg⟩, Ho, ⟨%d0, H0⟩, ⟨%d1, H1⟩, ⟨%d2, H2⟩, ⟨%d3, H3⟩, ⟨%d4, H4⟩, ⟨%d5, H5⟩, ⟨%d6, H6⟩⟩
    iapply (pool_first c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) scM1 (Memref.isWhole_whole _) hc0 hc1
      (iblk1 V c 0 ⟨0, hn⟩) (iblk1 V c 1 ⟨0, hn⟩) (iblk1 V c 2 ⟨0, hn⟩) (iblk1 V c 3 ⟨0, hn⟩) (iblk1 V c 4 ⟨0, hn⟩) (iblk1 V c 5 ⟨0, hn⟩) ((dat1 V c).before 6 ⟨0, hn⟩ d6) ds Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [HS]; · iexact HS
    iintro ⟨H0, H1, H2, H3, H4, H5, H6, HS⟩
    isplitl [HS HR Hg]
    · isplitl [HS]; · iexact HS
      isplitl [HR]; · iexact HR
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexists _; iexact H6
  | succ n =>
    have hN' : n + 1 < 25 := hN
    have hc0 : ¬cond1_0 (grid1.coords ⟨n + 1, hn⟩) := fun h => by
      have := (hcond1_0 ⟨n + 1, hn⟩).mp h; dsimp only at this; omega
    rw [show (dat1 V c).Φ (Fin.castSucc ⟨n + 1, hn⟩) = PhiS1 V c (n + 1) (Nat.le_of_lt hn) from rfl, PhiS1_succ, accAt1_succ]
    by_cases h24 : n + 1 = 24
    · have hc1 : cond1_1 (grid1.coords ⟨n + 1, hn⟩) := (hcond1_1 ⟨n + 1, hn⟩).mpr (by dsimp only; omega)
      rw [show (dat1 V c).leavesExact 6 ⟨n + 1, hn⟩ = owns (c : Thread nD τ) (ms1_6 ⟨n + 1, hn⟩) fullShare ((dat1 V c).after 6 ⟨n + 1, hn⟩) from by
        unfold Dat.leavesExact; rw [liveAt1_6 _ hc1], after1_6]
      unfold outAt1; dsimp only; rw [accAt1_succ]
      iintro ⟨⟨HS, HR, Hg⟩, Ho, ⟨%d0, H0⟩, ⟨%d1, H1⟩, ⟨%d2, H2⟩, ⟨%d3, H3⟩, ⟨%d4, H4⟩, ⟨%d5, H5⟩, ⟨%d6, H6⟩⟩
      iapply (pool_last c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1 (Memref.isWhole_whole _) hc0 hc1
        (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) ((dat1 V c).before 6 ⟨n + 1, hn⟩ d6) (accAt1 V c n (Nat.lt_of_succ_lt hn)) Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS]; · iexact HS
      iintro ⟨H0, H1, H2, H3, H4, H5, H6, HS⟩
      isplitl [HS HR Hg]
      · isplitl [HS]; · iexact HS
        isplitl [HR]; · iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6
    · have hc1 : ¬cond1_1 (grid1.coords ⟨n + 1, hn⟩) := fun h => by
        have := (hcond1_1 ⟨n + 1, hn⟩).mp h; dsimp only at this; omega
      rw [Dat.leavesExact_idle (dat1 V c) 6 ⟨n + 1, hn⟩ (idleAt1_6 _ hc1) (noFlush1_6 _ hc1)]
      iintro ⟨⟨HS, HR, Hg⟩, Ho, ⟨%d0, H0⟩, ⟨%d1, H1⟩, ⟨%d2, H2⟩, ⟨%d3, H3⟩, ⟨%d4, H4⟩, ⟨%d5, H5⟩, ⟨%d6, H6⟩⟩
      iapply (pool_mid c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1 (Memref.isWhole_whole _) hc0 hc1
        (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) ((dat1 V c).before 6 ⟨n + 1, hn⟩ d6) (accAt1 V c n (Nat.lt_of_succ_lt hn)) Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS]; · iexact HS
      iintro ⟨H0, H1, H2, H3, H4, H5, H6, HS⟩
      isplitl [HS HR Hg]
      · isplitl [HS]; · iexact HS
        isplitl [HR]; · iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6

/-! ## The body obligation and the invariant's two ends -/

/-- The library's body obligation, at every point: the windows conjoined one by one, then the point's case. -/
theorem body_obligation1 (c : Dev nD) :
    BodyObligation (dat1 (F := F) V c) (defs₀ (F := F)) Variants.none () Set.univ := fun t => by
  rw [bigSep_W1, bigSep_W1]
  exact sound_body1 V c t

/-- The region's entry: the class's invariant is the proof data's at the first point. -/
theorem hin1 (c : Dev nD) : Pipeline.ΦA spec1 c ⊢ (dat1 V c).Φ 0 := by
  rw [show (dat1 V c).Φ 0 = PhiS1 V c 0 (Nat.zero_le _) from rfl, PhiS1_zero]
  try exact Idealize.SL.BI.Entails.refl _

/-- The region's exit: the invariant after the last point gives the class's back (the accumulator at some contents). -/
theorem hout1 (c : Dev nD) : (dat1 V c).Φ (Fin.last cfg1.N) ⊢ Pipeline.ΦA spec1 c := by
  rw [show (dat1 V c).Φ (Fin.last cfg1.N) = PhiS1 V c (24 + 1) (Nat.le_of_eq (show 24 + 1 = cfg1.N from N_1.symm)) from rfl, PhiS1_succ]
  refine BIBase.Entails.trans ?_ (PhiA1_close c)
  iintro ⟨HS, HR, Hg⟩
  isplitl [HS]; · iexists _; iexact HS
  isplitl [HR]; · iexact HR
  iexact Hg

end Cert.Kernel.Hand

end
-- ==== Proof.KRun.lean ====
/-
  The whole program's run: the first region, three stretches of host operations, the second region. Every weakly
  fair execution ends, nothing faults, the arguments end as launched, and the result buffer holds what the second
  region's write-backs leave, computed from what the host operations make of the first region's result.
-/
import proofs.«428440_j16372415332644_2_alg».proof.Proof.KRegion0
import proofs.«428440_j16372415332644_2_alg».proof.Proof.KRegion1
import proofs.«428440_j16372415332644_2_alg».proof.Proof.Gen.Kernel.Regions

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the two regions leave -/

/-- The first region's entry contents: the launch memory. -/
abbrev E0 : (c : Dev nD) → (b : Ref sig .tc) → Buf (Elt F) ((c : Thread nD τ).loc b) := fun c b => Gen.V0 m c b

/-- What the first region leaves in its result array: its write-backs folded over the twenty points. -/
def h0 (c : Dev nD) : Buf (Elt F) ((c : Thread nD τ).loc main_v0) := (dat0 (E0 m) c).arrAt 2 cfg0.N

/-- The contents the regions leave, as far as the first region: `main_v0` at `h0`. -/
def outs1 : Gen.Outs (F := F) := fun _ r c => Function.update (Gen.V0 m c) main_v0 (h0 m c) r

/-- The second region's entry contents: the launch memory, the first region's result, the host operations' results. -/
abbrev E1 : (c : Dev nD) → (b : Ref sig .tc) → Buf (Elt F) ((c : Thread nD τ).loc b) := fun c b => Gen.V4 m (outs1 m) c b

/-- What the second region leaves in the program's result array. -/
def out1 (c : Dev nD) : Buf (Elt F) ((c : Thread nD τ).loc main_v41) := (dat1 (E1 m) c).arrAt 6 cfg1.N

/-! ## The contents between items -/

/-- What the regions leave in the buffers they may change: the first region's result array at `h0`, the second's
    at `out1`. -/
def outs : Gen.Outs (F := F) := fun J r c =>
  if J = 5 then Function.update (Gen.V4 m (outs1 m) c) main_v41 (out1 m c) r else outs1 m J r c

theorem outs_one (c : Dev nD) : outs m 1 main_v0 c = h0 m c := by
  unfold outs outs1
  rw [if_neg (by decide)]
  exact Function.update_self ..

theorem outs_five (c : Dev nD) : outs m 5 main_v41 c = out1 m c := by
  unfold outs
  rw [if_pos rfl]
  exact Function.update_self ..

theorem outs1_one (c : Dev nD) : outs1 m 1 main_v0 c = h0 m c := by
  unfold outs1
  exact Function.update_self ..

/-- The contents after the first region do not depend on what the second leaves. -/
theorem V1_outs (c : Dev nD) : Gen.V1 m (outs m) c = Gen.V1 m (outs1 m) c := by
  show Function.update (Gen.V0 m c) main_v0 (outs m 1 main_v0 c) = Function.update (Gen.V0 m c) main_v0 (outs1 m 1 main_v0 c)
  rw [outs_one, outs1_one]

/-- Nor do the contents the second region is entered from. -/
theorem V4_outs (c : Dev nD) : Gen.V4 m (outs m) c = Gen.V4 m (outs1 m) c := by
  show StableHlo.after hostOps1_2 (StableHlo.after hostOps1_1 (StableHlo.after hostOps1 (Gen.V1 m (outs m) c)))
    = StableHlo.after hostOps1_2 (StableHlo.after hostOps1_1 (StableHlo.after hostOps1 (Gen.V1 m (outs1 m) c)))
  rw [V1_outs]

/-- The contents the first region leaves, read at the TensorCore's references. -/
abbrev left0 : (c : Dev nD) → (b : Ref sig .tc) → Buf (Elt F) ((c : Thread nD τ).loc b) := fun c b => Gen.V1 m (outs m) c b
/-- The contents the second region leaves, read at the TensorCore's references. -/
abbrev left1 : (c : Dev nD) → (b : Ref sig .tc) → Buf (Elt F) ((c : Thread nD τ).loc b) := fun c b => Gen.V5 m (outs m) c b

/-- At the first region's exit each of its arrays holds what the pipeline leaves: the two inputs what they held,
    the result array the folded write-backs. -/
theorem hF0 (c : Dev nD) : ∀ w : Fin cfg0.W, (dat0 (E0 m) c).arrAt w cfg0.N = left0 m c (Pipeline.arrRef spec0 w)
  | ⟨0, _⟩ => ((dat0 (E0 m) c).arrAt_in 0 rfl _).trans ((A_eq0 (E0 m) c 0).trans (Gen.V1_of m (outs m) c main_arg0 (by decide)).symm)
  | ⟨1, _⟩ => ((dat0 (E0 m) c).arrAt_in 1 rfl _).trans ((A_eq0 (E0 m) c 1).trans (Gen.V1_of m (outs m) c main_arg3 (by decide)).symm)
  | ⟨2, _⟩ => by
    show h0 m c = Function.update (Gen.V0 m c) (Proc.devRef .tc main_v0) (outs m 1 main_v0 c) (Proc.devRef .tc main_v0)
    rw [Function.update_self, outs_one]

/-- Every other buffer holds what it held when the first region was entered. -/
theorem hrest0 (c : Dev nD) : ∀ b, b ∉ Finset.univ.image (Pipeline.arrRef spec0) → left0 m c b = E0 m c b :=
  fun b hb => Gen.V1_of m (outs m) c b fun hmem => hb (Finset.mem_image.mpr ⟨2, Finset.mem_univ _, (List.mem_singleton.mp hmem).symm⟩)

/-- At the second region's exit each of its arrays holds what the pipeline leaves: the six inputs what they held,
    the result array the folded write-backs. -/
theorem hF1 (c : Dev nD) : ∀ w : Fin cfg1.W, (dat1 (E1 m) c).arrAt w cfg1.N = left1 m c (Pipeline.arrRef spec1 w)
  | ⟨0, _⟩ => ((dat1 (E1 m) c).arrAt_in 0 rfl _).trans ((A_eq1 (E1 m) c 0).trans
      ((Gen.V5_of m (outs m) c main_v35 (by decide)).trans (congrFun (V4_outs m c) _)).symm)
  | ⟨1, _⟩ => ((dat1 (E1 m) c).arrAt_in 1 rfl _).trans ((A_eq1 (E1 m) c 1).trans
      ((Gen.V5_of m (outs m) c main_v36 (by decide)).trans (congrFun (V4_outs m c) _)).symm)
  | ⟨2, _⟩ => ((dat1 (E1 m) c).arrAt_in 2 rfl _).trans ((A_eq1 (E1 m) c 2).trans
      ((Gen.V5_of m (outs m) c main_v37 (by decide)).trans (congrFun (V4_outs m c) _)).symm)
  | ⟨3, _⟩ => ((dat1 (E1 m) c).arrAt_in 3 rfl _).trans ((A_eq1 (E1 m) c 3).trans
      ((Gen.V5_of m (outs m) c main_v39 (by decide)).trans (congrFun (V4_outs m c) _)).symm)
  | ⟨4, _⟩ => ((dat1 (E1 m) c).arrAt_in 4 rfl _).trans ((A_eq1 (E1 m) c 4).trans
      ((Gen.V5_of m (outs m) c main_arg5 (by decide)).trans (congrFun (V4_outs m c) _)).symm)
  | ⟨5, _⟩ => ((dat1 (E1 m) c).arrAt_in 5 rfl _).trans ((A_eq1 (E1 m) c 5).trans
      ((Gen.V5_of m (outs m) c main_v40 (by decide)).trans (congrFun (V4_outs m c) _)).symm)
  | ⟨6, _⟩ => by
    show out1 m c = Function.update (Gen.V4 m (outs m) c) (Proc.devRef .tc main_v41) (outs m 5 main_v41 c) (Proc.devRef .tc main_v41)
    rw [Function.update_self, outs_five]

/-- Every other buffer holds what it held when the second region was entered. -/
theorem hrest1 (c : Dev nD) : ∀ b, b ∉ Finset.univ.image (Pipeline.arrRef spec1) → left1 m c b = E1 m c b :=
  fun b hb => (Gen.V5_of m (outs m) c b fun hmem => hb (Finset.mem_image.mpr ⟨6, Finset.mem_univ _, (List.mem_singleton.mp hmem).symm⟩)).trans
    (congrFun (V4_outs m c) _)

/-! ## The proof data and what rides beside the buffers -/

/-- Both pipelines' proof data, each at its region's entry contents. -/
def pdats : (p : Fin 2) → (c : Dev nD) → Dat τ (Elt F) Unit ℕ (UR sig nD τ) ℕ (Pipeline.pin (pcfgs (F := F)) adm p) c
  | ⟨0, _⟩ => fun c => dat0 (E0 m) c
  | ⟨1, _⟩ => fun c => dat1 (E1 m) c

/-- No core owes another anything: no level is assigned. -/
abbrev noPairs : GSem nD τ sig → Finset Unit := fun _ => ∅
abbrev noLevel : GSem nD τ sig → Unit → ℕ := fun _ _ => 0

/-- What rides beside the buffers through every item: the core's generator register at some state and the core
    owing nothing. -/
abbrev beside (c : Dev nD) : sProp 𝕄 := iprop((∃ r, prngReg c r) ∗ ∃ W, owes (c : Thread nD τ) (0 : CellTallies nD τ sig Unit) W)

/-- The same rest between any two items. -/
abbrev besideAt : Fin 3 → Dev nD → sProp 𝕄 := fun _ c => beside (F := F) c

/-! ## The regions as segments -/

set_option backward.isDefEq.respectTransparency.types false in
/-- The first region over the thread state: entered with every unscoped buffer at the launch contents, left with
    the result array replaced by the folded write-backs. Its arrays are split out of the unscoped buffers at entry
    and put back at exit; the generator register goes into the invariant and comes out; nothing is owed. -/
def reg0 : RegionSeg (pcfgs (F := F)) adm (pdats m) () defs₀ Variants.none noPairs noLevel 0 where
  win := launch0.win.to₀
  block_pos := launch0.block_pos
  stage_whole := launch0.stage_whole
  K := PEmpty
  osem k := k.elim
  ho := Pipeline.OwnSemFacts.none _
  hbody c := (body_obligation0 (E0 m) c).loose
  hwaits := Pipeline.hwaits_of_owed_zero _ _ _ _ noPairs noLevel 0 fun _ _ => rfl
  pre c := iprop(StableHlo.held (c : Thread nD τ) (Pipeline.ucRefs τ sig) (Gen.V0 m c) ∗ beside c)
  post c := iprop(StableHlo.held (c : Thread nD τ) (Pipeline.ucRefs τ sig) (Gen.V1 m (outs m) c) ∗ beside c)
  X c := iprop(∃ r, prngReg c r)
  Y c := iprop(∃ r, prngReg c r)
  Z c := Pipeline.unscopedRest (Ix := Unit) (Name := ℕ) (U := UR sig nD τ) (Lvl := ℕ) spec0 c (E0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (E0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (E0 m c) (left0 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second region over the thread state: entered with every unscoped buffer at what the host operations made
    of the first region's result, left with the program's result array replaced by the folded write-backs. The
    invariant's two ends are the region's own (the carried accumulator); the rest is as in the first region. -/
def reg1 : RegionSeg (pcfgs (F := F)) adm (pdats m) () defs₀ Variants.none noPairs noLevel 1 where
  win := launch1.win.to₀
  block_pos := launch1.block_pos
  stage_whole := launch1.stage_whole
  K := PEmpty
  osem k := k.elim
  ho := Pipeline.OwnSemFacts.none _
  hbody c := (body_obligation1 (E1 m) c).loose
  hwaits := Pipeline.hwaits_of_owed_zero _ _ _ _ noPairs noLevel 1 fun _ _ => rfl
  pre c := iprop(StableHlo.held (c : Thread nD τ) (Pipeline.ucRefs τ sig) (Gen.V4 m (outs m) c) ∗ beside c)
  post c := iprop(StableHlo.held (c : Thread nD τ) (Pipeline.ucRefs τ sig) (Gen.V5 m (outs m) c) ∗ beside c)
  X c := iprop(∃ r, prngReg c r)
  Y c := iprop(∃ r, prngReg c r)
  Z c := Pipeline.unscopedRest (Ix := Unit) (Name := ℕ) (U := UR sig nD τ) (Lvl := ℕ) spec1 c (E1 m c)
  hentry c := by
    rw [Pipeline.ownSems0_none, V4_outs m c]
    have hsplit := Pipeline.arrays_of_unscopedBufs (p := 1) (pcfgs (F := F)) adm (pdats m) launch1.win launch1.arr_whole c
      ((pdats m 1 c).share_full fun _ => rfl) (E1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin1 (E1 m) c)
    unfold Pipeline.ΦA
    iintro ⟨Hp, -, Hr⟩
    isplitl [Hr]; · iexact Hr
    iexact Hp
  hout c := by
    rw [Pipeline.ownSems0_none]
    refine BIBase.Entails.trans (hout1 (E1 m) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (E1 m c) (left1 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- The program's result array after the last item. -/
theorem V5_out (c : Dev nD) : Gen.V5 m (outs m) c (Proc.devRef .tc main_v41) = out1 m c := by
  show Function.update (Gen.V4 m (outs m) c) (Proc.devRef .tc main_v41) (outs m 5 main_v41 c) (Proc.devRef .tc main_v41) = out1 m c
  rw [Function.update_self, outs_five]

/-! ## The run -/

set_option backward.isDefEq.respectTransparency.types false in
/-- From any memory with zero counters every weakly fair execution of the program terminates, nothing faulting; the
    result array ends at `out1` and every argument array as launched. -/
theorem run_value : θ_run defs (onTc (τ := τ) (main (F := F))) ⟨m, fun _ => 0, ρ⟩ (fun r => ∀ c : Dev nD,
      r.2.mem ((c.tc : Thread nD τ).loc main_v41) = out1 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) := by
  refine Pipeline.θ_run_regions_kit_dev (pcfgs (F := F)) adm (pdats m) () cellOf_inj emb₁ defs₀ Variants.none noPairs noLevel m ρ main
    (Gen.segs m (outs m) Variants.none noPairs noLevel (besideAt (F := F)) () (pdats m) (reg0 m) (reg1 m))
    (fun c Q => by
      rewrite [main_chain c, Seg.run_eq_chain,
        show (Gen.segs m (outs m) Variants.none noPairs noLevel (besideAt (F := F)) () (pdats m) (reg0 m) (reg1 m) c).map Seg.prog = [
          Prog.lift (.customCall (Pipeline.entry 0) ()),
          StableHlo.seq hostOps1,
          StableHlo.seq hostOps1_1,
          StableHlo.seq hostOps1_2,
          Prog.lift (.customCall (Pipeline.entry 1) ()) ] from rfl]
      exact .rfl)
    (fun c => by simp only [Gen.segs, Seg.pipes_host, Seg.pipes_region, Seg.pipes_nil]; decide)
    (O₀ := 0) (hL := fun _ _ => rfl) (G := fun _ => iprop(emp))
    (u₀ := initOf (Pipeline.cells cfgs cellOf_inj) (Pipeline.launchToks cfgs cellOf_inj))
    (hu₀ := ?_)
    (T₀ := fun c => iprop(StableHlo.held (c : Thread nD τ) (Pipeline.ucRefs τ sig) (Gen.V0 m c) ∗ beside c))
    (Tₙ := fun c => StableHlo.held (c : Thread nD τ) (Pipeline.ucRefs τ sig) (Gen.V5 m (outs m) c))
    (hch := fun c => ⟨.rfl, .rfl, .rfl, .rfl, .rfl, sep_mono .rfl (by iintro ⟨-, HO⟩; iexact HO)⟩)
    (hinit := ?_)
    (QY := fun c s => s.mem ((c.tc : Thread nD τ).loc main_v41) = out1 m c
      ∧ s.mem ((c.tc : Thread nD τ).loc main_arg0) = m ((c.tc : Thread nD τ).loc main_arg0)
      ∧ s.mem ((c.tc : Thread nD τ).loc main_arg1) = m ((c.tc : Thread nD τ).loc main_arg1)
      ∧ s.mem ((c.tc : Thread nD τ).loc main_arg2) = m ((c.tc : Thread nD τ).loc main_arg2)
      ∧ s.mem ((c.tc : Thread nD τ).loc main_arg3) = m ((c.tc : Thread nD τ).loc main_arg3)
      ∧ s.mem ((c.tc : Thread nD τ).loc main_arg4) = m ((c.tc : Thread nD τ).loc main_arg4)
      ∧ s.mem ((c.tc : Thread nD τ).loc main_arg5) = m ((c.tc : Thread nD τ).loc main_arg5)
      ∧ s.mem ((c.tc : Thread nD τ).loc main_arg6) = m ((c.tc : Thread nD τ).loc main_arg6))
    (hfin := fun c s' => ?_) (hQ := fun _ h => h)
  · -- the launch element is the pipelines' own; no ghost resource is dealt
    iintro Hu; imodintro
    isplitl [Hu]
    · iapply (show (ownU (initOf (Pipeline.cells cfgs cellOf_inj) (Pipeline.launchToks cfgs cellOf_inj)) : sProp 𝕄)
          ⊢ BI.own (emb₁ (initOf (Pipeline.cells cfgs cellOf_inj) (Pipeline.launchToks cfgs cellOf_inj))) from .rfl)
      iexact Hu
    iapply (show (BI.emp : sProp 𝕄) ⊢ bigSep Finset.univ (fun _ : Dev nD => (BI.emp : sProp 𝕄)) from by rw [BI.bigSep_emp_const])
    iempintro
  · -- the launch: each core's unscoped buffers at the launch memory, its generator register, nothing owed
    refine Pipeline.initEach noPairs noLevel fun c => ?_
    rw [show unscopedBufs c (fun b => m ((c : Thread nD τ).loc b)) = StableHlo.held (c : Thread nD τ) (Pipeline.ucRefs τ sig) (Gen.V0 m c)
      from Pipeline.unscopedBufs_held c (Gen.V0 m c)]
    iintro ⟨⟨Hh, -, HO, -, Hp, -⟩, -⟩
    imodintro
    isplitl [Hh]; · iexact Hh
    isplitl [Hp]; · iexists _; iexact Hp
    iexists ∅; iexact HO
  · -- the end: the result array and each argument's buffer read off the last contents
    unfold StableHlo.held
    iintro ⟨Hh, HSI⟩
    ihave Hr := (pointsTo_read_all (Pipeline.ucRefs τ sig) (fun b => ((c : Thread nD τ).1, b)) (Gen.V5 m (outs m) c) s') $$ [Hh HSI]
    · isplitl [Hh] <;> iassumption
    icases Hr with ⟨%h, HSI⟩
    imodintro
    isplitr
    · ipureintro
      exact ⟨(h (Proc.devRef .tc main_v41) (Finset.mem_filter.mpr ⟨StableHlo.devRef_mem_tcRefs main_v41, by decide⟩)).trans (V5_out m c),
        (h (Proc.devRef .tc main_arg0) (Finset.mem_filter.mpr ⟨StableHlo.devRef_mem_tcRefs main_arg0, by decide⟩)).trans (Gen.V5_main_arg0 m (outs m) c),
        (h (Proc.devRef .tc main_arg1) (Finset.mem_filter.mpr ⟨StableHlo.devRef_mem_tcRefs main_arg1, by decide⟩)).trans (Gen.V5_main_arg1 m (outs m) c),
        (h (Proc.devRef .tc main_arg2) (Finset.mem_filter.mpr ⟨StableHlo.devRef_mem_tcRefs main_arg2, by decide⟩)).trans (Gen.V5_main_arg2 m (outs m) c),
        (h (Proc.devRef .tc main_arg3) (Finset.mem_filter.mpr ⟨StableHlo.devRef_mem_tcRefs main_arg3, by decide⟩)).trans (Gen.V5_main_arg3 m (outs m) c),
        (h (Proc.devRef .tc main_arg4) (Finset.mem_filter.mpr ⟨StableHlo.devRef_mem_tcRefs main_arg4, by decide⟩)).trans (Gen.V5_main_arg4 m (outs m) c),
        (h (Proc.devRef .tc main_arg5) (Finset.mem_filter.mpr ⟨StableHlo.devRef_mem_tcRefs main_arg5, by decide⟩)).trans (Gen.V5_main_arg5 m (outs m) c),
        (h (Proc.devRef .tc main_arg6) (Finset.mem_filter.mpr ⟨StableHlo.devRef_mem_tcRefs main_arg6, by decide⟩)).trans (Gen.V5_main_arg6 m (outs m) c)⟩
    · iexact HSI

end Cert.Kernel.Hand

end
-- ==== Proof.Spec.lean ====
/-
  The mathematics both programs compute, stated once over the argument arrays, at explicit coordinates.

  A graph convolution with symmetric normalisation, then a mean over each graph, then a linear layer:
    h      = x · W                                   (node features, 100000 × 32)
    cnt i  = the number of edges whose target is node i
    dinv i = 1 / sqrt (cnt i + 1)                    (the self loop counts once)
    agg i  = Σ over edges p into i of h (source p) · dinv (source p) · dinv i  +  h i · dinv i · dinv i
    pooled g = (Σ over nodes n of graph g of relu (agg n + b)) / max (number of such nodes) 1
    out g  = pooled g · W_out + b_out
  An edge's target is taken as it stands (an out-of-range target contributes nothing); an edge's source is first
  wrapped (a negative index counts from the end) and then clamped into range, as both programs do.
-/
import Idealize.ShloMosaic.PureOps.Ideal
import Idealize.ShloMosaic.PureOps.Ideal.Laws
import Idealize.ShloMosaic.Lib.ValueIdx

noncomputable section

namespace Cert.Spec

open Idealize.ShloMosaic Idealize.ShloMosaic.ValueIdx

/-- A rank-2 and a rank-1 shape by their extents. -/
abbrev Sh2 (a b : Nat) : Shape := ⟨2, ![a, b]⟩
abbrev Sh1 (a : Nat) : Shape := ⟨1, ![a]⟩

/-! ## The linear layer -/

/-- Row `n` of `x` against column `f` of `W`. -/
def lin (x : (Sh2 100000 11).Idx → EReal) (W : (Sh2 11 32).Idx → EReal) (n : Fin 100000) (f : Fin 32) : EReal :=
  ∑ k : Fin 11, x (ix2 n k) * W (ix2 k f)

/-! ## Edges -/

/-- The source and the target of edge `p`, as stored. -/
def src (e : (Sh2 2 3200000).Idx → BitVec 32) (p : Fin 3200000) : BitVec 32 := e (ix2 (0 : Fin 2) p)
def dst (e : (Sh2 2 3200000).Idx → BitVec 32) (p : Fin 3200000) : BitVec 32 := e (ix2 (1 : Fin 2) p)

/-- A stored node index as the gathers read it: a negative one counts from the end, and the result is clamped
    into `[0, 99999]`. -/
def node (v : BitVec 32) : Fin 100000 :=
  ⟨min (Scalar.select (IntOp.cmpi .slt v 0#32) (IntOp.addi v 100000#32) v).toInt.toNat 99999, by omega⟩

/-- The number of edges whose target is node `i` (a target outside `[0, 100000)` is nobody's). -/
def cnt (e : (Sh2 2 3200000).Idx → BitVec 32) (i : Fin 100000) : ℕ :=
  (Finset.univ.filter fun p : Fin 3200000 => (dst e p).toInt = (i.val : ℤ)).card

/-- `1 / sqrt (cnt i + 1)`: a positive real. -/
def dinv (e : (Sh2 2 3200000).Idx → BitVec 32) (i : Fin 100000) : EReal :=
  (((Real.sqrt ((cnt e i : ℝ) + 1))⁻¹ : ℝ) : EReal)

/-! ## The aggregation, in the kernel's arrangement and in the reference's -/

/-- The kernel's arrangement: the target's factor outside the sum over incoming edges, the self loop added apart. -/
def aggK (h : Fin 100000 → Fin 32 → EReal) (e : (Sh2 2 3200000).Idx → BitVec 32) (i : Fin 100000) (f : Fin 32) : EReal :=
  dinv e i * (∑ p ∈ Finset.univ.filter (fun p : Fin 3200000 => (dst e p).toInt = (i.val : ℤ)),
      h (node (src e p)) f * dinv e (node (src e p)))
    + (dinv e i * dinv e i) * h i f

/-- The reference's edge list: the stored edges followed by one self loop per node. -/
def srcC (e : (Sh2 2 3200000).Idx → BitVec 32) (q : Fin 3300000) : BitVec 32 :=
  if hq : q.val < 3200000 then src e ⟨q.val, hq⟩ else BitVec.ofNat 32 (q.val - 3200000)
def dstC (e : (Sh2 2 3200000).Idx → BitVec 32) (q : Fin 3300000) : BitVec 32 :=
  if hq : q.val < 3200000 then dst e ⟨q.val, hq⟩ else BitVec.ofNat 32 (q.val - 3200000)

/-- The reference's degree: the edges of the long list into `i`, self loop included. -/
def cntC (e : (Sh2 2 3200000).Idx → BitVec 32) (i : Fin 100000) : ℕ :=
  (Finset.univ.filter fun q : Fin 3300000 => (dstC e q).toInt = (i.val : ℤ)).card

def dinvC (e : (Sh2 2 3200000).Idx → BitVec 32) (i : Fin 100000) : EReal :=
  (((Real.sqrt (cntC e i : ℝ))⁻¹ : ℝ) : EReal)

/-- The reference's arrangement: one sum over the long list, each message scaled by both ends' factors. -/
def aggR (h : Fin 100000 → Fin 32 → EReal) (e : (Sh2 2 3200000).Idx → BitVec 32) (i : Fin 100000) (f : Fin 32) : EReal :=
  ∑ q ∈ Finset.univ.filter (fun q : Fin 3300000 => (dstC e q).toInt = (i.val : ℤ)),
    h (node (srcC e q)) f * (dinvC e (node (srcC e q)) * dinvC e (node (dstC e q)))

/-! ## The mean over each graph and the output layer -/

/-- The sum over graph `g`'s nodes of `relu (a n f + b f)`. -/
def poolS (a : Fin 100000 → Fin 32 → EReal) (b : Fin 32 → EReal) (batch : Fin 100000 → BitVec 32) (g : Fin 64) (f : Fin 32) : EReal :=
  ∑ n ∈ Finset.univ.filter (fun n : Fin 100000 => (batch n).toInt = (g.val : ℤ)), max (a n f + b f) 0

/-- The number of nodes of graph `g`. -/
def poolC (batch : Fin 100000 → BitVec 32) (g : Fin 64) : ℕ :=
  (Finset.univ.filter fun n : Fin 100000 => (batch n).toInt = (g.val : ℤ)).card

/-- The result for graph `g`: the mean features against `W_out`, plus `b_out`. -/
def out (a : Fin 100000 → Fin 32 → EReal) (b : Fin 32 → EReal) (batch : Fin 100000 → BitVec 32)
    (Wout : Fin 32 → EReal) (bout : EReal) (g : Fin 64) : EReal :=
  (∑ f : Fin 32, Ideal.div (poolS a b batch g f) (max ((poolC batch g : ℝ) : EReal) 1) * Wout f) + bout

/-! ## The literals and the degree's reciprocal root -/

/-- The word `0x3F800000` is the real number one. -/
theorem one_f32 : Ideal.ofBits .f32 0x3F800000#32 = 1 := by
  -- the three fields of the word: sign 0, exponent 127 (the bias), fraction 0; so the value is 2^23 · 2^(127 - 127 - 23)
  have hs : (0x3F800000#32).extractLsb' (8 + 23) 1 = 0#1 := by decide
  have he : ((0x3F800000#32).extractLsb' 23 8).toNat = 127 := by decide
  have hf : ((0x3F800000#32).extractLsb' 0 23).toNat = 0 := by decide
  simp only [Ideal.ofBits, Ideal.ieee, hs, he, hf]
  norm_num

/-- A sum of ones over a finite set is its size. -/
theorem sum_one_eq_card {ι : Type} (s : Finset ι) : (∑ _p ∈ s, (1 : EReal)) = ((s.card : ℝ) : EReal) := by
  classical
  induction s using Finset.induction_on with
  | empty => simp
  | insert a s ha ih =>
    rw [Finset.sum_insert ha, ih, Finset.card_insert_of_notMem ha, Nat.cast_succ, EReal.coe_add, add_comm]
    rfl

/-- The reciprocal root of a positive count as both programs select it: the comparison with zero holds, and the root is
    the real one. -/
theorem select_rsqrt (k : ℕ) (hk : 0 < k) :
    Scalar.select (FloatOps.cmpf (F := Ideal) (φ := .f32) .ogt (((k : ℝ) : EReal)) (Ideal.ofBits .f32 0x00000000#32))
        (Ideal.rsqrt (((k : ℝ) : EReal))) (Ideal.ofBits .f32 0x00000000#32)
      = (((Real.sqrt (k : ℝ))⁻¹ : ℝ) : EReal) := by
  have hpos : (0 : ℝ) < (k : ℝ) := Nat.cast_pos.mpr hk
  -- the zero word is 0 and 0 < k, so the comparison's bit is set
  have hbit : FloatOps.cmpf (F := Ideal) (φ := .f32) .ogt (((k : ℝ) : EReal)) (Ideal.ofBits .f32 0x00000000#32) = 1#1 := by
    rw [Ideal.cmpf_def, Ideal.ofBits_zero_f32]
    show BitVec.ofBool (decide ((0 : EReal) < ((k : ℝ) : EReal))) = 1#1
    rw [decide_eq_true (EReal.coe_pos.mpr hpos)]
    rfl
  -- and the reciprocal root of a positive real is the real one
  rw [hbit, select_one, Ideal.rsqrt_coe, if_neg (not_lt.mpr hpos.le), if_neg hpos.ne']

end Cert.Spec

end
-- ==== Proof.Value0.lean ====
/-
  What the first region leaves in its result array, read at a node and a feature: that node's row of features
  against that column of the weights.
-/
import proofs.«428440_j16372415332644_2_alg».proof.Proof.Region0
import proofs.«428440_j16372415332644_2_alg».proof.Proof.Spec
import Idealize.ShloMosaic.PureOps.Ideal.Laws
import Idealize.ShloMosaic.Lib.ValueIdx

set_option maxRecDepth 16384

noncomputable section

namespace Cert.KernelIdeal.Hand

open Idealize.ShloMosaic Idealize.ShloMosaic.TcCoe Idealize.SL.Sem Idealize.ShloMosaic.ValueIdx
open Idealize.ShloMosaic.Pipeline (Dat)
open Cert.KernelIdeal Cert.KernelIdeal.Gen

/-! ## The product at a row and a feature -/

theorem lhs_k0_0 (i : S5000x32.Idx) (q : dot_S5000x11_S11x32_S5000x32_1_0_0_1_n_n.contr.Idx) :
    (dot_S5000x11_S11x32_S5000x32_1_0_0_1_n_n.lhsIdx i q 0).val = (i 0).val := by
  unfold DotDims.lhsIdx
  rw [dif_neg (show ¬(0 : Fin S5000x11.rank) ∈ dot_S5000x11_S11x32_S5000x32_1_0_0_1_n_n.lhsBatch by decide), dif_pos (show (0 : Fin S5000x11.rank) ∈ dot_S5000x11_S11x32_S5000x32_1_0_0_1_n_n.lhsNonContracting by decide)]
  rfl
theorem lhs_k0_1 (i : S5000x32.Idx) (q : dot_S5000x11_S11x32_S5000x32_1_0_0_1_n_n.contr.Idx) :
    (dot_S5000x11_S11x32_S5000x32_1_0_0_1_n_n.lhsIdx i q 1).val = (q ⟨0, by decide⟩).val :=
  dot_S5000x11_S11x32_S5000x32_1_0_0_1_n_n.lhsIdx_val_of_single rfl i q
theorem rhs_k0_0 (i : S5000x32.Idx) (q : dot_S5000x11_S11x32_S5000x32_1_0_0_1_n_n.contr.Idx) :
    (dot_S5000x11_S11x32_S5000x32_1_0_0_1_n_n.rhsIdx i q 0).val = (q ⟨0, by decide⟩).val :=
  dot_S5000x11_S11x32_S5000x32_1_0_0_1_n_n.rhsIdx_val_of_single rfl i q
theorem rhs_k0_1 (i : S5000x32.Idx) (q : dot_S5000x11_S11x32_S5000x32_1_0_0_1_n_n.contr.Idx) :
    (dot_S5000x11_S11x32_S5000x32_1_0_0_1_n_n.rhsIdx i q 1).val = (i 1).val := by
  unfold DotDims.rhsIdx
  rw [dif_neg (show ¬(1 : Fin S11x32.rank) ∈ dot_S5000x11_S11x32_S5000x32_1_0_0_1_n_n.rhsBatch by decide), dif_pos (show (1 : Fin S11x32.rank) ∈ dot_S5000x11_S11x32_S5000x32_1_0_0_1_n_n.rhsNonContracting by decide)]
  rfl

/-- The body's product of a row block and the weights, at row `r` of the block and feature `f`: the narrowing of the
    format changes nothing here, the accumulator starts at zero, and the contraction runs over the eleven input
    features. -/
theorem lin_pay_apply (x0 : Vec Ideal S5000x11 .f32) (x1 : Vec Ideal S11x32 .f32) (r : Fin 5000) (f : Fin 32) :
    (k0_pay1 (F := Ideal) x0 x1 : S5000x32.Idx → EReal) (ix2 r f) = ∑ k : Fin 11, x0 (ix2 r k) * x1 (ix2 k f) := by
  unfold k0_pay1
  refine (Ideal.matmul_constant_zero_apply dot_S5000x11_S11x32_S5000x32_1_0_0_1_n_n none _ _ (ix2 r f)).trans ?_
  rw [← Equiv.sum_comp (contrEquiv1 dot_S5000x11_S11x32_S5000x32_1_0_0_1_n_n 11 rfl rfl).symm]
  refine Finset.sum_congr rfl fun k _ => ?_
  have hk := contrEquiv1_symm_val dot_S5000x11_S11x32_S5000x32_1_0_0_1_n_n 11 rfl rfl k
  have el : dot_S5000x11_S11x32_S5000x32_1_0_0_1_n_n.lhsIdx (ix2 r f) ((contrEquiv1 dot_S5000x11_S11x32_S5000x32_1_0_0_1_n_n 11 rfl rfl).symm k) = ix2 r k := funext fun a => Fin.ext (by
    match a with
    | ⟨0, _⟩ => exact lhs_k0_0 _ _
    | ⟨1, _⟩ => exact (lhs_k0_1 _ _).trans hk)
  have er : dot_S5000x11_S11x32_S5000x32_1_0_0_1_n_n.rhsIdx (ix2 r f) ((contrEquiv1 dot_S5000x11_S11x32_S5000x32_1_0_0_1_n_n 11 rfl rfl).symm k) = ix2 k f := funext fun a => Fin.ext (by
    match a with
    | ⟨0, _⟩ => exact (rhs_k0_0 _ _).trans hk
    | ⟨1, _⟩ => exact rhs_k0_1 _ _)
  rw [el, er]
  rfl

/-! ## From the blocks to the array -/

/-- Row `i 0` of `x` against column `i 1` of `W`, over the whole arrays. -/
def linAt (x : S100000x11.Idx → EReal) (W : S11x32.Idx → EReal) : S100000x32.Idx → EReal :=
  fun i => ∑ k : Fin 11, x (ix2 (i 0) k) * W (ix2 k (i 1))

/-- The product of a row block and the weights is the product of the whole arrays at the block's rows: when the row
    block is rows `5000·b …` of `x` and the second operand is `W`, its entry at `j` is the whole product's at the
    index `i` that `j` names inside block `b`. -/
theorem pay_eq_linAt (x : S100000x11.Idx → EReal) (W : S11x32.Idx → EReal)
    (x0 : Vec Ideal S5000x11 .f32) (x1 : Vec Ideal S11x32 .f32) (b : ℕ)
    (h0 : ∀ (r : Fin 5000) (k : Fin 11) (n : Fin 100000), n.val = 5000 * b + r.val → x0 (ix2 r k) = x (ix2 n k))
    (h1 : ∀ (k : Fin 11) (f : Fin 32), x1 (ix2 k f) = W (ix2 k f))
    (j : S5000x32.Idx) (i : S100000x32.Idx)
    (hi0 : (i 0).val = 5000 * b + (j 0).val) (hi1 : (i 1).val = (j 1).val) :
    (k0_pay1 (F := Ideal) x0 x1 : S5000x32.Idx → EReal) j = linAt x W i := by
  obtain ⟨r, f, rfl⟩ : ∃ (r : Fin 5000) (f : Fin 32), j = ix2 r f := ⟨j 0, j 1, eq_ix2 j⟩
  obtain ⟨n, g, rfl⟩ : ∃ (n : Fin 100000) (g : Fin 32), i = ix2 n g := ⟨i 0, i 1, eq_ix2 i⟩
  obtain rfl : g = f := Fin.ext hi1
  rw [lin_pay_apply]
  exact Finset.sum_congr rfl fun k _ => by rw [h0 r k n hi0, h1]

/-- The index maps over the twenty points: the row windows are at block `t` of the rows, the weights at their one
    block. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

section Blocks

variable (V : (c : Dev nD) → (b : Ref sig .tc) → Buf (Elt Ideal) ((c : Thread nD τ).loc b))

/-- The row window's block at point `t` is rows `5000·t … 5000·t + 4999` of `x`. -/
theorem iblk0_0_apply (c : Dev nD) (t : Fin cfg0.N) (r : Fin 5000) (k : Fin 11) (n : Fin 100000)
    (hn : n.val = 5000 * t.val + r.val) :
    (iblk0 (F := Ideal) V c 0 t : Vec Ideal S5000x11 .f32) (ix2 r k) = (V c main_arg0 : S100000x11.Idx → EReal) (ix2 n k) := by
  obtain ⟨e0, e1, -⟩ := idx_facts0 t
  unfold iblk0
  rw [View.read_apply]
  show V c main_arg0 _ = V c main_arg0 _
  congr 1
  funext a
  apply Fin.ext
  match a with
  | ⟨0, _⟩ => show win0_0.index t (0 : Fin 2) * 5000 + 1 * r.val = n.val; rw [e0, hn]; omega
  | ⟨1, _⟩ => show win0_0.index t (1 : Fin 2) * 11 + 1 * k.val = k.val; rw [e1]; omega

/-- The weights' block at every point is `W` itself. -/
theorem iblk0_1_apply (c : Dev nD) (t : Fin cfg0.N) (k : Fin 11) (f : Fin 32) :
    (iblk0 (F := Ideal) V c 1 t : Vec Ideal S11x32 .f32) (ix2 k f) = (V c main_arg3 : S11x32.Idx → EReal) (ix2 k f) := by
  obtain ⟨-, -, e2, e3, -⟩ := idx_facts0 t
  unfold iblk0
  rw [View.read_apply]
  show V c main_arg3 _ = V c main_arg3 _
  congr 1
  funext a
  apply Fin.ext
  match a with
  | ⟨0, _⟩ => show win0_1.index t (0 : Fin 2) * 11 + 1 * k.val = k.val; rw [e2]; omega
  | ⟨1, _⟩ => show win0_1.index t (1 : Fin 2) * 32 + 1 * f.val = f.val; rw [e3]; omega

/-- What point `t` writes back is block `t` of the whole product. -/
theorem flushed_lin_eq (c : Dev nD) (t : Fin cfg0.N) :
    (dat0 (F := Ideal) V c).flushed 2 t
      = ((cfg0.win 2).blk t).view.read (Elt Ideal) (linAt (V c main_arg0) (V c main_arg3)) := by
  show (cfg0.win 2).cut (grid0.coords t) ((dat0 (F := Ideal) V c).after 2 t) = _
  rw [after0_2]
  obtain ⟨-, -, -, -, e4, e5⟩ := idx_facts0 t
  funext j
  refine pay_eq_linAt (V c main_arg0) (V c main_arg3) (iblk0 (F := Ideal) V c 0 t) (iblk0 (F := Ideal) V c 1 t) t.val
    (fun r k n hn => iblk0_0_apply V c t r k n hn) (fun k f => iblk0_1_apply V c t k f)
    j (((cfg0.win 2).blk t).view.emb j) ?_ ?_
  · show win0_2.index t (0 : Fin 2) * 5000 + 1 * (j 0).val = 5000 * t.val + (j 0).val; rw [e4]; omega
  · show win0_2.index t (1 : Fin 2) * 32 + 1 * (j 1).val = (j 1).val; rw [e5]; omega

end Blocks

/-- An index of the result array is in point `t`'s block iff each coordinate is in the block's range on its axis. -/
theorem mem_blk_lin (t : Fin cfg0.N) (i : S100000x32.Idx) :
    i ∈ ((cfg0.win 2).blk t).view.set ↔ ∀ a : Fin 2, win0_2.index t a * S5000x32.size a ≤ (i a).val
      ∧ (i a).val < win0_2.index t a * S5000x32.size a + S5000x32.size a := by
  show i ∈ ((View.whole main_v0).slice (win0_2.rect t)).set ↔ _
  rw [View.set_slice_whole, Rect.mem_set_unit]
  exact Iff.rfl

/-- Row `n` lies in the block of point `n / 5000`, which writes back. -/
theorem cover_lin (i : S100000x32.Idx) :
    ∃ t : Fin cfg0.N, (cfg0.win 2).flush t = true ∧ i ∈ ((cfg0.win 2).blk t).view.set := by
  have hi0 : (i 0).val < 100000 := (i 0).isLt
  have hi1 : (i 1).val < 32 := (i 1).isLt
  obtain ⟨t, ht⟩ : ∃ t : Fin cfg0.N, t.val = (i 0).val / 5000 :=
    ⟨⟨(i 0).val / 5000, by show _ < grid0.N; rw [N_0]; omega⟩, rfl⟩
  obtain ⟨-, -, -, -, e4, e5⟩ := idx_facts0 t
  refine ⟨t, flush0_2 t, ?_⟩
  rw [mem_blk_lin]
  intro a
  match a with
  | ⟨0, _⟩ =>
    show win0_2.index t (0 : Fin 2) * 5000 ≤ (i 0).val ∧ (i 0).val < win0_2.index t (0 : Fin 2) * 5000 + 5000
    rw [e4, ht]; omega
  | ⟨1, _⟩ =>
    show win0_2.index t (1 : Fin 2) * 32 ≤ (i 1).val ∧ (i 1).val < win0_2.index t (1 : Fin 2) * 32 + 32
    rw [e5]; omega

/-- After the twenty write-backs the result array holds, at node `n` and feature `f`, the sum over the eleven input
    features of `x n k · W k f`. -/
theorem h_lin (V : (c : Dev nD) → (b : Ref sig .tc) → Buf (Elt Ideal) ((c : Thread nD τ).loc b)) (c : Dev nD)
    (n : Fin 100000) (f : Fin 32) :
    ((dat0 (F := Ideal) V c).arrAt 2 cfg0.N : S100000x32.Idx → EReal) (ix2 n f)
      = Cert.Spec.lin (V c main_arg0) (V c main_arg3) n f := by
  rw [(dat0 (F := Ideal) V c).arrAt_eq_of_cover 2 (linAt (V c main_arg0) (V c main_arg3))
    (fun t _ => flushed_lin_eq V c t) cover_lin]
  rfl

end Cert.KernelIdeal.Hand

end
-- ==== Proof.Value1Acc.lean ====
/-
  The accumulator after the last point, read at a graph and a column: the first 32 columns hold the sum over the
  graph's nodes of the rectified features, the last column the number of the graph's nodes.

  One point adds to the accumulator the product of the transposed one-hot matrix of its 4000 rows' graph words
  (row r, graph g: one where the row's word is the graph's, zero elsewhere) with the 4000 × 33 matrix of the rows'
  rectified features followed by a column of ones. Entry (g, j) of that product is the sum over the 4000 rows of
  the one-hot factor times the row's entry in column j. The 25 points' row ranges 4000·t … 4000·t + 3999 split the
  100000 nodes, so the partial sums add up to one sum over every node, in which the one-hot factor keeps exactly
  the nodes of graph g: the sum of their rectified features in a feature column, their number in the last one.
-/
import proofs.«428440_j16372415332644_2_alg».proof.Proof.Region1
import proofs.«428440_j16372415332644_2_alg».proof.Proof.Spec
import Idealize.ShloMosaic.PureOps.Ideal.Laws
import Idealize.ShloMosaic.Lib.ValueIdx
import Idealize.ShloMosaic.Lib.ValueLayout
import Idealize.ShloMosaic.Lib.Pipeline.Value
import Mathlib.Algebra.BigOperators.Group.Finset.Basic
import Mathlib.Data.Fintype.BigOperators

set_option maxRecDepth 16384

noncomputable section

namespace Cert.KernelIdeal.Hand

open Idealize.ShloMosaic Idealize.ShloMosaic.TcCoe Idealize.SL.Sem Idealize.ShloMosaic.ValueIdx
open Idealize.ShloMosaic.Pipeline (Dat)
open Cert.KernelIdeal Cert.KernelIdeal.Gen

namespace Acc1

/-! ## The product's operand indices

The product contracts the row axis of both operands: at entry (g, j) and row r the left operand is read at (r, g),
the right one at (r, j). -/

theorem lhs_row (i : S64x33.Idx) (q : dot_S4000x64_S4000x33_S64x33_0_0_1_1_n_n.contr.Idx) :
    (dot_S4000x64_S4000x33_S64x33_0_0_1_1_n_n.lhsIdx i q 0).val = (q ⟨0, by decide⟩).val :=
  dot_S4000x64_S4000x33_S64x33_0_0_1_1_n_n.lhsIdx_val_of_single rfl i q
theorem lhs_col (i : S64x33.Idx) (q : dot_S4000x64_S4000x33_S64x33_0_0_1_1_n_n.contr.Idx) :
    (dot_S4000x64_S4000x33_S64x33_0_0_1_1_n_n.lhsIdx i q 1).val = (i 0).val := by
  unfold DotDims.lhsIdx
  rw [dif_neg (show ¬(1 : Fin S4000x64.rank) ∈ dot_S4000x64_S4000x33_S64x33_0_0_1_1_n_n.lhsBatch by decide), dif_pos (show (1 : Fin S4000x64.rank) ∈ dot_S4000x64_S4000x33_S64x33_0_0_1_1_n_n.lhsNonContracting by decide)]
  rfl
theorem rhs_row (i : S64x33.Idx) (q : dot_S4000x64_S4000x33_S64x33_0_0_1_1_n_n.contr.Idx) :
    (dot_S4000x64_S4000x33_S64x33_0_0_1_1_n_n.rhsIdx i q 0).val = (q ⟨0, by decide⟩).val :=
  dot_S4000x64_S4000x33_S64x33_0_0_1_1_n_n.rhsIdx_val_of_single rfl i q
theorem rhs_col (i : S64x33.Idx) (q : dot_S4000x64_S4000x33_S64x33_0_0_1_1_n_n.contr.Idx) :
    (dot_S4000x64_S4000x33_S64x33_0_0_1_1_n_n.rhsIdx i q 1).val = (i 1).val := by
  unfold DotDims.rhsIdx
  rw [dif_neg (show ¬(1 : Fin S4000x33.rank) ∈ dot_S4000x64_S4000x33_S64x33_0_0_1_1_n_n.rhsBatch by decide), dif_pos (show (1 : Fin S4000x33.rank) ∈ dot_S4000x64_S4000x33_S64x33_0_0_1_1_n_n.rhsNonContracting by decide)]
  rfl

/-! ## The two factors -/

/-- The one-hot factor of two words: the comparison's bit, widened and converted. -/
def hot (w u : BitVec 32) : EReal := FloatOps.sitofp (F := Ideal) .f32 ((IntOp.cmpi .eq w u).setWidth 32)

/-- It is one where the words agree and zero elsewhere. -/
theorem hot_eq (w u : BitVec 32) : hot w u = if w = u then 1 else 0 := by
  show ((((BitVec.ofBool (w == u)).setWidth 32).toInt : ℝ) : EReal) = _
  by_cases h : w = u
  · have hb : (w == u) = true := by simp [h]
    rw [if_pos h, hb, show ((BitVec.ofBool true).setWidth 32).toInt = 1 by decide]
    simp
  · have hb : (w == u) = false := by simp [h]
    rw [if_neg h, hb, show ((BitVec.ofBool false).setWidth 32).toInt = 0 by decide]
    simp

/-- A word is the 32-bit word of a graph number below 64 exactly when its signed value is that number. -/
theorem word_eq_iff (w : BitVec 32) (g : Fin 64) : w = BitVec.ofNat 32 g.val ↔ w.toInt = (g.val : ℤ) := by
  have hg := g.isLt
  have hw := w.isLt
  constructor
  · rintro rfl
    rw [BitVec.toInt_eq_toNat_cond, BitVec.toNat_ofNat]
    omega
  · intro h
    rw [BitVec.toInt_eq_toNat_cond] at h
    apply BitVec.eq_of_toNat_eq
    rw [BitVec.toNat_ofNat]
    omega

/-- The rows' rectified features (feature plus bias, cut below at zero) with a column of ones appended. -/
def aug (v3 : Vec Ideal S4000x32 .f32) (v5 : Vec Ideal S1x32 .f32) : FVec Ideal S4000x33 .f32 :=
  concatenate S4000x33 1
    [⟨S4000x32, maximumf (addf v3 (broadcastTo S4000x32 v5 broadcasts_S1x32_S4000x32)) (broadcast S4000x32 (Scalar.ofBits .f32 0x00000000#32))⟩,
     ⟨S4000x1, broadcast S4000x1 (Scalar.ofBits .f32 0x3F800000#32)⟩] concatenates_S4000x32_S4000x1_S4000x33_d1

/-- A feature column of it: the rectified feature. -/
theorem aug_feature (v3 : Vec Ideal S4000x32 .f32) (v5 : Vec Ideal S1x32 .f32) (r : Fin 4000) (f : Fin 32) :
    aug v3 v5 (ix2 r (Fin.castSucc f)) = max (v3 (ix2 r f) + v5 (ix2 (0 : Fin 1) f)) 0 := by
  unfold aug
  refine (concatenate_pair_apply_left (1 : Fin S4000x33.rank) _ _ concatenates_S4000x32_S4000x1_S4000x33_d1
    (ix2 r (Fin.castSucc f)) rfl (ix2 r f) fun b => ?_).trans ?_
  · match b with
    | ⟨0, _⟩ => rfl
    | ⟨1, _⟩ => rfl
  · rw [maximumf_apply, addf_apply, broadcast_apply, broadcastTo_1b_ab_apply]
    show max (v3 (ix2 r f) + v5 (ix2 (0 : Fin 1) f)) (Ideal.ofBits .f32 0x00000000#32) = _
    rw [Ideal.ofBits_zero_f32]

/-- Its last column: one. -/
theorem aug_last (v3 : Vec Ideal S4000x32 .f32) (v5 : Vec Ideal S1x32 .f32) (r : Fin 4000) :
    aug v3 v5 (ix2 r (Fin.last 32)) = 1 := by
  unfold aug
  refine (concatenate_pair_apply_right (1 : Fin S4000x33.rank) _ _ concatenates_S4000x32_S4000x1_S4000x33_d1
    (ix2 r (Fin.last 32)) rfl rfl (ix2 r (0 : Fin 1)) (fun b hb => ?_) rfl).trans ?_
  · match b with
    | ⟨0, _⟩ => rfl
    | ⟨1, _⟩ => exact absurd rfl hb
  · rw [broadcast_apply]
    exact Cert.Spec.one_f32

/-- The column of graph words spread over the 64 graphs reads, at (r, g), row r's word. -/
theorem rows_spread (v13 : Vec Ideal S4000x1 .i32) (r : Fin 4000) (g : Fin 64) :
    (broadcastTo S4000x64 v13 broadcasts_S4000x1_S4000x64 : S4000x64.Idx → BitVec 32) (ix2 r g) = v13 (ix2 r (0 : Fin 1)) := by
  refine broadcastTo_apply v13 broadcasts_S4000x1_S4000x64 (ix2 r g) (ix2 r (0 : Fin 1)) fun a => ?_
  match a with
  | ⟨0, _⟩ => show r.val = if (4000 : ℕ) = 1 then 0 else r.val; rw [if_neg (by decide)]
  | ⟨1, _⟩ => show (0 : ℕ) = if (1 : ℕ) = 1 then 0 else g.val; rw [if_pos rfl]

/-! ## One point's value at an entry -/

/-- The zeroed accumulator. -/
theorem zeroed (g : Fin 64) (j : Fin 33) : (k1_pay1 (F := Ideal) : S64x33.Idx → EReal) (ix2 g j) = 0 := by
  unfold k1_pay1
  simp only [shapeCast_self, broadcast_apply]
  exact Ideal.ofBits_zero_f32

/-- What a point stores at (g, j): the value before it plus the sum over its rows of the one-hot factor times the
    augmented row's entry. -/
theorem point_read (v3 : Vec Ideal S4000x32 .f32) (v5 : Vec Ideal S1x32 .f32) (v13 : Vec Ideal S4000x1 .i32) (v15 : Vec Ideal S1x64 .i32)
    (v22 : Vec Ideal S64x33 .f32) (g : Fin 64) (j : Fin 33) :
    (k1_pay2 (F := Ideal) v3 v5 v13 v15 v22 : S64x33.Idx → EReal) (ix2 g j)
      = v22 (ix2 g j) + ∑ r : Fin 4000, hot (v13 (ix2 r (0 : Fin 1))) (v15 (ix2 (0 : Fin 1) g)) * aug v3 v5 (ix2 r j) := by
  unfold k1_pay2
  simp only [shapeCast_self]
  rw [shapeCast_self v3, shapeCast_self v5, addf_apply]
  simp only [matmul]
  rw [Ideal.matmul_constant_zero_apply, ← Equiv.sum_comp (contrEquiv1 dot_S4000x64_S4000x33_S64x33_0_0_1_1_n_n 4000 rfl rfl).symm]
  refine congrArg (v22 (ix2 g j) + ·) (Finset.sum_congr rfl fun r _ => ?_)
  have hk := contrEquiv1_symm_val dot_S4000x64_S4000x33_S64x33_0_0_1_1_n_n 4000 rfl rfl r
  have el : dot_S4000x64_S4000x33_S64x33_0_0_1_1_n_n.lhsIdx (ix2 g j) ((contrEquiv1 dot_S4000x64_S4000x33_S64x33_0_0_1_1_n_n 4000 rfl rfl).symm r) = ix2 r g := funext fun a => Fin.ext (by
    match a with
    | ⟨0, _⟩ => exact (lhs_row _ _).trans hk
    | ⟨1, _⟩ => exact lhs_col _ _)
  have er : dot_S4000x64_S4000x33_S64x33_0_0_1_1_n_n.rhsIdx (ix2 g j) ((contrEquiv1 dot_S4000x64_S4000x33_S64x33_0_0_1_1_n_n 4000 rfl rfl).symm r) = ix2 r j := funext fun a => Fin.ext (by
    match a with
    | ⟨0, _⟩ => exact (rhs_row _ _).trans hk
    | ⟨1, _⟩ => exact rhs_col _ _)
  rw [el, er, truncf_apply, truncf_apply, sitofp_apply, extui_apply]
  show FloatOps.sitofp (F := Ideal) .f32 ((IntOp.cmpi .eq ((broadcastTo S4000x64 v13 broadcasts_S4000x1_S4000x64 : S4000x64.Idx → BitVec 32) (ix2 r g))
      ((broadcastTo S4000x64 v15 broadcasts_S1x64_S4000x64 : S4000x64.Idx → BitVec 32) (ix2 r g))).setWidth 32) * aug v3 v5 (ix2 r j) = _
  rw [rows_spread, broadcastTo_1b_ab_apply]
  rfl

/-! ## The blocks, read off the arrays

Point t's block of the features and of the graph words is rows 4000·t … 4000·t + 3999 of the array; the bias row
and the row of graph numbers are whole at every point. -/

variable (V : (c : Dev nD) → (b : Ref sig .tc) → Buf (Elt Ideal) ((c : Thread nD τ).loc b)) (c : Dev nD)

theorem block_index : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0 :=
  (by decide +kernel : ∀ t : Fin grid1.N, _)

theorem features_block (t : Fin cfg1.N) (r : Fin 4000) (f : Fin 32) (h : 4000 * t.val + r.val < 100000) :
    (iblk1 (F := Ideal) V c 0 t : S4000x32.Idx → EReal) (ix2 r f) = (V c main_v35 : S100000x32.Idx → EReal) (ix2 ⟨4000 * t.val + r.val, h⟩ f) := by
  obtain ⟨e0, e1, -⟩ := block_index t
  show (V c main_v35 : S100000x32.Idx → EReal) (((cfg1.win 0).blk t).view.emb (ix2 r f)) = _
  refine congrArg _ (funext fun a => Fin.ext ?_)
  match a with
  | ⟨0, _⟩ => show win1_0.index t (0 : Fin 2) * 4000 + 1 * r.val = 4000 * t.val + r.val; omega
  | ⟨1, _⟩ => show win1_0.index t (1 : Fin 2) * 32 + 1 * f.val = f.val; omega

theorem words_block (t : Fin cfg1.N) (r : Fin 4000) (h : 4000 * t.val + r.val < 100000) :
    (iblk1 (F := Ideal) V c 1 t : S4000x1.Idx → BitVec 32) (ix2 r (0 : Fin 1)) = (V c main_v36 : S100000x1.Idx → BitVec 32) (ix2 ⟨4000 * t.val + r.val, h⟩ (0 : Fin 1)) := by
  obtain ⟨-, -, e0, e1, -⟩ := block_index t
  show (V c main_v36 : S100000x1.Idx → BitVec 32) (((cfg1.win 1).blk t).view.emb (ix2 r (0 : Fin 1))) = _
  refine congrArg _ (funext fun a => Fin.ext ?_)
  match a with
  | ⟨0, _⟩ => show win1_1.index t (0 : Fin 2) * 4000 + 1 * r.val = 4000 * t.val + r.val; omega
  | ⟨1, _⟩ => show win1_1.index t (1 : Fin 2) * 1 + 1 * 0 = 0; omega

theorem bias_block (t : Fin cfg1.N) (f : Fin 32) :
    (iblk1 (F := Ideal) V c 2 t : S1x32.Idx → EReal) (ix2 (0 : Fin 1) f) = (V c main_v37 : S1x32.Idx → EReal) (ix2 (0 : Fin 1) f) := by
  obtain ⟨-, -, -, -, e0, e1, -⟩ := block_index t
  show (V c main_v37 : S1x32.Idx → EReal) (((cfg1.win 2).blk t).view.emb (ix2 (0 : Fin 1) f)) = _
  refine congrArg _ (funext fun a => Fin.ext ?_)
  match a with
  | ⟨0, _⟩ => show win1_2.index t (0 : Fin 2) * 1 + 1 * 0 = 0; omega
  | ⟨1, _⟩ => show win1_2.index t (1 : Fin 2) * 32 + 1 * f.val = f.val; omega

theorem graphs_block (t : Fin cfg1.N) (g : Fin 64) :
    (iblk1 (F := Ideal) V c 3 t : S1x64.Idx → BitVec 32) (ix2 (0 : Fin 1) g) = (V c main_v39 : S1x64.Idx → BitVec 32) (ix2 (0 : Fin 1) g) := by
  obtain ⟨-, -, -, -, -, -, e0, e1⟩ := block_index t
  show (V c main_v39 : S1x64.Idx → BitVec 32) (((cfg1.win 3).blk t).view.emb (ix2 (0 : Fin 1) g)) = _
  refine congrArg _ (funext fun a => Fin.ext ?_)
  match a with
  | ⟨0, _⟩ => show win1_3.index t (0 : Fin 2) * 1 + 1 * 0 = 0; omega
  | ⟨1, _⟩ => show win1_3.index t (1 : Fin 2) * 64 + 1 * g.val = g.val; omega

/-! ## The sum over every node -/

/-- Node n's feature f, the bias of feature f, and the graph word of node n. -/
abbrev featOf : Fin 100000 → Fin 32 → EReal := fun n f => (V c main_v35 : S100000x32.Idx → EReal) (ix2 n f)
abbrev biasOf : Fin 32 → EReal := fun f => (V c main_v37 : S1x32.Idx → EReal) (ix2 (0 : Fin 1) f)
abbrev wordOf : Fin 100000 → BitVec 32 := fun n => (V c main_v36 : S100000x1.Idx → BitVec 32) (ix2 n (0 : Fin 1))

/-- Node i's term of the sum for graph g, for a per-node quantity x: x where the node is of the graph, zero
    elsewhere (and zero past the last node, so that it is a function of a natural number). -/
def term (batch : Fin 100000 → BitVec 32) (g : Fin 64) (x : Fin 100000 → EReal) (i : ℕ) : EReal :=
  if h : i < 100000 then (if (batch ⟨i, h⟩).toInt = (g.val : ℤ) then x ⟨i, h⟩ else 0) else 0

/-- Consecutive blocks of k terms, n of them, are the first k·n terms. -/
theorem sum_blocks (F : ℕ → EReal) (k : ℕ) : ∀ n : ℕ,
    ∑ m ∈ Finset.range n, ∑ r : Fin k, F (k * m + r.val) = ∑ i ∈ Finset.range (k * n), F i
  | 0 => by simp
  | n + 1 => by
    rw [Finset.sum_range_succ, sum_blocks F k n, Nat.mul_succ, Finset.sum_range_add, Fin.sum_univ_eq_sum_range (fun r => F (k * n + r)) k]

/-- Row r of point t contributes node 4000·t + r's term, once the augmented row's entry is known to be that node's
    quantity. -/
theorem row_term (hgid : ∀ g : Fin 64, (V c main_v39 : S1x64.Idx → BitVec 32) (ix2 (0 : Fin 1) g) = BitVec.ofNat 32 g.val)
    (t : Fin cfg1.N) (g : Fin 64) (j : Fin 33) (x : Fin 100000 → EReal)
    (hx : ∀ (r : Fin 4000) (h : 4000 * t.val + r.val < 100000),
      aug (iblk1 (F := Ideal) V c 0 t) (iblk1 (F := Ideal) V c 2 t) (ix2 r j) = x ⟨4000 * t.val + r.val, h⟩)
    (r : Fin 4000) :
    hot ((iblk1 (F := Ideal) V c 1 t : S4000x1.Idx → BitVec 32) (ix2 r (0 : Fin 1)))
        ((iblk1 (F := Ideal) V c 3 t : S1x64.Idx → BitVec 32) (ix2 (0 : Fin 1) g))
      * aug (iblk1 (F := Ideal) V c 0 t) (iblk1 (F := Ideal) V c 2 t) (ix2 r j)
      = term (wordOf V c) g x (4000 * t.val + r.val) := by
  have hN : cfg1.N = 25 := N_1
  have ht := t.isLt
  have hr := r.isLt
  have h : 4000 * t.val + r.val < 100000 := by omega
  rw [hx r h, words_block V c t r h, graphs_block V c t g, hgid g, hot_eq]
  unfold term
  rw [dif_pos h]
  by_cases hw : (wordOf V c ⟨4000 * t.val + r.val, h⟩).toInt = (g.val : ℤ)
  · rw [if_pos hw, if_pos ((word_eq_iff _ g).mpr hw), one_mul]
  · rw [if_neg hw, if_neg (fun e => hw ((word_eq_iff _ g).mp e)), zero_mul]

/-- After point n the entry holds the terms of the nodes under the points 0 … n. -/
theorem partial_sum (hgid : ∀ g : Fin 64, (V c main_v39 : S1x64.Idx → BitVec 32) (ix2 (0 : Fin 1) g) = BitVec.ofNat 32 g.val)
    (g : Fin 64) (j : Fin 33) (x : Fin 100000 → EReal)
    (hx : ∀ (t : Fin cfg1.N) (r : Fin 4000) (h : 4000 * t.val + r.val < 100000),
      aug (iblk1 (F := Ideal) V c 0 t) (iblk1 (F := Ideal) V c 2 t) (ix2 r j) = x ⟨4000 * t.val + r.val, h⟩) :
    ∀ (n : ℕ) (hn : n < cfg1.N), (accAt1 (F := Ideal) V c n hn : S64x33.Idx → EReal) (ix2 g j)
      = ∑ m ∈ Finset.range (n + 1), ∑ r : Fin 4000, term (wordOf V c) g x (4000 * m + r.val)
  | 0, hn => by
    rw [accAt1_zero]
    refine (point_read _ _ _ _ _ g j).trans ?_
    rw [zeroed, zero_add, Finset.sum_range_one]
    exact Finset.sum_congr rfl fun r _ => row_term V c hgid ⟨0, hn⟩ g j x (hx ⟨0, hn⟩) r
  | n + 1, hn => by
    rw [accAt1_succ]
    refine (point_read _ _ _ _ _ g j).trans ?_
    rw [partial_sum hgid g j x hx n (Nat.lt_of_succ_lt hn),
      Finset.sum_range_succ (fun m => ∑ r : Fin 4000, term (wordOf V c) g x (4000 * m + r.val)) (n + 1)]
    exact congrArg _ (Finset.sum_congr rfl fun r _ => row_term V c hgid ⟨n + 1, hn⟩ g j x (hx ⟨n + 1, hn⟩) r)

/-- After the last point: the sum of the quantity over the nodes of graph g. -/
theorem total_sum (hgid : ∀ g : Fin 64, (V c main_v39 : S1x64.Idx → BitVec 32) (ix2 (0 : Fin 1) g) = BitVec.ofNat 32 g.val)
    (h24 : 24 < cfg1.N) (g : Fin 64) (j : Fin 33) (x : Fin 100000 → EReal)
    (hx : ∀ (t : Fin cfg1.N) (r : Fin 4000) (h : 4000 * t.val + r.val < 100000),
      aug (iblk1 (F := Ideal) V c 0 t) (iblk1 (F := Ideal) V c 2 t) (ix2 r j) = x ⟨4000 * t.val + r.val, h⟩) :
    (accAt1 (F := Ideal) V c 24 h24 : S64x33.Idx → EReal) (ix2 g j)
      = ∑ n ∈ Finset.univ.filter (fun n : Fin 100000 => (wordOf V c n).toInt = (g.val : ℤ)), x n := by
  have h1 := partial_sum V c hgid g j x hx 24 h24
  have h2 : ∑ m ∈ Finset.range (24 + 1), ∑ r : Fin 4000, term (wordOf V c) g x (4000 * m + r.val)
      = ∑ i ∈ Finset.range 100000, term (wordOf V c) g x i := sum_blocks (term (wordOf V c) g x) 4000 25
  rw [h1, h2, ← Fin.sum_univ_eq_sum_range (term (wordOf V c) g x) 100000, Finset.sum_filter]
  refine Finset.sum_congr rfl fun i _ => ?_
  unfold term
  rw [dif_pos i.isLt]

end Acc1

open Acc1

variable (V : (c : Dev nD) → (b : Ref sig .tc) → Buf (Elt Ideal) ((c : Thread nD τ).loc b)) (c : Dev nD)

/-- The feature columns. -/
theorem acc_sum (hgid : ∀ g : Fin 64, (V c main_v39 : S1x64.Idx → BitVec 32) (ix2 (0 : Fin 1) g) = BitVec.ofNat 32 g.val)
    (h24 : 24 < cfg1.N) (g : Fin 64) (f : Fin 32) :
    (accAt1 (F := Ideal) V c 24 h24 : S64x33.Idx → EReal) (ix2 g (Fin.castSucc f))
      = Cert.Spec.poolS (fun n f => (V c main_v35 : S100000x32.Idx → EReal) (ix2 n f))
          (fun f => (V c main_v37 : S1x32.Idx → EReal) (ix2 (0 : Fin 1) f))
          (fun n => (V c main_v36 : S100000x1.Idx → BitVec 32) (ix2 n (0 : Fin 1))) g f := by
  have key := total_sum V c hgid h24 g (Fin.castSucc f)
    (fun n => max (featOf V c n f + biasOf V c f) 0)
    (fun t r h => (aug_feature _ _ r f).trans (by rw [features_block V c t r f h, bias_block V c t f]))
  unfold Cert.Spec.poolS
  exact key

/-- The count column. -/
theorem acc_cnt (hgid : ∀ g : Fin 64, (V c main_v39 : S1x64.Idx → BitVec 32) (ix2 (0 : Fin 1) g) = BitVec.ofNat 32 g.val)
    (h24 : 24 < cfg1.N) (g : Fin 64) :
    (accAt1 (F := Ideal) V c 24 h24 : S64x33.Idx → EReal) (ix2 g (Fin.last 32))
      = ((Cert.Spec.poolC (fun n => (V c main_v36 : S100000x1.Idx → BitVec 32) (ix2 n (0 : Fin 1))) g : ℝ) : EReal) := by
  have key := total_sum V c hgid h24 g (Fin.last 32) (fun _ => 1) (fun t r h => aug_last _ _ r)
  rw [key, Cert.Spec.sum_one_eq_card]
  rfl

end Cert.KernelIdeal.Hand

end
-- ==== Proof.Value1.lean ====
/-
  What the second region leaves in the program's result array, read at a graph: the mean rectified features of the
  graph's nodes against the output weights, plus the output bias.

  The result window is written back once, after the last of the 25 points, and its one block is the whole 64 × 1
  array; so the array ends holding what the last point stores. That store divides each of the accumulator's 32 feature
  columns by its count column raised to at least one, contracts the quotient with the 32 × 1 output weights, and adds
  the output bias; the accumulator's columns after the last point are the per-graph sums and counts.
-/
import proofs.«428440_j16372415332644_2_alg».proof.Proof.Value1Acc
import proofs.«428440_j16372415332644_2_alg».proof.Proof.Spec
import Idealize.ShloMosaic.PureOps.Ideal.Laws
import Idealize.ShloMosaic.Lib.ValueIdx
import Idealize.ShloMosaic.Lib.ValueLayout
import Idealize.ShloMosaic.Lib.Pipeline.Value

set_option maxRecDepth 16384

noncomputable section

namespace Cert.KernelIdeal.Hand

open Idealize.ShloMosaic Idealize.ShloMosaic.TcCoe Idealize.SL.Sem Idealize.ShloMosaic.ValueIdx
open Idealize.ShloMosaic.Pipeline (Dat)
open Cert.KernelIdeal Cert.KernelIdeal.Gen

namespace OutLayer

/-! ## The output layer's contraction -/

/-- The contraction's operand indices, axis by axis: the left operand is read at (the result's row, the contracted
    feature), the right at (the contracted feature, the result's column). -/
theorem outDot_lhs_0 (i : S64x1.Idx) (q : dot_S64x32_S32x1_S64x1_1_0_0_1_n_n.contr.Idx) :
    (dot_S64x32_S32x1_S64x1_1_0_0_1_n_n.lhsIdx i q 0).val = (i 0).val := by
  unfold DotDims.lhsIdx
  rw [dif_neg (show ¬(0 : Fin S64x32.rank) ∈ dot_S64x32_S32x1_S64x1_1_0_0_1_n_n.lhsBatch by decide), dif_pos (show (0 : Fin S64x32.rank) ∈ dot_S64x32_S32x1_S64x1_1_0_0_1_n_n.lhsNonContracting by decide)]
  rfl
theorem outDot_lhs_1 (i : S64x1.Idx) (q : dot_S64x32_S32x1_S64x1_1_0_0_1_n_n.contr.Idx) :
    (dot_S64x32_S32x1_S64x1_1_0_0_1_n_n.lhsIdx i q 1).val = (q ⟨0, by decide⟩).val :=
  dot_S64x32_S32x1_S64x1_1_0_0_1_n_n.lhsIdx_val_of_single rfl i q
theorem outDot_rhs_0 (i : S64x1.Idx) (q : dot_S64x32_S32x1_S64x1_1_0_0_1_n_n.contr.Idx) :
    (dot_S64x32_S32x1_S64x1_1_0_0_1_n_n.rhsIdx i q 0).val = (q ⟨0, by decide⟩).val :=
  dot_S64x32_S32x1_S64x1_1_0_0_1_n_n.rhsIdx_val_of_single rfl i q
theorem outDot_rhs_1 (i : S64x1.Idx) (q : dot_S64x32_S32x1_S64x1_1_0_0_1_n_n.contr.Idx) :
    (dot_S64x32_S32x1_S64x1_1_0_0_1_n_n.rhsIdx i q 1).val = (i 1).val := by
  unfold DotDims.rhsIdx
  rw [dif_neg (show ¬(1 : Fin S32x1.rank) ∈ dot_S64x32_S32x1_S64x1_1_0_0_1_n_n.rhsBatch by decide), dif_pos (show (1 : Fin S32x1.rank) ∈ dot_S64x32_S32x1_S64x1_1_0_0_1_n_n.rhsNonContracting by decide)]
  rfl

/-- A 64 × 32 matrix against a 32 × 1 column, into zero, read at row `g`: the sum over the 32 features. -/
theorem outDot_apply (l : FVec Ideal S64x32 .bf16) (r : FVec Ideal S32x1 .bf16) (g : Fin 64) :
    (matmul dot_S64x32_S32x1_S64x1_1_0_0_1_n_n none l r (constant (F := Ideal) S64x1 .f32 0x00000000#32) : S64x1.Idx → EReal) (ix2 g (0 : Fin 1))
      = ∑ f : Fin 32, l (ix2 g f) * r (ix2 f (0 : Fin 1)) := by
  simp only [matmul]
  rw [Ideal.matmul_constant_zero_apply, ← Equiv.sum_comp (ValueIdx.contrEquiv1 dot_S64x32_S32x1_S64x1_1_0_0_1_n_n 32 rfl rfl).symm]
  refine Finset.sum_congr rfl fun k _ => ?_
  have hk := ValueIdx.contrEquiv1_symm_val dot_S64x32_S32x1_S64x1_1_0_0_1_n_n 32 rfl rfl k
  have el : dot_S64x32_S32x1_S64x1_1_0_0_1_n_n.lhsIdx (ix2 g (0 : Fin 1)) ((ValueIdx.contrEquiv1 dot_S64x32_S32x1_S64x1_1_0_0_1_n_n 32 rfl rfl).symm k) = ix2 g k := funext fun a => Fin.ext (by
    match a with
    | ⟨0, _⟩ => exact outDot_lhs_0 _ _
    | ⟨1, _⟩ => exact (outDot_lhs_1 _ _).trans hk)
  have er : dot_S64x32_S32x1_S64x1_1_0_0_1_n_n.rhsIdx (ix2 g (0 : Fin 1)) ((ValueIdx.contrEquiv1 dot_S64x32_S32x1_S64x1_1_0_0_1_n_n 32 rfl rfl).symm k) = ix2 k (0 : Fin 1) := funext fun a => Fin.ext (by
    match a with
    | ⟨0, _⟩ => exact (outDot_rhs_0 _ _).trans hk
    | ⟨1, _⟩ => exact outDot_rhs_1 _ _)
  rw [el, er]

/-- A 64 × 1 column spread over 32 columns reads, at `(g, f)`, the column at `g`. -/
theorem spreadCol_apply (v : S64x1.Idx → EReal) (g : Fin 64) (f : Fin 32) :
    broadcastTo S64x32 v broadcasts_S64x1_S64x32 (ix2 g f) = v (ix2 g (0 : Fin 1)) := by
  refine broadcastTo_apply v broadcasts_S64x1_S64x32 (ix2 g f) (ix2 g (0 : Fin 1)) fun ax => ?_
  match ax with
  | ⟨0, _⟩ => rfl
  | ⟨1, _⟩ => rfl

/-- A 1 × 1 array spread over 64 rows reads its one entry everywhere. -/
theorem spreadOne_apply (v : S1x1.Idx → EReal) (g : Fin 64) :
    broadcastTo S64x1 v broadcasts_S1x1_S64x1 (ix2 g (0 : Fin 1)) = v (ix2 (0 : Fin 1) (0 : Fin 1)) := by
  refine broadcastTo_apply v broadcasts_S1x1_S64x1 (ix2 g (0 : Fin 1)) (ix2 (0 : Fin 1) (0 : Fin 1)) fun ax => ?_
  match ax with
  | ⟨0, _⟩ => rfl
  | ⟨1, _⟩ => rfl

/-- What the last point stores, read at graph `g`: each feature's sum divided by the count raised to at least one,
    against the output weights, plus the output bias. -/
theorem pay3_apply (v33 : Vec Ideal S64x32 .f32) (v34 : Vec Ideal S64x1 .f32) (v40 : Vec Ideal S32x1 .f32)
    (v43 : Vec Ideal S1x1 .f32) (g : Fin 64) :
    (k1_pay3 (F := Ideal) v33 v34 v40 v43 : S64x1.Idx → EReal) (ix2 g (0 : Fin 1))
      = (∑ f : Fin 32, Ideal.div (v33 (ix2 g f)) (max (v34 (ix2 g (0 : Fin 1))) 1) * v40 (ix2 f (0 : Fin 1)))
          + v43 (ix2 (0 : Fin 1) (0 : Fin 1)) := by
  unfold k1_pay3
  refine (addf_apply _ _ _).trans ?_
  refine congrArg₂ (· + ·) ?_ ?_
  · refine (outDot_apply _ _ g).trans ?_
    refine Finset.sum_congr rfl fun f _ => ?_
    refine congrArg₂ (· * ·) ?_ rfl
    show Ideal.div (v33 (ix2 g f)) (broadcastTo S64x32 (maximumf (F := Ideal) (φ := .f32) v34 (broadcast S64x1 (Scalar.ofBits .f32 0x3F800000#32))) broadcasts_S64x1_S64x32 (ix2 g f)) = _
    rw [spreadCol_apply]
    show Ideal.div (v33 (ix2 g f)) (max (v34 (ix2 g (0 : Fin 1))) (Ideal.ofBits .f32 0x3F800000#32)) = _
    rw [Cert.Spec.one_f32]
  · show broadcastTo S64x1 (shapeCast S1x1 v43 shapeCasts_S1x1_S1x1) broadcasts_S1x1_S64x1 (ix2 g (0 : Fin 1)) = _
    rw [spreadOne_apply, shapeCast_self]

/-! ## The accumulator's two slices and the last point's weight blocks, read at coordinates -/

/-- The feature slice of the accumulator reads its first 32 columns. -/
theorem ldSum_apply (acc : Vec Ideal S64x33 .f32) (g : Fin 64) (f : Fin 32) :
    (View.ld acc rSum : S64x32.Idx → EReal) (ix2 g f) = acc (ix2 g (Fin.castSucc f)) := by
  show acc (rSum.idx (ix2 g f)) = _
  refine congrArg acc (funext fun a => Fin.ext ?_)
  match a with
  | ⟨0, _⟩ => show 0 + 1 * g.val = g.val; omega
  | ⟨1, _⟩ => show 0 + 1 * f.val = f.val; omega

/-- The count slice reads its last column. -/
theorem ldCnt_apply (acc : Vec Ideal S64x33 .f32) (g : Fin 64) :
    (View.ld acc rCnt : S64x1.Idx → EReal) (ix2 g (0 : Fin 1)) = acc (ix2 g (Fin.last 32)) := by
  show acc (rCnt.idx (ix2 g (0 : Fin 1))) = _
  refine congrArg acc (funext fun a => Fin.ext ?_)
  match a with
  | ⟨0, _⟩ => show 0 + 1 * g.val = g.val; omega
  | ⟨1, _⟩ => show 32 + 1 * 0 = 32; rfl

variable (V : (c : Dev nD) → (b : Ref sig .tc) → Buf (Elt Ideal) ((c : Thread nD τ).loc b)) (c : Dev nD)

/-- The output weights' block and the output bias's block at a point, at their literal types. -/
abbrev woutBlk (t : Fin cfg1.N) : Vec Ideal S32x1 .f32 := iblk1 (F := Ideal) V c 4 t
abbrev boutBlk (t : Fin cfg1.N) : Vec Ideal S1x1 .f32 := iblk1 (F := Ideal) V c 5 t

/-- The weights' one block is the whole 32 × 1 array. -/
theorem woutBlk_apply (t : Fin cfg1.N) (f : Fin 32) :
    woutBlk V c t (ix2 f (0 : Fin 1)) = (V c main_arg5 : S32x1.Idx → EReal) (ix2 f (0 : Fin 1)) := by
  unfold woutBlk iblk1
  rw [View.read_apply]
  show V c main_arg5 _ = V c main_arg5 _
  congr 1
  funext a
  apply Fin.ext
  match a with
  | ⟨0, _⟩ => show win1_4.index t 0 * 32 + 1 * f.val = f.val
              rw [show win1_4.index t 0 = 0 from rfl]; omega
  | ⟨1, _⟩ => show win1_4.index t 1 * 1 + 1 * 0 = 0
              rw [show win1_4.index t 1 = 0 from rfl]

/-- The bias's one block is the whole 1 × 1 array. -/
theorem boutBlk_apply (t : Fin cfg1.N) :
    boutBlk V c t (ix2 (0 : Fin 1) (0 : Fin 1)) = (V c main_v40 : S1x1.Idx → EReal) (ix2 (0 : Fin 1) (0 : Fin 1)) := by
  unfold boutBlk iblk1
  rw [View.read_apply]
  show V c main_v40 _ = V c main_v40 _
  congr 1
  funext a
  apply Fin.ext
  match a with
  | ⟨0, _⟩ => show win1_5.index t 0 * 1 + 1 * 0 = 0
              rw [show win1_5.index t 0 = 0 from rfl]
  | ⟨1, _⟩ => show win1_5.index t 1 * 1 + 1 * 0 = 0
              rw [show win1_5.index t 1 = 0 from rfl]

/-! ## The result array after the region -/

/-- The grid has a point 24, its last. -/
theorem lastPt_lt : 24 < cfg1.N := by rw [show cfg1.N = 25 from N_1]; decide

/-- The last point. -/
abbrev lastPt : Fin cfg1.N := ⟨24, lastPt_lt⟩

/-- The result array's contents after the region: what the last point stores (its one block is the whole array). -/
abbrev result1 : Buf (Elt Ideal) ((c : Thread nD τ).loc main_v41) := outAt1 (F := Ideal) V c lastPt

/-- The one write-back, at the last point, writes it: block (0, 0) of the 64 × 1 array is the array. -/
theorem flushed1_eq (t : Fin cfg1.N) (hf : (cfg1.win 6).flush t = true) :
    (dat1 (F := Ideal) V c).flushed 6 t = ((cfg1.win 6).blk t).view.read (Elt Ideal) (result1 V c) := by
  have hN : cfg1.N = 25 := N_1
  have h : t.val = 24 := by have := (flush1_6 t).mp hf; have := t.isLt; omega
  obtain rfl : t = lastPt := Fin.ext h
  show (cfg1.win 6).cut (grid1.coords lastPt) ((dat1 (F := Ideal) V c).after 6 lastPt) = _
  rw [after1_6]
  have hz' : (fun a => win1_6.index lastPt a * main_v41.ty.shape.size a) = fun _ => 0 := funext fun a => by fin_cases a <;> rfl
  exact (Memref.read_access_unit_zero (Elt Ideal) main_v41 hz' (fun a => by rw [congrFun hz' a]; simp) (result1 V c)).symm

/-- So the result array ends holding what the last point stores. -/
theorem final1 : (dat1 (F := Ideal) V c).arrAt 6 cfg1.N = result1 V c :=
  (dat1 (F := Ideal) V c).arrAt_eq_of_cover 6 (result1 V c) (flushed1_eq V c) fun i =>
    ⟨lastPt, (flush1_6 lastPt).mpr rfl, by
      show i ∈ ((View.whole main_v41).slice (win1_6.rect lastPt)).set
      rw [View.set_slice_whole, Rect.mem_set_unit]
      intro a
      have h0 : (i 0 : Nat) < 64 := (i 0).isLt
      have h1 : (i 1 : Nat) < 1 := (i 1).isLt
      match a with
      | ⟨0, _⟩ => show win1_6.index lastPt 0 * win1_6.size 0 ≤ (i 0 : Nat) ∧ (i 0 : Nat) < win1_6.index lastPt 0 * win1_6.size 0 + win1_6.xsize (grid1.coords lastPt) 0
                  rw [show win1_6.index lastPt 0 * win1_6.size 0 = 0 from rfl, show win1_6.xsize (grid1.coords lastPt) 0 = 64 from rfl]; omega
      | ⟨1, _⟩ => show win1_6.index lastPt 1 * win1_6.size 1 ≤ (i 1 : Nat) ∧ (i 1 : Nat) < win1_6.index lastPt 1 * win1_6.size 1 + win1_6.xsize (grid1.coords lastPt) 1
                  rw [show win1_6.index lastPt 1 * win1_6.size 1 = 0 from rfl, show win1_6.xsize (grid1.coords lastPt) 1 = 1 from rfl]; omega⟩

end OutLayer

open OutLayer

/-! ## The result at a graph -/

/-- When the fourth operand lists the graph numbers 0 … 63, the result array at graph `g` is the pooled output of
    the first operand (node features), the third (bias row), the second (each node's graph), the fifth (output
    weights) and the sixth (output bias). -/
theorem out_pool (V : (c : Dev nD) → (b : Ref sig .tc) → Buf (Elt Ideal) ((c : Thread nD τ).loc b)) (c : Dev nD)
    (hgid : ∀ g : Fin 64, (V c main_v39 : S1x64.Idx → BitVec 32) (ix2 (0 : Fin 1) g) = BitVec.ofNat 32 g.val)
    (g : Fin 64) :
    ((dat1 (F := Ideal) V c).arrAt 6 cfg1.N : S64x1.Idx → EReal) (ix2 g (0 : Fin 1))
      = Cert.Spec.out (fun n f => (V c main_v35 : S100000x32.Idx → EReal) (ix2 n f))
          (fun f => (V c main_v37 : S1x32.Idx → EReal) (ix2 (0 : Fin 1) f))
          (fun n => (V c main_v36 : S100000x1.Idx → BitVec 32) (ix2 n (0 : Fin 1)))
          (fun f => (V c main_arg5 : S32x1.Idx → EReal) (ix2 f (0 : Fin 1)))
          ((V c main_v40 : S1x1.Idx → EReal) (ix2 (0 : Fin 1) (0 : Fin 1))) g := by
  refine (congrFun (final1 V c) (ix2 g (0 : Fin 1))).trans ?_
  show (outAt1 (F := Ideal) V c lastPt : S64x1.Idx → EReal) (ix2 g (0 : Fin 1)) = _
  unfold outAt1
  refine (pay3_apply (View.ld (accAt1 (F := Ideal) V c 24 lastPt_lt) rSum) (View.ld (accAt1 (F := Ideal) V c 24 lastPt_lt) rCnt)
    (woutBlk V c lastPt) (boutBlk V c lastPt) g).trans ?_
  unfold Cert.Spec.out
  refine congrArg₂ (· + ·) (Finset.sum_congr rfl fun f _ => ?_) (boutBlk_apply V c lastPt)
  rw [ldSum_apply, ldCnt_apply, acc_sum V c hgid lastPt_lt g f, acc_cnt V c hgid lastPt_lt g, woutBlk_apply]

end Cert.KernelIdeal.Hand

end
-- ==== Proof.LibScatter.lean ====
/-
  General lemmas: a scatter-add and a gather whose index table is one column of row numbers, read at an index.

  `x.at[idx].add(upd)` over the first axis (jax's segment sum) prints as a scatter whose scatter indices are the
  [M × 1] column of target rows, whose operand's first axis is inserted and scatter-indexed, the index vector on
  axis 1. At the ideal values each operand element receives the exact sum of the updates whose target row, read as
  a signed integer and NOT clamped, is that element's row; a target outside the operand contributes nothing.
  `x[idx]` over the first axis of a matrix prints as a gather of whole rows, the row number read signed and clamped
  into the matrix.
-/
import Idealize.ShloMosaic.PureOps.Ideal
import Idealize.ShloMosaic.PureOps.Ideal.Laws
import Idealize.ShloMosaic.Lib.ValueIdx

noncomputable section

namespace Cert.LibScatter

open Idealize.ShloMosaic Idealize.ShloMosaic.ValueIdx

/-- Where an update of the vector scatter lands. -/
theorem vec_lands {N M w : Nat} (d : ScatterDims ⟨1, ![N]⟩ ⟨2, ![M, 1]⟩ ⟨1, ![M]⟩)
    (huw : d.updateWindowDims = []) (hiw : d.insertedWindowDims = [0]) (hsd : d.scatterDimsToOperandDims = [0])
    (hivd : d.indexVectorDim = 1) (idx : IVec ⟨2, ![M, 1]⟩ w) (j : (⟨1, ![M]⟩ : Shape).Idx) (i : (⟨1, ![N]⟩ : Shape).Idx) :
    d.resultIdx? j idx = some i ↔ (idx (ix2 (j 0 : Fin M) (0 : Fin 1))).toInt = ((i 0).val : ℤ) := by
  obtain ⟨uw, iw, sd, ivd, wf⟩ := d
  dsimp only at huw hiw hsd hivd
  subst huw hiw hsd hivd
  have hstart : ScatterDims.start (⟨[], [0], [0], 1, wf⟩ : ScatterDims ⟨1, ![N]⟩ ⟨2, ![M, 1]⟩ ⟨1, ![M]⟩) j idx (0 : Fin 1)
      = (idx (ix2 (j 0 : Fin M) (0 : Fin 1))).toInt := by
    unfold ScatterDims.start
    rw [dif_pos (List.mem_singleton.mpr rfl)]
    congr 2
    funext b; refine Fin.ext ?_
    match b with
    | ⟨0, _⟩ => rfl
    | ⟨1, _⟩ => rfl
  have hwin : ScatterDims.window (⟨[], [0], [0], 1, wf⟩ : ScatterDims ⟨1, ![N]⟩ ⟨2, ![M, 1]⟩ ⟨1, ![M]⟩) j (0 : Fin 1) = 0 := by
    unfold ScatterDims.window
    rw [dif_neg (by simp [ScatterDims.sKept, Shape.kept])]
  have hi : (i 0).val < N := (i 0).isLt
  unfold ScatterDims.resultIdx?
  split
  · rename_i h
    have h0 := h (0 : Fin 1)
    rw [hstart, hwin] at h0
    rw [Option.some.injEq]
    constructor
    · intro e
      have e0 := congrArg Fin.val (congrFun e (0 : Fin 1))
      simp only [hstart, hwin] at e0
      omega
    · intro e
      funext a
      match a with
      | ⟨0, _⟩ =>
        refine Fin.ext ?_
        show (ScatterDims.start (⟨[], [0], [0], 1, wf⟩ : ScatterDims ⟨1, ![N]⟩ ⟨2, ![M, 1]⟩ ⟨1, ![M]⟩) j idx (0 : Fin 1)
          + (ScatterDims.window (⟨[], [0], [0], 1, wf⟩ : ScatterDims ⟨1, ![N]⟩ ⟨2, ![M, 1]⟩ ⟨1, ![M]⟩) j (0 : Fin 1) : ℤ)).toNat = (i 0).val
        rw [hstart, hwin, e]; simp
  · rename_i h
    constructor
    · intro e; cases e
    · intro e
      exfalso; apply h
      intro a
      match a with
      | ⟨0, _⟩ =>
        show 0 ≤ ScatterDims.start (⟨[], [0], [0], 1, wf⟩ : ScatterDims ⟨1, ![N]⟩ ⟨2, ![M, 1]⟩ ⟨1, ![M]⟩) j idx (0 : Fin 1)
            + (ScatterDims.window (⟨[], [0], [0], 1, wf⟩ : ScatterDims ⟨1, ![N]⟩ ⟨2, ![M, 1]⟩ ⟨1, ![M]⟩) j (0 : Fin 1) : ℤ)
          ∧ ScatterDims.start (⟨[], [0], [0], 1, wf⟩ : ScatterDims ⟨1, ![N]⟩ ⟨2, ![M, 1]⟩ ⟨1, ![M]⟩) j idx (0 : Fin 1)
            + (ScatterDims.window (⟨[], [0], [0], 1, wf⟩ : ScatterDims ⟨1, ![N]⟩ ⟨2, ![M, 1]⟩ ⟨1, ![M]⟩) j (0 : Fin 1) : ℤ) < ((N : ℕ) : ℤ)
        rw [hstart, hwin, e]
        constructor <;> omega

/-- A vector scattered into a vector: element `i` receives the updates of the positions whose target is `i`. -/
theorem scatterAdd_vec {N M w : Nat} (d : ScatterDims ⟨1, ![N]⟩ ⟨2, ![M, 1]⟩ ⟨1, ![M]⟩)
    (huw : d.updateWindowDims = []) (hiw : d.insertedWindowDims = [0]) (hsd : d.scatterDimsToOperandDims = [0])
    (hivd : d.indexVectorDim = 1)
    (x : (⟨1, ![N]⟩ : Shape).Idx → EReal) (idx : IVec ⟨2, ![M, 1]⟩ w) (upd : (⟨1, ![M]⟩ : Shape).Idx → EReal) (i : Fin N) :
    Ideal.hostScatterAdd d x idx upd (ix1 i)
      = x (ix1 i) + ∑ p ∈ Finset.univ.filter (fun p : Fin M => (idx (ix2 p (0 : Fin 1))).toInt = (i.val : ℤ)), upd (ix1 p) := by
  unfold Ideal.hostScatterAdd
  congr 1
  refine Finset.sum_bij' (fun j _ => (j 0 : Fin M)) (fun p _ => ix1 p) ?_ ?_ ?_ ?_ ?_
  · intro j hj
    exact Finset.mem_filter.mpr ⟨Finset.mem_univ _, (vec_lands d huw hiw hsd hivd idx j (ix1 i)).mp (Finset.mem_filter.mp hj).2⟩
  · intro p hp
    exact Finset.mem_filter.mpr ⟨Finset.mem_univ _, (vec_lands d huw hiw hsd hivd idx (ix1 p) (ix1 i)).mpr (Finset.mem_filter.mp hp).2⟩
  · intro j _; exact (eq_ix1 j).symm
  · intro p _; rfl
  · intro j _; exact congrArg upd (eq_ix1 j)

/-- A scatter index lands at `i` exactly when, on every operand axis, start plus window coordinate is `i`'s. -/
theorem resultIdx?_eq_some_iff {s si u : Shape} {w : Nat} (d : ScatterDims s si u) (j : u.Idx) (idx : IVec si w) (i : s.Idx) :
    d.resultIdx? j idx = some i ↔ ∀ a, d.start j idx a + (d.window j a : ℤ) = ((i a).val : ℤ) := by
  unfold ScatterDims.resultIdx?
  split
  · rename_i h
    rw [Option.some.injEq]
    constructor
    · intro e a
      have e0 := congrArg Fin.val (congrFun e a)
      have ha := h a
      simp only at e0
      omega
    · intro e
      funext a
      refine Fin.ext ?_
      have ha := e a
      show (d.start j idx a + (d.window j a : ℤ)).toNat = (i a).val
      omega
  · rename_i h
    constructor
    · intro e; cases e
    · intro e
      exfalso; apply h
      intro a
      have ha := e a
      have hi := (i a).isLt
      constructor <;> omega

/-- Where an update of the row scatter lands: the row's stored word is the target row, the column is kept. -/
theorem rows_lands {N M C w : Nat} (d : ScatterDims ⟨2, ![N, C]⟩ ⟨2, ![M, 1]⟩ ⟨2, ![M, C]⟩)
    (huw : d.updateWindowDims = [1]) (hiw : d.insertedWindowDims = [0]) (hsd : d.scatterDimsToOperandDims = [0])
    (hivd : d.indexVectorDim = 1) (idx : IVec ⟨2, ![M, 1]⟩ w) (j : (⟨2, ![M, C]⟩ : Shape).Idx) (i : (⟨2, ![N, C]⟩ : Shape).Idx) :
    d.resultIdx? j idx = some i
      ↔ (idx (ix2 (j 0 : Fin M) (0 : Fin 1))).toInt = ((i 0).val : ℤ) ∧ (j 1).val = (i 1).val := by
  obtain ⟨uw, iw, sd, ivd, wf⟩ := d
  dsimp only at huw hiw hsd hivd
  subst huw hiw hsd hivd
  have hstart0 : ScatterDims.start (⟨[1], [0], [0], 1, wf⟩ : ScatterDims ⟨2, ![N, C]⟩ ⟨2, ![M, 1]⟩ ⟨2, ![M, C]⟩) j idx (0 : Fin 2)
      = (idx (ix2 (j 0 : Fin M) (0 : Fin 1))).toInt := by
    unfold ScatterDims.start
    rw [dif_pos (List.mem_singleton.mpr rfl)]
    congr 2
    funext b; refine Fin.ext ?_
    match b with
    | ⟨0, _⟩ => rfl
    | ⟨1, _⟩ => rfl
  have hstart1 : ScatterDims.start (⟨[1], [0], [0], 1, wf⟩ : ScatterDims ⟨2, ![N, C]⟩ ⟨2, ![M, 1]⟩ ⟨2, ![M, C]⟩) j idx (1 : Fin 2) = 0 := by
    unfold ScatterDims.start
    rw [dif_neg (by simp)]
  have hwin0 : ScatterDims.window (⟨[1], [0], [0], 1, wf⟩ : ScatterDims ⟨2, ![N, C]⟩ ⟨2, ![M, 1]⟩ ⟨2, ![M, C]⟩) j (0 : Fin 2) = 0 := by
    unfold ScatterDims.window
    rw [dif_neg (by simp [ScatterDims.sKept, Shape.kept])]
  have hwin1 : ScatterDims.window (⟨[1], [0], [0], 1, wf⟩ : ScatterDims ⟨2, ![N, C]⟩ ⟨2, ![M, 1]⟩ ⟨2, ![M, C]⟩) j (1 : Fin 2) = (j 1).val := by
    unfold ScatterDims.window
    rw [dif_pos (by simp [ScatterDims.sKept, Shape.kept])]
    rfl
  rw [resultIdx?_eq_some_iff]
  constructor
  · intro h
    have h0 := h 0
    have h1 := h 1
    rw [hstart0, hwin0] at h0
    rw [hstart1, hwin1] at h1
    exact ⟨by omega, by omega⟩
  · rintro ⟨h0, h1⟩
    exact Fin.forall_fin_two.mpr ⟨by rw [hstart0, hwin0]; omega, by rw [hstart1, hwin1]; omega⟩

/-- Rows scattered into a matrix: element `(i, f)` receives column `f` of the update rows whose target is `i`. -/
theorem scatterAdd_rows {N M C w : Nat} (d : ScatterDims ⟨2, ![N, C]⟩ ⟨2, ![M, 1]⟩ ⟨2, ![M, C]⟩)
    (huw : d.updateWindowDims = [1]) (hiw : d.insertedWindowDims = [0]) (hsd : d.scatterDimsToOperandDims = [0])
    (hivd : d.indexVectorDim = 1)
    (x : (⟨2, ![N, C]⟩ : Shape).Idx → EReal) (idx : IVec ⟨2, ![M, 1]⟩ w) (upd : (⟨2, ![M, C]⟩ : Shape).Idx → EReal)
    (i : Fin N) (f : Fin C) :
    Ideal.hostScatterAdd d x idx upd (ix2 i f)
      = x (ix2 i f) + ∑ p ∈ Finset.univ.filter (fun p : Fin M => (idx (ix2 p (0 : Fin 1))).toInt = (i.val : ℤ)), upd (ix2 p f) := by
  unfold Ideal.hostScatterAdd
  congr 1
  refine Finset.sum_bij' (fun j _ => (j 0 : Fin M)) (fun p _ => ix2 p f) ?_ ?_ ?_ ?_ ?_
  · intro j hj
    exact Finset.mem_filter.mpr ⟨Finset.mem_univ _, ((rows_lands d huw hiw hsd hivd idx j (ix2 i f)).mp (Finset.mem_filter.mp hj).2).1⟩
  · intro p hp
    exact Finset.mem_filter.mpr ⟨Finset.mem_univ _, (rows_lands d huw hiw hsd hivd idx (ix2 p f) (ix2 i f)).mpr ⟨(Finset.mem_filter.mp hp).2, rfl⟩⟩
  · intro j hj
    have h1 := ((rows_lands d huw hiw hsd hivd idx j (ix2 i f)).mp (Finset.mem_filter.mp hj).2).2
    refine (eq_ix2 j).trans ?_ |>.symm
    exact congrArg (ix2 (j 0)) (Fin.ext h1)
  · intro p _; rfl
  · intro j hj
    have h1 := ((rows_lands d huw hiw hsd hivd idx j (ix2 i f)).mp (Finset.mem_filter.mp hj).2).2
    exact congrArg upd ((eq_ix2 j).trans (congrArg (ix2 (j 0)) (Fin.ext h1)))

/-- Rows gathered from a matrix: result row `p` is the matrix's row numbered by position `p`'s index, read signed
    and clamped into `[0, N − 1]`. -/
theorem gather_rows {α : Type} {N M C w : Nat} (d : GatherDims ⟨2, ![N, C]⟩ ⟨2, ![M, 1]⟩ ⟨2, ![M, C]⟩)
    (hoff : d.offsetDims = [1]) (hcoll : d.collapsedSliceDims = [0]) (hob : d.operandBatchingDims = [])
    (hsim : d.startIndexMap = [0]) (hivd : d.indexVectorDim = 1) (hsl : d.sliceSizes = ![1, C])
    (x : (⟨2, ![N, C]⟩ : Shape).Idx → α) (idx : IVec ⟨2, ![M, 1]⟩ w) (p : Fin M) (f : Fin C) (hN : 0 < N) :
    Host.gather d x idx (ix2 p f) = x (ix2 (⟨min (idx (ix2 p (0 : Fin 1))).toInt.toNat (N - 1), by omega⟩ : Fin N) f) := by
  obtain ⟨od, cs, ob, sib, sim, ivd, ss, wf⟩ := d
  dsimp only at hoff hcoll hob hsim hivd hsl
  subst hoff hcoll hob hsim hivd hsl
  have h0 : (GatherDims.operandIdx (⟨[1], [0], [], sib, [0], 1, ![1, C], wf⟩ : GatherDims ⟨2, ![N, C]⟩ ⟨2, ![M, 1]⟩ ⟨2, ![M, C]⟩)
      (ix2 p f) idx (0 : Fin 2)).val = min (idx (ix2 p (0 : Fin 1))).toInt.toNat (N - 1) := by
    dsimp only [GatherDims.operandIdx]
    rw [GatherDims.batchCoord_eq_zero _ _ _ (by simp), GatherDims.offCoord_eq_zero _ _ _ (by rw [GatherDims.mem_sKept]; simp)]
    unfold GatherDims.start
    rw [dif_pos (List.mem_singleton.mpr rfl)]
    show min (idx _).toInt.toNat (N - 1) = _
    congr 3
    congr 1
    funext b; refine Fin.ext ?_
    match b with
    | ⟨0, _⟩ => rfl
    | ⟨1, _⟩ => rfl
  have h1 : (GatherDims.operandIdx (⟨[1], [0], [], sib, [0], 1, ![1, C], wf⟩ : GatherDims ⟨2, ![N, C]⟩ ⟨2, ![M, 1]⟩ ⟨2, ![M, C]⟩)
      (ix2 p f) idx (1 : Fin 2)).val = f.val := by
    dsimp only [GatherDims.operandIdx]
    rw [GatherDims.batchCoord_eq_zero _ _ _ (by simp)]
    unfold GatherDims.start
    rw [dif_neg (by simp)]
    unfold GatherDims.offCoord
    rw [dif_pos (by rw [GatherDims.mem_sKept]; simp)]
    simp only [Nat.zero_add]
    rfl
  unfold Host.gather
  congr 1
  funext a
  refine Fin.ext ?_
  revert a
  exact Fin.forall_fin_two.mpr ⟨h0, h1⟩

end Cert.LibScatter

end
-- ==== Proof.HostK.lean ====
/-
  The host operations between the two regions, read at an index: the degree count, its reciprocal root, the
  scaled gather and scatter-add that make the aggregated features, and the reshaped operands of the second region.

  The stretch is read in three steps. Its layout operations (a slice and a reshape of the edge table, a row set up as
  a column, a node's factor spread along its features) read one element of their operand. Its stages are then
  functions of the rows of sources and targets and of the first region's result, and each is read at an index over
  arbitrary rows: the degree is a count of edges plus one, its reciprocal root is the positive real one, an edge's
  message is its wrapped and clamped source's scaled features, and the sum at a node runs over the edges whose target
  word is the node. Last the valuations after each stretch are these functions of the launch contents, and the rows
  are the stored sources and targets.
-/
import proofs.«428440_j16372415332644_2_alg».proof.Proof.Gen.KernelIdeal.Regions
import proofs.«428440_j16372415332644_2_alg».proof.Proof.Spec
import proofs.«428440_j16372415332644_2_alg».proof.Proof.LibScatter
import Idealize.ShloMosaic.PureOps.Ideal.Laws
import Idealize.ShloMosaic.Lib.ValueIdx
import Idealize.ShloMosaic.Lib.StableHlo.Run
import Idealize.ShloMosaic.Lib.Pipeline.Value
import Mathlib.Logic.Function.Basic
import Mathlib.Data.Nat.Cast.Defs
import Mathlib.Data.Finset.Filter
import Mathlib.Algebra.BigOperators.Group.Finset.Basic
import Mathlib.Data.EReal.Basic

set_option maxRecDepth 16384

noncomputable section

namespace Cert.KernelIdeal.Hand

open Idealize.ShloMosaic Idealize.ShloMosaic.TcCoe Idealize.SL.Sem Idealize.ShloMosaic.ValueIdx Idealize.ShloMosaic.StableHlo
open Cert.KernelIdeal Cert.KernelIdeal.Gen

variable (m : (ℓ : Loc nD τ sig) → Buf (Elt Ideal) ℓ) (outs : Gen.Outs (F := Ideal)) (c : Dev nD)

/-! ## The layout operations of the stretch, read at an index -/

section Layout

/-- A row of words set up as a column reads, at a row, the row's word. -/
theorem col_apply {α : Type} (v : S3200000.Idx → α) (p : Fin 3200000) :
    broadcastInDim S3200000x1 ![0] bcast_S3200000_S3200000x1_0 v (ix2 p (0 : Fin 1)) = v (ix1 p) :=
  broadcastInDim_apply _ _ v (ix2 p (0 : Fin 1)) (ix1 p) (fun a => match a with | ⟨0, _⟩ => rfl)

/-- A node's factor spread along its row of features. -/
def spread (v : S100000.Idx → EReal) : S100000x32.Idx → EReal :=
  broadcastInDim S100000x32 ![0, 1] bcast_S100000x1_S100000x32_0_1 (broadcastInDim S100000x1 ![0] bcast_S100000_S100000x1_0 v)

/-- It reads the node's factor at every feature. -/
theorem spread_apply (v : S100000.Idx → EReal) (n : Fin 100000) (f : Fin 32) : spread v (ix2 n f) = v (ix1 n) := by
  unfold spread
  refine (broadcastInDim_apply _ _ _ (ix2 n f) (ix2 n (0 : Fin 1)) (fun a => match a with | ⟨0, _⟩ => rfl | ⟨1, _⟩ => rfl)).trans ?_
  exact broadcastInDim_apply _ _ v (ix2 n (0 : Fin 1)) (ix1 n) (fun a => match a with | ⟨0, _⟩ => rfl)

/-- The stored sources as one row of words. -/
def srcRow (e : S2x3200000.Idx → BitVec 32) : S3200000.Idx → BitVec 32 :=
  shapeCast S3200000 (extractStridedSlice S1x3200000 ![0, 0] e slices_S2x3200000_S1x3200000_0_0) shapeCasts_S1x3200000_S3200000

/-- The stored targets as one row of words. -/
def dstRow (e : S2x3200000.Idx → BitVec 32) : S3200000.Idx → BitVec 32 :=
  shapeCast S3200000 (extractStridedSlice S1x3200000 ![1, 0] e slices_S2x3200000_S1x3200000_1_0) shapeCasts_S1x3200000_S3200000

theorem srcRow_apply (e : S2x3200000.Idx → BitVec 32) (p : Fin 3200000) : srcRow e (ix1 p) = Cert.Spec.src e p := by
  unfold srcRow Cert.Spec.src
  refine (shapeCast_apply _ _ (ix1 p) (ix2 (0 : Fin 1) p)
    (by rw [Shape.rowMajor_val_two, Shape.rowMajor_val_one]
        show 0 * 3200000 + p.val = p.val
        omega)).trans ?_
  exact extractStridedSlice_apply _ _ _ (ix2 (0 : Fin 1) p) (ix2 (0 : Fin 2) p)
    (fun a => match a with
      | ⟨0, _⟩ => by show 0 = 0 + 0; rfl
      | ⟨1, _⟩ => by show p.val = 0 + p.val; omega)

theorem dstRow_apply (e : S2x3200000.Idx → BitVec 32) (p : Fin 3200000) : dstRow e (ix1 p) = Cert.Spec.dst e p := by
  unfold dstRow Cert.Spec.dst
  refine (shapeCast_apply _ _ (ix1 p) (ix2 (0 : Fin 1) p)
    (by rw [Shape.rowMajor_val_two, Shape.rowMajor_val_one]
        show 0 * 3200000 + p.val = p.val
        omega)).trans ?_
  exact extractStridedSlice_apply _ _ _ (ix2 (0 : Fin 1) p) (ix2 (1 : Fin 2) p)
    (fun a => match a with
      | ⟨0, _⟩ => by show 1 = 1 + 0; rfl
      | ⟨1, _⟩ => by show p.val = 0 + p.val; omega)

end Layout

/-! ## The scatter-adds and the gather of the stretch, their index table a column of words -/

section Tables

/-- The edges a column of words sends to a given row are those whose word is that row. -/
theorem filter_col (t : S3200000.Idx → BitVec 32) (z : ℤ) :
    (Finset.univ.filter fun p : Fin 3200000 =>
        ((broadcastInDim S3200000x1 ![0] bcast_S3200000_S3200000x1_0 t) (ix2 p (0 : Fin 1))).toInt = z)
      = Finset.univ.filter fun p : Fin 3200000 => (t (ix1 p)).toInt = z :=
  Finset.filter_congr (fun p _ => by rw [col_apply])

/-- A vector of updates added into a vector at the rows a column of words names. -/
theorem scatterVec_apply (x : S100000.Idx → EReal) (t : S3200000.Idx → BitVec 32) (upd : S3200000.Idx → EReal) (i : Fin 100000) :
    Host.scatterAdd (F := Ideal) (φ := .f32) scatter_S100000_S3200000x1_S3200000_n_0_0_1 x
        (broadcastInDim S3200000x1 ![0] bcast_S3200000_S3200000x1_0 t) upd (ix1 i)
      = x (ix1 i) + ∑ p ∈ Finset.univ.filter (fun p : Fin 3200000 => (t (ix1 p)).toInt = (i.val : ℤ)), upd (ix1 p) := by
  unfold Host.scatterAdd
  rw [Ideal.hostScatterAdd_def, Cert.LibScatter.scatterAdd_vec scatter_S100000_S3200000x1_S3200000_n_0_0_1 rfl rfl rfl rfl,
    filter_col]

/-- Rows of updates added into a matrix at the rows a column of words names. -/
theorem scatterRows_apply (x : S100000x32.Idx → EReal) (t : S3200000.Idx → BitVec 32) (upd : S3200000x32.Idx → EReal)
    (i : Fin 100000) (f : Fin 32) :
    Host.scatterAdd (F := Ideal) (φ := .f32) scatter_S100000x32_S3200000x1_S3200000x32_1_0_0_1 x
        (broadcastInDim S3200000x1 ![0] bcast_S3200000_S3200000x1_0 t) upd (ix2 i f)
      = x (ix2 i f) + ∑ p ∈ Finset.univ.filter (fun p : Fin 3200000 => (t (ix1 p)).toInt = (i.val : ℤ)), upd (ix2 p f) := by
  unfold Host.scatterAdd
  rw [Ideal.hostScatterAdd_def, Cert.LibScatter.scatterAdd_rows scatter_S100000x32_S3200000x1_S3200000x32_1_0_0_1 rfl rfl rfl rfl,
    filter_col]

/-- Rows of a matrix gathered at the rows a column of words names, each clamped into the matrix. -/
theorem gatherRows_apply (x : S100000x32.Idx → EReal) (s : S3200000.Idx → BitVec 32) (p : Fin 3200000) (f : Fin 32) :
    Host.gather gather_S100000x32_S3200000x1_S3200000x32_1_0_n_n_0_1_132 x
        (broadcastInDim S3200000x1 ![0] bcast_S3200000_S3200000x1_0 s) (ix2 p f)
      = x (ix2 (⟨min (s (ix1 p)).toInt.toNat 99999, by omega⟩ : Fin 100000) f) := by
  rw [Cert.LibScatter.gather_rows gather_S100000x32_S3200000x1_S3200000x32_1_0_n_n_0_1_132 rfl rfl rfl rfl rfl rfl x _ p f (by omega)]
  exact congrArg (fun k : Fin 100000 => x (ix2 k f))
    (Fin.ext (congrArg (fun w : BitVec 32 => min w.toInt.toNat 99999) (col_apply s p)))

end Tables

/-! ## The stages as functions of the rows of sources and targets and the first region's result -/

section Stages

/-- The degree: a one added at every edge's target, and one more for the self loop. -/
def degB (t : S3200000.Idx → BitVec 32) : S100000.Idx → EReal :=
  addf (F := Ideal) (φ := .f32)
    (Host.scatterAdd (F := Ideal) (φ := .f32) scatter_S100000_S3200000x1_S3200000_n_0_0_1
      (broadcastInDim S100000 ![] bcast_S_S100000 (constant (F := Ideal) S_ .f32 0x00000000#32))
      (broadcastInDim S3200000x1 ![0] bcast_S3200000_S3200000x1_0 t)
      (broadcastInDim S3200000 ![] bcast_S_S3200000 (constant (F := Ideal) S_ .f32 0x3F800000#32)))
    (broadcastInDim S100000 ![] bcast_S_S100000 (constant (F := Ideal) S_ .f32 0x3F800000#32))

/-- The degree at a node is the number of edges whose target word is the node, and one. -/
theorem degB_apply (t : S3200000.Idx → BitVec 32) (i : Fin 100000) :
    degB t (ix1 i)
      = ((((Finset.univ.filter fun p : Fin 3200000 => (t (ix1 p)).toInt = (i.val : ℤ)).card + 1 : ℕ) : ℝ) : EReal) := by
  unfold degB
  rw [addf_apply, scatterVec_apply]
  have h0 : (broadcastInDim S100000 ![] bcast_S_S100000 (constant (F := Ideal) S_ .f32 0x00000000#32)) (ix1 i) = (0 : EReal) :=
    Ideal.ofBits_zero_f32
  have h1 : (broadcastInDim S100000 ![] bcast_S_S100000 (constant (F := Ideal) S_ .f32 0x3F800000#32)) (ix1 i) = (1 : EReal) :=
    Cert.Spec.one_f32
  have h2 : ∀ p : Fin 3200000,
      (broadcastInDim S3200000 ![] bcast_S_S3200000 (constant (F := Ideal) S_ .f32 0x3F800000#32)) (ix1 p) = (1 : EReal) :=
    fun p => Cert.Spec.one_f32
  rw [h0, h1, zero_add, Finset.sum_congr rfl (fun p _ => h2 p), Cert.Spec.sum_one_eq_card, Nat.cast_add_one, EReal.coe_add,
    EReal.coe_one]

/-- The host's reciprocal root at an index is the ideal one of the element. -/
theorem rsqrt_apply (x : S100000.Idx → EReal) (i : S100000.Idx) :
    Host.rsqrt (F := Ideal) (φ := .f32) x i = Ideal.rsqrt (x i) := rfl

/-- The splat of the zero word reads that word's value everywhere. -/
theorem zeros_apply (i : S100000.Idx) :
    (broadcastInDim S100000 ![] bcast_S_S100000 (constant (F := Ideal) S_ .f32 0x00000000#32)) i
      = Ideal.ofBits .f32 0x00000000#32 := rfl

/-- The degree's reciprocal root where the degree is positive, zero elsewhere. -/
def dinvB (t : S3200000.Idx → BitVec 32) : S100000.Idx → EReal :=
  select
    (cmpf (F := Ideal) (φ := .f32) .ogt (degB t) (broadcastInDim S100000 ![] bcast_S_S100000 (constant (F := Ideal) S_ .f32 0x00000000#32)))
    (Host.rsqrt (F := Ideal) (φ := .f32) (degB t))
    (broadcastInDim S100000 ![] bcast_S_S100000 (constant (F := Ideal) S_ .f32 0x00000000#32))

/-- The degree is positive, so the root selected is the real one. -/
theorem dinvB_apply (t : S3200000.Idx → BitVec 32) (i : Fin 100000) :
    dinvB t (ix1 i)
      = (((Real.sqrt (((Finset.univ.filter fun p : Fin 3200000 => (t (ix1 p)).toInt = (i.val : ℤ)).card : ℝ) + 1))⁻¹ : ℝ) : EReal) := by
  unfold dinvB
  rw [select_apply, cmpf_apply]
  rw [zeros_apply, rsqrt_apply, degB_apply, Cert.Spec.select_rsqrt _ (Nat.succ_pos _), Nat.cast_add_one]

/-- The sources with a negative one counted from the end. -/
def wrapB (s : S3200000.Idx → BitVec 32) : S3200000.Idx → BitVec 32 :=
  select
    (cmpi .slt s (broadcastInDim S3200000 ![] bcast_S_S3200000 (constantI S_ 32 0#32)))
    (addi s (broadcastInDim S3200000 ![] bcast_S_S3200000 (constantI S_ 32 100000#32)))
    s

theorem wrapB_apply (s : S3200000.Idx → BitVec 32) (p : Fin 3200000) :
    wrapB s (ix1 p) = Scalar.select (IntOp.cmpi .slt (s (ix1 p)) 0#32) (IntOp.addi (s (ix1 p)) 100000#32) (s (ix1 p)) := rfl

/-- The aggregated features from the nodes' factors, the rows of sources and targets, and the features:
    every edge carries its source's features scaled by the source's factor, the messages are summed at their targets and
    scaled by the target's factor, and the node's own features enter with the factor squared. -/
def aggB (d : S100000.Idx → EReal) (s t : S3200000.Idx → BitVec 32) (h : S100000x32.Idx → EReal) : S100000x32.Idx → EReal :=
  addf (F := Ideal) (φ := .f32)
    (mulf (F := Ideal) (φ := .f32) (spread d)
      (Host.scatterAdd (F := Ideal) (φ := .f32) scatter_S100000x32_S3200000x1_S3200000x32_1_0_0_1
        (broadcastInDim S100000x32 ![] bcast_S_S100000x32 (constant (F := Ideal) S_ .f32 0x00000000#32))
        (broadcastInDim S3200000x1 ![0] bcast_S3200000_S3200000x1_0 t)
        (Host.gather gather_S100000x32_S3200000x1_S3200000x32_1_0_n_n_0_1_132
          (mulf (F := Ideal) (φ := .f32) h (spread d))
          (broadcastInDim S3200000x1 ![0] bcast_S3200000_S3200000x1_0 (wrapB s)))))
    (mulf (F := Ideal) (φ := .f32) (spread (mulf (F := Ideal) (φ := .f32) d d)) h)

theorem aggB_apply (d : S100000.Idx → EReal) (s t : S3200000.Idx → BitVec 32) (h : S100000x32.Idx → EReal)
    (n : Fin 100000) (f : Fin 32) :
    aggB d s t h (ix2 n f)
      = d (ix1 n) * (∑ p ∈ Finset.univ.filter (fun p : Fin 3200000 => (t (ix1 p)).toInt = (n.val : ℤ)),
            h (ix2 (Cert.Spec.node (s (ix1 p))) f) * d (ix1 (Cert.Spec.node (s (ix1 p)))))
        + (d (ix1 n) * d (ix1 n)) * h (ix2 n f) := by
  unfold aggB
  rw [addf_apply, mulf_apply, mulf_apply, spread_apply, spread_apply, mulf_apply, scatterRows_apply]
  have h0 : (broadcastInDim S100000x32 ![] bcast_S_S100000x32 (constant (F := Ideal) S_ .f32 0x00000000#32)) (ix2 n f) = (0 : EReal) :=
    Ideal.ofBits_zero_f32
  have hs : ∀ p : Fin 3200000,
      Host.gather gather_S100000x32_S3200000x1_S3200000x32_1_0_n_n_0_1_132 (mulf (F := Ideal) (φ := .f32) h (spread d))
          (broadcastInDim S3200000x1 ![0] bcast_S3200000_S3200000x1_0 (wrapB s)) (ix2 p f)
        = h (ix2 (Cert.Spec.node (s (ix1 p))) f) * d (ix1 (Cert.Spec.node (s (ix1 p)))) := fun p => by
    rw [gatherRows_apply, mulf_apply, spread_apply]
    rfl
  rw [h0, zero_add, Finset.sum_congr rfl (fun p _ => hs p)]

end Stages

/-! ## The stretches read off the valuations -/

section Reading

/-- After the first stretch: the row of sources. -/
theorem v2_V2 :
    (Gen.V2 m outs c main_v2 : S3200000.Idx → BitVec 32) = srcRow (Gen.V1 m outs c main_arg1) := by
  show StableHlo.after hostOps1 (Gen.V1 m outs c) (Proc.devRef .tc main_v2) = _
  generalize Gen.V1 m outs c = W
  simp only [hostOps1]
  after_results
  rfl

/-- After the first stretch: the row of targets. -/
theorem v4_V2 :
    (Gen.V2 m outs c main_v4 : S3200000.Idx → BitVec 32) = dstRow (Gen.V1 m outs c main_arg1) := by
  show StableHlo.after hostOps1 (Gen.V1 m outs c) (Proc.devRef .tc main_v4) = _
  generalize Gen.V1 m outs c = W
  simp only [hostOps1]
  after_results
  rfl

/-- After the first stretch: the degree compared with zero. -/
theorem v12_V2 :
    (Gen.V2 m outs c main_v12 : S100000.Idx → BitVec 1)
      = cmpf (F := Ideal) (φ := .f32) .ogt (degB (dstRow (Gen.V1 m outs c main_arg1)))
          (broadcastInDim S100000 ![] bcast_S_S100000 (constant (F := Ideal) S_ .f32 0x00000000#32)) := by
  show StableHlo.after hostOps1 (Gen.V1 m outs c) (Proc.devRef .tc main_v12) = _
  generalize Gen.V1 m outs c = W
  simp only [hostOps1]
  after_results
  rfl

/-- After the first stretch: the degree's reciprocal root. -/
theorem v13_V2 :
    (Gen.V2 m outs c main_v13 : S100000.Idx → EReal)
      = Host.rsqrt (F := Ideal) (φ := .f32) (degB (dstRow (Gen.V1 m outs c main_arg1))) := by
  show StableHlo.after hostOps1 (Gen.V1 m outs c) (Proc.devRef .tc main_v13) = _
  generalize Gen.V1 m outs c = W
  simp only [hostOps1]
  after_results
  rfl

/-- After the first stretch: the zero the selection falls back to. -/
theorem cst3_V2 :
    (Gen.V2 m outs c main_cst_3 : S_.Idx → EReal) = constant (F := Ideal) S_ .f32 0x00000000#32 := by
  show StableHlo.after hostOps1 (Gen.V1 m outs c) (Proc.devRef .tc main_cst_3) = _
  generalize Gen.V1 m outs c = W
  simp only [hostOps1]
  after_results

/-- The called selection, over what the first stretch left. -/
theorem v14_V3 :
    (Gen.V3 m outs c main_v14 : S100000.Idx → EReal)
      = select (Gen.V2 m outs c main_v12 : S100000.Idx → BitVec 1) (Gen.V2 m outs c main_v13 : S100000.Idx → EReal)
          (broadcastInDim S100000 ![] bcast_S_S100000 (Gen.V2 m outs c main_cst_3 : S_.Idx → EReal)) := by
  show StableHlo.after hostOps1_1 (Gen.V2 m outs c) (Proc.devRef .tc main_v14) = _
  generalize Gen.V2 m outs c = W
  simp only [hostOps1_1]
  after_results
  rfl

set_option maxHeartbeats 4000000 in
/-- The third stretch's result, over any contents the first two stretches left. -/
theorem v35_V4 (W : Valuation τ sig (Elt Ideal)) :
    (StableHlo.after hostOps1_2 W (Proc.devRef .tc main_v35) : S100000x32.Idx → EReal)
      = aggB (W (Proc.devRef .tc main_v14) : S100000.Idx → EReal) (W (Proc.devRef .tc main_v2) : S3200000.Idx → BitVec 32)
          (W (Proc.devRef .tc main_v4) : S3200000.Idx → BitVec 32) (W (Proc.devRef .tc main_v0) : S100000x32.Idx → EReal) := by
  simp only [hostOps1_2]
  after_results_simp
  rfl

end Reading

/-! ## The aggregated features -/

section Aggregate

/-- The targets the program scatters to are the stored ones. -/
theorem filter_dst (e : S2x3200000.Idx → BitVec 32) (z : ℤ) :
    (Finset.univ.filter fun p : Fin 3200000 => (dstRow e (ix1 p)).toInt = z)
      = Finset.univ.filter fun p : Fin 3200000 => (Cert.Spec.dst e p).toInt = z :=
  Finset.filter_congr (fun p _ => by rw [dstRow_apply])

/-- The factor the program computes at a node is the reciprocal root of its degree. -/
theorem dinv_apply (e : S2x3200000.Idx → BitVec 32) (i : Fin 100000) : dinvB (dstRow e) (ix1 i) = Cert.Spec.dinv e i := by
  unfold Cert.Spec.dinv Cert.Spec.cnt
  rw [dinvB_apply, filter_dst]

/-- The stretch's result over the stored edges is the kernel's arrangement of the normalised sum. -/
theorem agg_apply (e : S2x3200000.Idx → BitVec 32) (h : S100000x32.Idx → EReal) (n : Fin 100000) (f : Fin 32) :
    aggB (dinvB (dstRow e)) (srcRow e) (dstRow e) h (ix2 n f) = Cert.Spec.aggK (fun n f => h (ix2 n f)) e n f := by
  have hs : ∀ p : Fin 3200000,
      h (ix2 (Cert.Spec.node (srcRow e (ix1 p))) f) * dinvB (dstRow e) (ix1 (Cert.Spec.node (srcRow e (ix1 p))))
        = h (ix2 (Cert.Spec.node (Cert.Spec.src e p)) f) * Cert.Spec.dinv e (Cert.Spec.node (Cert.Spec.src e p)) := fun p => by
    rw [srcRow_apply, dinv_apply]
  unfold Cert.Spec.aggK
  rw [aggB_apply, filter_dst, dinv_apply, Finset.sum_congr rfl (fun p _ => hs p)]

end Aggregate

/-- The aggregated features the second region is handed, at node n and feature f: the kernel's arrangement of
    the normalised sum over the incoming edges and the self loop, of the first region's result. -/
theorem v35_eq (n : Fin 100000) (f : Fin 32) :
    (Gen.V4 m outs c main_v35 : S100000x32.Idx → EReal) (ix2 n f)
      = Cert.Spec.aggK (fun n f => (outs 1 main_v0 c : S100000x32.Idx → EReal) (ix2 n f))
          (m ((c.tc : Thread nD τ).loc main_arg1)) n f := by
  have e1 : (Gen.V1 m outs c main_arg1 : S2x3200000.Idx → BitVec 32) = m ((c.tc : Thread nD τ).loc main_arg1) :=
    (V1_of m outs c main_arg1 (by decide)).trans rfl
  have e0 : (Gen.V1 m outs c main_v0 : S100000x32.Idx → EReal) = outs 1 main_v0 c := Function.update_self _ _ _
  have a2 : (Gen.V3 m outs c main_v2 : S3200000.Idx → BitVec 32) = srcRow (Gen.V1 m outs c main_arg1) :=
    (V3_of m outs c main_v2 (by decide)).trans (v2_V2 m outs c)
  have a4 : (Gen.V3 m outs c main_v4 : S3200000.Idx → BitVec 32) = dstRow (Gen.V1 m outs c main_arg1) :=
    (V3_of m outs c main_v4 (by decide)).trans (v4_V2 m outs c)
  have a0 : (Gen.V3 m outs c main_v0 : S100000x32.Idx → EReal) = outs 1 main_v0 c :=
    (V3_of m outs c main_v0 (by decide)).trans ((V2_of m outs c main_v0 (by decide)).trans e0)
  have a14 : (Gen.V3 m outs c main_v14 : S100000.Idx → EReal) = dinvB (dstRow (Gen.V1 m outs c main_arg1)) := by
    unfold dinvB
    rw [v14_V3 m outs c, v12_V2 m outs c, v13_V2 m outs c, cst3_V2 m outs c]
  refine (congrFun (v35_V4 (Gen.V3 m outs c)) (ix2 n f)).trans ?_
  rw [a14, a2, a4, a0, e1]
  exact agg_apply _ _ n f

/-! ## The second region's reshaped operands -/

theorem v36_read :
    (Gen.V4 m outs c main_v36 : S100000x1.Idx → BitVec 32)
      = broadcastInDim S100000x1 ![0] bcast_S100000_S100000x1_0 (m ((c.tc : Thread nD τ).loc main_arg2) : S100000.Idx → BitVec 32) := by
  show StableHlo.after hostOps1_2 (StableHlo.after hostOps1_1 (StableHlo.after hostOps1 _)) (Proc.devRef .tc main_v36) = _
  simp only [hostOps1, hostOps1_1, hostOps1_2]
  after_results
  rfl

theorem v37_read :
    (Gen.V4 m outs c main_v37 : S1x32.Idx → EReal)
      = shapeCast S1x32 (m ((c.tc : Thread nD τ).loc main_arg4) : S32.Idx → EReal) shapeCasts_S32_S1x32 := by
  show StableHlo.after hostOps1_2 (StableHlo.after hostOps1_1 (StableHlo.after hostOps1 _)) (Proc.devRef .tc main_v37) = _
  simp only [hostOps1, hostOps1_1, hostOps1_2]
  after_results
  rfl

theorem v39_read :
    (Gen.V4 m outs c main_v39 : S1x64.Idx → BitVec 32) = shapeCast S1x64 (iotaInDim S64 32 0) shapeCasts_S64_S1x64 := by
  show StableHlo.after hostOps1_2 (StableHlo.after hostOps1_1 (StableHlo.after hostOps1 _)) (Proc.devRef .tc main_v39) = _
  simp only [hostOps1, hostOps1_1, hostOps1_2]
  after_results
  rfl

theorem v40_read :
    (Gen.V4 m outs c main_v40 : S1x1.Idx → EReal)
      = shapeCast S1x1 (m ((c.tc : Thread nD τ).loc main_arg6) : S1.Idx → EReal) shapeCasts_S1_S1x1 := by
  show StableHlo.after hostOps1_2 (StableHlo.after hostOps1_1 (StableHlo.after hostOps1 _)) (Proc.devRef .tc main_v40) = _
  simp only [hostOps1, hostOps1_1, hostOps1_2]
  after_results
  rfl

theorem v36_eq (n : Fin 100000) :
    (Gen.V4 m outs c main_v36 : S100000x1.Idx → BitVec 32) (ix2 n (0 : Fin 1))
      = (m ((c.tc : Thread nD τ).loc main_arg2) : S100000.Idx → BitVec 32) (ix1 n) := by
  refine (congrFun (v36_read m outs c) (ix2 n (0 : Fin 1))).trans ?_
  exact broadcastInDim_apply _ _ _ (ix2 n (0 : Fin 1)) (ix1 n) (fun a => match a with | ⟨0, _⟩ => rfl)

theorem v37_eq (f : Fin 32) :
    (Gen.V4 m outs c main_v37 : S1x32.Idx → EReal) (ix2 (0 : Fin 1) f)
      = (m ((c.tc : Thread nD τ).loc main_arg4) : S32.Idx → EReal) (ix1 f) := by
  refine (congrFun (v37_read m outs c) (ix2 (0 : Fin 1) f)).trans ?_
  exact shapeCast_apply _ _ (ix2 (0 : Fin 1) f) (ix1 f)
    (by rw [Shape.rowMajor_val_two, Shape.rowMajor_val_one]
        show f.val = 0 * 32 + f.val
        omega)

theorem v39_eq (g : Fin 64) :
    (Gen.V4 m outs c main_v39 : S1x64.Idx → BitVec 32) (ix2 (0 : Fin 1) g) = BitVec.ofNat 32 g.val := by
  refine (congrFun (v39_read m outs c) (ix2 (0 : Fin 1) g)).trans ?_
  refine (shapeCast_apply _ _ (ix2 (0 : Fin 1) g) (ix1 g)
    (by rw [Shape.rowMajor_val_two, Shape.rowMajor_val_one]
        show g.val = 0 * 64 + g.val
        omega)).trans ?_
  rfl

theorem v40_eq :
    (Gen.V4 m outs c main_v40 : S1x1.Idx → EReal) (ix2 (0 : Fin 1) (0 : Fin 1))
      = (m ((c.tc : Thread nD τ).loc main_arg6) : S1.Idx → EReal) (ix1 (0 : Fin 1)) := by
  refine (congrFun (v40_read m outs c) (ix2 (0 : Fin 1) (0 : Fin 1))).trans ?_
  exact shapeCast_apply _ _ (ix2 (0 : Fin 1) (0 : Fin 1)) (ix1 (0 : Fin 1))
    (by rw [Shape.rowMajor_val_two, Shape.rowMajor_val_one]
        rfl)

theorem v4_arg5 : Gen.V4 m outs c main_arg5 = m ((c.tc : Thread nD τ).loc main_arg5) :=
  (V4_of m outs c main_arg5 (by decide)).trans <| (V3_of m outs c main_arg5 (by decide)).trans <|
    (V2_of m outs c main_arg5 (by decide)).trans <| (V1_of m outs c main_arg5 (by decide)).trans rfl

end Cert.KernelIdeal.Hand

end
-- ==== Proof.RefAgg.lean ====
/-
  The reference program's aggregation stage, read at a node and a feature: one sum over the edge list with a self
  loop appended per node, each message scaled by the reciprocal roots of both ends' degrees.

  The long list (stored edges, then one self loop per node) is read position by position; the degree is the number
  of positions whose target is the node, positive because of the self loop, so the selected reciprocal root is the
  real one; each gather reads its table at the wrapped and clamped word, which is the node the word names; the final
  scatter adds, at node `n` and feature `f`, the messages of exactly the positions whose target is `n`.
-/
import proofs.«428440_j16372415332644_2_alg».proof.Proof.RefRead
import proofs.«428440_j16372415332644_2_alg».proof.Proof.Spec
import proofs.«428440_j16372415332644_2_alg».proof.Proof.LibScatter
import Idealize.ShloMosaic.PureOps.Ideal.Laws
import Idealize.ShloMosaic.Lib.ValueIdx
import Idealize.ShloMosaic.Lib.Pipeline.Value

set_option maxRecDepth 16384

noncomputable section

namespace Cert.ReferenceIdeal.Hand

open Idealize.ShloMosaic Idealize.ShloMosaic.TcCoe Idealize.SL.Sem Idealize.ShloMosaic.ValueIdx
open Cert.ReferenceIdeal Cert.ReferenceIdeal.Gen

/-- At the ideal values the host's accumulating scatter is the exact sum. -/
theorem scatterAdd_ideal {s si u : Shape} {φ : FTy} {w : Nat} (d : ScatterDims s si u) (x : FVec Ideal s φ) (idx : IVec si w)
    (upd : FVec Ideal u φ) : Host.scatterAdd d x idx upd = Ideal.hostScatterAdd d x idx upd := rfl

/-- The long list at position `q`: a stored word while `q` is an edge's position, the node's own number after. -/
theorem concat_edges_iota (y : S3200000.Idx → BitVec 32) (q : Fin 3300000) :
    concatenate S3300000 0 [⟨S3200000, y⟩, ⟨S100000, iotaInDim S100000 32 0⟩] concatenates_S3200000_S100000_S3300000_d0 (ix1 q)
      = if hq : q.val < 3200000 then y (ix1 (⟨q.val, hq⟩ : Fin 3200000)) else BitVec.ofNat 32 (q.val - 3200000) := by
  by_cases hq : q.val < 3200000
  · rw [dif_pos hq]
    exact concatenate_pair_apply_left (0 : Fin 1) y (iotaInDim S100000 32 0) concatenates_S3200000_S100000_S3300000_d0 (ix1 q) rfl
      (ix1 (⟨q.val, hq⟩ : Fin 3200000)) (fun b => by match b with | ⟨0, _⟩ => rfl)
  · rw [dif_neg hq]
    have hq' : q.val - 3200000 < 100000 := by have := q.isLt; omega
    exact concatenate_pair_apply_right (0 : Fin 1) y (iotaInDim S100000 32 0) concatenates_S3200000_S100000_S3300000_d0 (ix1 q) rfl rfl
      (ix1 (⟨q.val - 3200000, hq'⟩ : Fin 100000)) (fun b hb => absurd (Fin.ext (Nat.lt_one_iff.mp b.isLt)) hb)
      (by show q.val - 3200000 + 3200000 = q.val; omega)

/-- The long list of sources at position `q`. -/
theorem v3_apply (x1 : (⟨S2x3200000, .i32⟩ : BufTy).Contents (Elt Ideal)) (q : Fin 3300000) :
    Cert.ReferenceIdeal.Read.val_main_v3 (F := Ideal) x1 (ix1 q) = Cert.Spec.srcC x1 q := by
  unfold Cert.ReferenceIdeal.Read.val_main_v3 Cert.Spec.srcC
  refine (concat_edges_iota _ q).trans ?_
  by_cases hq : q.val < 3200000
  · rw [dif_pos hq, dif_pos hq, Cert.ReferenceIdeal.Read.val_main_v2_apply, Cert.ReferenceIdeal.Read.val_main_v1_apply]
    unfold Cert.Spec.src
    congr 1
    funext a; refine Fin.ext ?_
    match a with
    | ⟨0, _⟩ => rfl
    | ⟨1, _⟩ => show q.val % 3200000 = q.val; omega
  · rw [dif_neg hq, dif_neg hq]

/-- The long list of targets at position `q`. -/
theorem v6_apply (x1 : (⟨S2x3200000, .i32⟩ : BufTy).Contents (Elt Ideal)) (q : Fin 3300000) :
    Cert.ReferenceIdeal.Read.val_main_v6 (F := Ideal) x1 (ix1 q) = Cert.Spec.dstC x1 q := by
  unfold Cert.ReferenceIdeal.Read.val_main_v6 Cert.Spec.dstC
  refine (concat_edges_iota _ q).trans ?_
  by_cases hq : q.val < 3200000
  · rw [dif_pos hq, dif_pos hq, Cert.ReferenceIdeal.Read.val_main_v5_apply, Cert.ReferenceIdeal.Read.val_main_v4_apply]
    unfold Cert.Spec.dst
    congr 1
    funext a; refine Fin.ext ?_
    match a with
    | ⟨0, _⟩ => rfl
    | ⟨1, _⟩ => show q.val % 3200000 = q.val; omega
  · rw [dif_neg hq, dif_neg hq]

/-- The rank-1 gather at row `q`: the operand at the stored word of row `q`, read signed and clamped into the rows. -/
theorem gath1_apply {α : Type} (x : S100000.Idx → α) (idx : IVec S3300000x1 32) (q : Fin 3300000) :
    Host.gather gather_S100000_S3300000x1_S3300000_n_0_n_n_0_1_1 x idx (ix1 q)
      = x (ix1 (⟨min (idx (ix2 q (0 : Fin 1))).toInt.toNat 99999, by omega⟩ : Fin 100000)) := by
  unfold Host.gather
  congr 1
  funext a
  match a with
  | ⟨0, _⟩ =>
    refine Fin.ext ?_
    show gather_S100000_S3300000x1_S3300000_n_0_n_n_0_1_1.start (ix1 q) idx (0 : Fin 1)
        + gather_S100000_S3300000x1_S3300000_n_0_n_n_0_1_1.batchCoord (ix1 q) (0 : Fin 1)
        + gather_S100000_S3300000x1_S3300000_n_0_n_n_0_1_1.offCoord (ix1 q) (0 : Fin 1) = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 1) ∈ gather_S100000_S3300000x1_S3300000_n_0_n_n_0_1_1.startIndexMap from List.mem_singleton.mpr rfl)]
    have hsi : gather_S100000_S3300000x1_S3300000_n_0_n_n_0_1_1.siIdx (ix1 q) ⟨List.idxOf (0 : Fin 1) gather_S100000_S3300000x1_S3300000_n_0_n_n_0_1_1.startIndexMap,
        List.idxOf_lt_length_iff.2 (List.mem_singleton.mpr rfl)⟩ = ix2 q (0 : Fin 1) := by
      funext b; refine Fin.ext ?_
      match b with
      | ⟨0, _⟩ => rfl
      | ⟨1, _⟩ => rfl
    rw [hsi]
    rfl

/-- A small natural number, stored as a word and read signed, is itself. -/
theorem toInt_ofNat_small (k : ℕ) (hk : k < 100000) : (BitVec.ofNat 32 k).toInt = (k : ℤ) := by
  rw [BitVec.toInt_eq_toNat_cond, BitVec.toNat_ofNat]
  have h : k % 2 ^ 32 = k := Nat.mod_eq_of_lt (by omega)
  rw [h]
  split <;> omega

/-- A column index table's row `q` is the vector's position `q`. -/
theorem col_idx (q : Fin 3300000) : Cert.ReferenceIdeal.Read.idx_main_v9 (ix2 q (0 : Fin 1)) = ix1 q := by
  funext a
  match a with
  | ⟨0, _⟩ => rfl

/-- The targets' column at row `q` (the rank-1 scatter's index table). -/
theorem v9_col (x1 : (⟨S2x3200000, .i32⟩ : BufTy).Contents (Elt Ideal)) (q : Fin 3300000) :
    Cert.ReferenceIdeal.Read.val_main_v9 (F := Ideal) x1 (ix2 q (0 : Fin 1)) = Cert.Spec.dstC x1 q := by
  rw [Cert.ReferenceIdeal.Read.val_main_v9_apply, col_idx, v6_apply]

/-- The targets' column at row `q` (the rank-2 scatter's index table). -/
theorem v42_col (x1 : (⟨S2x3200000, .i32⟩ : BufTy).Contents (Elt Ideal)) (q : Fin 3300000) :
    Cert.ReferenceIdeal.Read.val_main_v42 (F := Ideal) x1 (ix2 q (0 : Fin 1)) = Cert.Spec.dstC x1 q := by
  rw [Cert.ReferenceIdeal.Read.val_main_v42_apply]
  exact (congrArg _ (col_idx q)).trans (v6_apply x1 q)

/-- The degree: the number of positions of the long list whose target is node `i`. -/
theorem v10_apply (x1 : (⟨S2x3200000, .i32⟩ : BufTy).Contents (Elt Ideal)) (i : Fin 100000) :
    (Cert.ReferenceIdeal.Read.val_main_v10 (F := Ideal) x1 : S100000.Idx → EReal) (ix1 i) = ((Cert.Spec.cntC x1 i : ℝ) : EReal) := by
  unfold Cert.ReferenceIdeal.Read.val_main_v10
  refine (congrFun (scatterAdd_ideal scatter_S100000_S3300000x1_S3300000_n_0_0_1 (Cert.ReferenceIdeal.Read.val_main_v8 (F := Ideal))
    (Cert.ReferenceIdeal.Read.val_main_v9 (F := Ideal) x1) (Cert.ReferenceIdeal.Read.val_main_v7 (F := Ideal))) (ix1 i)).trans ?_
  refine (Cert.LibScatter.scatterAdd_vec scatter_S100000_S3300000x1_S3300000_n_0_0_1 rfl rfl rfl rfl _ _ _ i).trans ?_
  have h8 : (Cert.ReferenceIdeal.Read.val_main_v8 (F := Ideal) : S100000.Idx → EReal) (ix1 i) = 0 := by
    rw [Cert.ReferenceIdeal.Read.val_main_v8_apply, Cert.ReferenceIdeal.Read.val_main_cst_0_apply, Ideal.ofBits_def, Ideal.ofBits_zero_f32]
  have hf : (Finset.univ.filter fun p : Fin 3300000 => (Cert.ReferenceIdeal.Read.val_main_v9 (F := Ideal) x1 (ix2 p (0 : Fin 1))).toInt = (i.val : ℤ))
      = Finset.univ.filter fun q : Fin 3300000 => (Cert.Spec.dstC x1 q).toInt = (i.val : ℤ) :=
    Finset.filter_congr fun p _ => by rw [v9_col]
  have h7 : ∀ p : Fin 3300000, (Cert.ReferenceIdeal.Read.val_main_v7 (F := Ideal) : S3300000.Idx → EReal) (ix1 p) = 1 := fun p => by
    rw [Cert.ReferenceIdeal.Read.val_main_v7_apply, Cert.ReferenceIdeal.Read.val_main_cst_apply, Ideal.ofBits_def, Cert.Spec.one_f32]
  rw [h8, zero_add, hf, Finset.sum_congr rfl fun p _ => h7 p, Cert.Spec.sum_one_eq_card, Cert.Spec.cntC]

/-- Every node has its own self loop in the long list, so its degree there is positive. -/
theorem cntC_pos (e : (Cert.Spec.Sh2 2 3200000).Idx → BitVec 32) (i : Fin 100000) : 0 < Cert.Spec.cntC e i := by
  unfold Cert.Spec.cntC
  refine Finset.card_pos.mpr ⟨(⟨3200000 + i.val, by have := i.isLt; omega⟩ : Fin 3300000), Finset.mem_filter.mpr ⟨Finset.mem_univ _, ?_⟩⟩
  unfold Cert.Spec.dstC
  rw [dif_neg (by show ¬ (3200000 + i.val < 3200000); omega)]
  show (BitVec.ofNat 32 (3200000 + i.val - 3200000)).toInt = (i.val : ℤ)
  rw [Nat.add_sub_cancel_left]
  exact toInt_ofNat_small i.val i.isLt

/-- The reciprocal root of the degree. -/
theorem v14_apply (x1 : (⟨S2x3200000, .i32⟩ : BufTy).Contents (Elt Ideal)) (i : Fin 100000) :
    (Cert.ReferenceIdeal.Read.val_main_v14 (F := Ideal) x1 : S100000.Idx → EReal) (ix1 i) = Cert.Spec.dinvC x1 i := by
  rw [Cert.ReferenceIdeal.Read.val_main_v14_apply, Cert.ReferenceIdeal.Read.val_main_v12_apply, Cert.ReferenceIdeal.Read.val_main_v13_apply,
    Cert.ReferenceIdeal.Read.val_main_v11_apply, Cert.ReferenceIdeal.Read.val_main_cst_1_apply,
    Cert.ReferenceIdeal.Read.val_main_call0_v1_apply, Cert.ReferenceIdeal.Read.val_main_call0_v0_apply,
    Cert.ReferenceIdeal.Read.val_main_cst_2_apply, v10_apply]
  exact Cert.Spec.select_rsqrt (Cert.Spec.cntC x1 i) (cntC_pos x1 i)

/-- A wrapped source word's column at row `q` (the first gather's index table). -/
theorem v20_col (x1 : (⟨S2x3200000, .i32⟩ : BufTy).Contents (Elt Ideal)) (q : Fin 3300000) :
    Cert.ReferenceIdeal.Read.val_main_v20 (F := Ideal) x1 (ix2 q (0 : Fin 1))
      = Scalar.select (IntOp.cmpi .slt (Cert.Spec.srcC x1 q) 0#32) (IntOp.addi (Cert.Spec.srcC x1 q) 100000#32) (Cert.Spec.srcC x1 q) := by
  rw [Cert.ReferenceIdeal.Read.val_main_v20_apply]
  refine (congrArg _ (col_idx q)).trans ?_
  rw [Cert.ReferenceIdeal.Read.val_main_v19_apply, Cert.ReferenceIdeal.Read.val_main_v16_apply, Cert.ReferenceIdeal.Read.val_main_v18_apply,
    Cert.ReferenceIdeal.Read.val_main_v15_apply, Cert.ReferenceIdeal.Read.val_main_c_apply,
    Cert.ReferenceIdeal.Read.val_main_v17_apply, Cert.ReferenceIdeal.Read.val_main_c_3_apply, v3_apply]

/-- A wrapped target word's column at row `q` (the second gather's index table). -/
theorem v27_col (x1 : (⟨S2x3200000, .i32⟩ : BufTy).Contents (Elt Ideal)) (q : Fin 3300000) :
    Cert.ReferenceIdeal.Read.val_main_v27 (F := Ideal) x1 (ix2 q (0 : Fin 1))
      = Scalar.select (IntOp.cmpi .slt (Cert.Spec.dstC x1 q) 0#32) (IntOp.addi (Cert.Spec.dstC x1 q) 100000#32) (Cert.Spec.dstC x1 q) := by
  rw [Cert.ReferenceIdeal.Read.val_main_v27_apply]
  refine (congrArg _ (col_idx q)).trans ?_
  rw [Cert.ReferenceIdeal.Read.val_main_v26_apply, Cert.ReferenceIdeal.Read.val_main_v23_apply, Cert.ReferenceIdeal.Read.val_main_v25_apply,
    Cert.ReferenceIdeal.Read.val_main_v22_apply, Cert.ReferenceIdeal.Read.val_main_c_4_apply,
    Cert.ReferenceIdeal.Read.val_main_v24_apply, Cert.ReferenceIdeal.Read.val_main_c_5_apply, v6_apply]

/-- A wrapped source word's column at row `q` (the third gather's index table). -/
theorem v36_col (x1 : (⟨S2x3200000, .i32⟩ : BufTy).Contents (Elt Ideal)) (q : Fin 3300000) :
    Cert.ReferenceIdeal.Read.val_main_v36 (F := Ideal) x1 (ix2 q (0 : Fin 1))
      = Scalar.select (IntOp.cmpi .slt (Cert.Spec.srcC x1 q) 0#32) (IntOp.addi (Cert.Spec.srcC x1 q) 100000#32) (Cert.Spec.srcC x1 q) := by
  rw [Cert.ReferenceIdeal.Read.val_main_v36_apply]
  refine (congrArg _ (col_idx q)).trans ?_
  rw [Cert.ReferenceIdeal.Read.val_main_v35_apply, Cert.ReferenceIdeal.Read.val_main_v32_apply, Cert.ReferenceIdeal.Read.val_main_v34_apply,
    Cert.ReferenceIdeal.Read.val_main_v31_apply, Cert.ReferenceIdeal.Read.val_main_c_6_apply,
    Cert.ReferenceIdeal.Read.val_main_v33_apply, Cert.ReferenceIdeal.Read.val_main_c_7_apply, v3_apply]

/-- A row number read off a wrapped word and clamped is the node the word names. -/
theorem node_of_col (w v : BitVec 32)
    (hw : w = Scalar.select (IntOp.cmpi .slt v 0#32) (IntOp.addi v 100000#32) v) (h : min w.toInt.toNat 99999 < 100000) :
    (⟨min w.toInt.toNat 99999, h⟩ : Fin 100000) = Cert.Spec.node v := by
  subst hw
  rfl

/-- The source's factor at position `q`. -/
theorem v21_apply (x1 : (⟨S2x3200000, .i32⟩ : BufTy).Contents (Elt Ideal)) (q : Fin 3300000) :
    (Cert.ReferenceIdeal.Read.val_main_v21 (F := Ideal) x1 : S3300000.Idx → EReal) (ix1 q)
      = Cert.Spec.dinvC x1 (Cert.Spec.node (Cert.Spec.srcC x1 q)) := by
  unfold Cert.ReferenceIdeal.Read.val_main_v21
  refine (gath1_apply _ _ q).trans ?_
  rw [node_of_col _ _ (v20_col x1 q)]
  exact v14_apply x1 _

/-- The target's factor at position `q`. -/
theorem v28_apply (x1 : (⟨S2x3200000, .i32⟩ : BufTy).Contents (Elt Ideal)) (q : Fin 3300000) :
    (Cert.ReferenceIdeal.Read.val_main_v28 (F := Ideal) x1 : S3300000.Idx → EReal) (ix1 q)
      = Cert.Spec.dinvC x1 (Cert.Spec.node (Cert.Spec.dstC x1 q)) := by
  unfold Cert.ReferenceIdeal.Read.val_main_v28
  refine (gath1_apply _ _ q).trans ?_
  rw [node_of_col _ _ (v27_col x1 q)]
  exact v14_apply x1 _

/-- The linear layer at node `n`, feature `f`. -/
theorem v30_apply (x0 : (⟨S100000x11, .f32⟩ : BufTy).Contents (Elt Ideal)) (x3 : (⟨S11x32, .f32⟩ : BufTy).Contents (Elt Ideal))
    (n : Fin 100000) (f : Fin 32) :
    (Cert.ReferenceIdeal.Read.val_main_v30 (F := Ideal) x0 x3 : S100000x32.Idx → EReal) (ix2 n f) = Cert.Spec.lin x0 x3 n f := by
  rw [Cert.ReferenceIdeal.Read.val_main_v30_apply]
  unfold Cert.Spec.lin
  refine Finset.sum_congr rfl fun k _ => ?_
  have el : Cert.ReferenceIdeal.Read.lidx_main_v30 (ix2 n f) k = ix2 n k := by
    funext a
    match a with
    | ⟨0, _⟩ => rfl
    | ⟨1, _⟩ => rfl
  have er : Cert.ReferenceIdeal.Read.ridx_main_v30 (ix2 n f) k = ix2 k f := by
    funext a
    match a with
    | ⟨0, _⟩ => rfl
    | ⟨1, _⟩ => rfl
  rw [el, er]

/-- The message's source row at position `q`, feature `f`. -/
theorem v37_apply (x0 : (⟨S100000x11, .f32⟩ : BufTy).Contents (Elt Ideal)) (x1 : (⟨S2x3200000, .i32⟩ : BufTy).Contents (Elt Ideal))
    (x3 : (⟨S11x32, .f32⟩ : BufTy).Contents (Elt Ideal)) (q : Fin 3300000) (f : Fin 32) :
    (Cert.ReferenceIdeal.Read.val_main_v37 (F := Ideal) x0 x1 x3 : S3300000x32.Idx → EReal) (ix2 q f)
      = Cert.Spec.lin x0 x3 (Cert.Spec.node (Cert.Spec.srcC x1 q)) f := by
  unfold Cert.ReferenceIdeal.Read.val_main_v37
  refine (Cert.LibScatter.gather_rows gather_S100000x32_S3300000x1_S3300000x32_1_0_n_n_0_1_132 rfl rfl rfl rfl rfl rfl _ _ q f (by decide)).trans ?_
  rw [node_of_col _ _ (v36_col x1 q)]
  exact v30_apply x0 x3 _ f

/-- The product of both ends' factors, laid along the features, at position `q`, feature `f`. -/
theorem v39_apply (x1 : (⟨S2x3200000, .i32⟩ : BufTy).Contents (Elt Ideal)) (q : Fin 3300000) (f : Fin 32) :
    (Cert.ReferenceIdeal.Read.val_main_v39 (F := Ideal) x1 : S3300000x32.Idx → EReal) (ix2 q f)
      = Cert.Spec.dinvC x1 (Cert.Spec.node (Cert.Spec.srcC x1 q)) * Cert.Spec.dinvC x1 (Cert.Spec.node (Cert.Spec.dstC x1 q)) := by
  rw [Cert.ReferenceIdeal.Read.val_main_v39_apply]
  have e1 : Cert.ReferenceIdeal.Read.idx_main_v39 (ix2 q f) = ix2 q (0 : Fin 1) := by
    funext a
    match a with
    | ⟨0, _⟩ => rfl
    | ⟨1, _⟩ => rfl
  rw [e1, Cert.ReferenceIdeal.Read.val_main_v38_apply]
  refine (congrArg _ (col_idx q)).trans ?_
  rw [Cert.ReferenceIdeal.Read.val_main_v29_apply, v21_apply, v28_apply]
  rfl

/-- The scatter-added messages (the stage `main_v43` of the generated reading) at node `n`, feature `f`. -/
theorem ref_agg (x0 : (⟨S100000x11, .f32⟩ : BufTy).Contents (Elt Ideal)) (x1 : (⟨S2x3200000, .i32⟩ : BufTy).Contents (Elt Ideal))
    (x3 : (⟨S11x32, .f32⟩ : BufTy).Contents (Elt Ideal)) (n : Fin 100000) (f : Fin 32) :
    (Cert.ReferenceIdeal.Read.val_main_v43 (F := Ideal) x0 x1 x3 : S100000x32.Idx → EReal) (ix2 n f)
      = Cert.Spec.aggR (Cert.Spec.lin x0 x3) x1 n f := by
  unfold Cert.ReferenceIdeal.Read.val_main_v43
  refine (congrFun (scatterAdd_ideal scatter_S100000x32_S3300000x1_S3300000x32_1_0_0_1 (Cert.ReferenceIdeal.Read.val_main_v41 (F := Ideal))
    (Cert.ReferenceIdeal.Read.val_main_v42 (F := Ideal) x1) (Cert.ReferenceIdeal.Read.val_main_v40 (F := Ideal) x0 x1 x3)) (ix2 n f)).trans ?_
  refine (Cert.LibScatter.scatterAdd_rows scatter_S100000x32_S3300000x1_S3300000x32_1_0_0_1 rfl rfl rfl rfl _ _ _ n f).trans ?_
  have h41 : (Cert.ReferenceIdeal.Read.val_main_v41 (F := Ideal) : S100000x32.Idx → EReal) (ix2 n f) = 0 := by
    rw [Cert.ReferenceIdeal.Read.val_main_v41_apply, Cert.ReferenceIdeal.Read.val_main_cst_8_apply, Ideal.ofBits_def, Ideal.ofBits_zero_f32]
  have hf : (Finset.univ.filter fun p : Fin 3300000 => (Cert.ReferenceIdeal.Read.val_main_v42 (F := Ideal) x1 (ix2 p (0 : Fin 1))).toInt = (n.val : ℤ))
      = Finset.univ.filter fun q : Fin 3300000 => (Cert.Spec.dstC x1 q).toInt = (n.val : ℤ) :=
    Finset.filter_congr fun p _ => by rw [v42_col]
  rw [h41, zero_add, hf, Cert.Spec.aggR]
  refine Finset.sum_congr (by with_reducible rfl) fun q _ => ?_
  rw [Cert.ReferenceIdeal.Read.val_main_v40_apply, v37_apply, v39_apply, Ideal.mulf_def]

end Cert.ReferenceIdeal.Hand

end
-- ==== Proof.Ref.lean ====
/-
  The reference program's result, read at a graph: the same pooled output, of the reference's arrangement of the
  aggregation (one sum over the edge list with a self loop appended per node).

  After the aggregation the reference adds the bias and cuts the negative part off; sums, per graph, the rows of
  the nodes whose graph number is that graph's (a node whose number names no graph adds to none) and, the same
  way, a one per node; divides the sum by the count taken as at least one; and applies the 32-to-1 linear layer.
  Each stage is read here at explicit coordinates and identified with the specification's term.
-/
import proofs.«428440_j16372415332644_2_alg».proof.Proof.RefAgg
import proofs.«428440_j16372415332644_2_alg».proof.Proof.LibScatter
import proofs.«428440_j16372415332644_2_alg».proof.Proof.Spec
import Idealize.ShloMosaic.PureOps.Ideal.Laws
import Idealize.ShloMosaic.Lib.ValueIdx

set_option maxRecDepth 16384

noncomputable section

namespace Cert.ReferenceIdeal.Hand

open Idealize.ShloMosaic Idealize.ShloMosaic.TcCoe Idealize.SL.Sem Idealize.ShloMosaic.ValueIdx
open Cert.ReferenceIdeal Cert.ReferenceIdeal.Gen

section Stages

open Cert.ReferenceIdeal.Read

variable (x0 : (⟨S100000x11, .f32⟩ : BufTy).Contents (Elt Ideal)) (x1 : (⟨S2x3200000, .i32⟩ : BufTy).Contents (Elt Ideal))
  (x2 : (⟨S100000, .i32⟩ : BufTy).Contents (Elt Ideal)) (x3 : (⟨S11x32, .f32⟩ : BufTy).Contents (Elt Ideal))
  (x4 : (⟨S32, .f32⟩ : BufTy).Contents (Elt Ideal)) (x5 : (⟨S32x1, .f32⟩ : BufTy).Contents (Elt Ideal))
  (x6 : (⟨S1, .f32⟩ : BufTy).Contents (Elt Ideal))

/-- The bias added and the negative part cut off, at node `n` and feature `f`. -/
theorem ref_relu (n : Fin 100000) (f : Fin 32) :
    (val_main_v47 (F := Ideal) x0 x1 x3 x4 : S100000x32.Idx → EReal) (ix2 n f)
      = max (Cert.Spec.aggR (Cert.Spec.lin x0 x3) x1 n f + (x4 : S32.Idx → EReal) (ix1 f)) 0 := by
  rw [val_main_v47_apply, val_main_v46_apply, val_main_call1_v0_apply, val_main_call1_cst_apply, val_main_v45_apply,
    val_main_v44_apply, ref_agg]
  have e : idx_main_v44 (idx_main_v45 (ix2 n f)) = ix1 f :=
    funext fun a => Fin.ext (by match a with | ⟨0, _⟩ => rfl)
  rw [e, Ideal.maximumf_def, Ideal.addf_def, Ideal.ofBits_def, Ideal.ofBits_zero_f32]

/-- The column of graph numbers the two pooling sums are indexed by is the argument itself. -/
theorem ref_batch49 (p : Fin 100000) :
    (val_main_v49 (F := Ideal) x2 : S100000x1.Idx → BitVec 32) (ix2 p (0 : Fin 1)) = (x2 : S100000.Idx → BitVec 32) (ix1 p) := by
  rw [val_main_v49_apply]
  congr 1
  exact funext fun a => Fin.ext (by match a with | ⟨0, _⟩ => rfl)

theorem ref_batch53 (p : Fin 100000) :
    (val_main_v53 (F := Ideal) x2 : S100000x1.Idx → BitVec 32) (ix2 p (0 : Fin 1)) = (x2 : S100000.Idx → BitVec 32) (ix1 p) := by
  rw [val_main_v53_apply]
  congr 1
  exact funext fun a => Fin.ext (by match a with | ⟨0, _⟩ => rfl)

/-- The per-graph sum of the rectified features: from zero, every node adds its row to its graph's row. -/
theorem ref_poolS (g : Fin 64) (f : Fin 32) :
    (val_main_v50 (F := Ideal) x0 x1 x2 x3 x4 : S64x32.Idx → EReal) (ix2 g f)
      = Cert.Spec.poolS (Cert.Spec.aggR (Cert.Spec.lin x0 x3) x1) (fun f => (x4 : S32.Idx → EReal) (ix1 f))
          (fun n => (x2 : S100000.Idx → BitVec 32) (ix1 n)) g f := by
  show Ideal.hostScatterAdd scatter_S64x32_S100000x1_S100000x32_1_0_0_1 (val_main_v48 (F := Ideal))
      (val_main_v49 (F := Ideal) x2) (val_main_v47 (F := Ideal) x0 x1 x3 x4) (ix2 g f) = _
  rw [Cert.LibScatter.scatterAdd_rows scatter_S64x32_S100000x1_S100000x32_1_0_0_1 rfl rfl rfl rfl, val_main_v48_apply,
    val_main_cst_9_apply, Ideal.ofBits_def, Ideal.ofBits_zero_f32, zero_add]
  unfold Cert.Spec.poolS
  simp only [ref_batch49, ref_relu]

/-- The per-graph node count: from zero, every node adds one to its graph's entry. -/
theorem ref_poolC (g : Fin 64) :
    (val_main_v54 (F := Ideal) x2 : S64.Idx → EReal) (ix1 g)
      = ((Cert.Spec.poolC (fun n => (x2 : S100000.Idx → BitVec 32) (ix1 n)) g : ℝ) : EReal) := by
  show Ideal.hostScatterAdd scatter_S64_S100000x1_S100000_n_0_0_1 (val_main_v52 (F := Ideal))
      (val_main_v53 (F := Ideal) x2) (val_main_v51 (F := Ideal)) (ix1 g) = _
  rw [Cert.LibScatter.scatterAdd_vec scatter_S64_S100000x1_S100000_n_0_0_1 rfl rfl rfl rfl, val_main_v52_apply,
    val_main_cst_11_apply, Ideal.ofBits_def, Ideal.ofBits_zero_f32, zero_add]
  have e1 : ∀ p : Fin 100000, (val_main_v51 (F := Ideal) : S100000.Idx → EReal) (ix1 p) = 1 := by
    intro p
    rw [val_main_v51_apply, val_main_cst_10_apply, Ideal.ofBits_def]
    exact Cert.Spec.one_f32
  simp only [ref_batch53, e1]
  rw [Cert.Spec.sum_one_eq_card]
  rfl

/-- The mean: the sum over the count, the count taken as at least one. -/
theorem ref_mean (g : Fin 64) (f : Fin 32) :
    (val_main_v59 (F := Ideal) x0 x1 x2 x3 x4 : S64x32.Idx → EReal) (ix2 g f)
      = Ideal.div
          (Cert.Spec.poolS (Cert.Spec.aggR (Cert.Spec.lin x0 x3) x1) (fun f => (x4 : S32.Idx → EReal) (ix1 f))
            (fun n => (x2 : S100000.Idx → BitVec 32) (ix1 n)) g f)
          (max ((Cert.Spec.poolC (fun n => (x2 : S100000.Idx → BitVec 32) (ix1 n)) g : ℝ) : EReal) 1) := by
  rw [val_main_v59_apply, Ideal.hostDivf_def, ref_poolS, val_main_v58_apply, val_main_v57_apply, val_main_v56_apply,
    val_main_v55_apply, val_main_cst_12_apply, Ideal.maximumf_def, Ideal.ofBits_def, Cert.Spec.one_f32]
  have e : idx_main_v57 (idx_main_v58 (ix2 g f)) = ix1 g :=
    funext fun a => Fin.ext (by match a with | ⟨0, _⟩ => rfl)
  rw [e, ref_poolC]

/-- The last stage at a graph: the mean features against the output weights, plus the output bias. -/
theorem ref_last (g : Fin 64) :
    (val_main_v63 (F := Ideal) x0 x1 x2 x3 x4 x5 x6 : S64x1.Idx → EReal) (ix2 g (0 : Fin 1))
      = Cert.Spec.out (Cert.Spec.aggR (Cert.Spec.lin x0 x3) x1) (fun f => (x4 : S32.Idx → EReal) (ix1 f))
          (fun n => (x2 : S100000.Idx → BitVec 32) (ix1 n)) (fun f => (x5 : S32x1.Idx → EReal) (ix2 f (0 : Fin 1)))
          ((x6 : S1.Idx → EReal) (ix1 (0 : Fin 1))) g := by
  have el : ∀ k : Fin 32, lidx_main_v60 (ix2 g (0 : Fin 1)) k = ix2 g k := fun k =>
    funext fun a => Fin.ext (by match a with | ⟨0, _⟩ => rfl | ⟨1, _⟩ => rfl)
  have er : ∀ k : Fin 32, ridx_main_v60 (ix2 g (0 : Fin 1)) k = ix2 k (0 : Fin 1) := fun k =>
    funext fun a => Fin.ext (by match a with | ⟨0, _⟩ => rfl | ⟨1, _⟩ => rfl)
  have hb : idx_main_v61 (idx_main_v62 (ix2 g (0 : Fin 1))) = ix1 (0 : Fin 1) :=
    funext fun a => Fin.ext (by match a with | ⟨0, _⟩ => rfl)
  rw [val_main_v63_apply, val_main_v60_apply, val_main_v62_apply, val_main_v61_apply, Ideal.addf_def, hb]
  unfold Cert.Spec.out
  simp only [el, er, ref_mean]

end Stages

theorem ref_out (m : (ℓ : Loc nD τ sig) → Buf (Elt Ideal) ℓ) (c : Dev nD) (g : Fin 64) :
    (Cert.ReferenceIdeal.Value.res_main_v63 (F := Ideal) m c : S64x1.Idx → EReal) (ix2 g (0 : Fin 1))
      = Cert.Spec.out
          (Cert.Spec.aggR (Cert.Spec.lin (m ((c.tc : Thread nD τ).loc main_arg0)) (m ((c.tc : Thread nD τ).loc main_arg3)))
            (m ((c.tc : Thread nD τ).loc main_arg1)))
          (fun f => (m ((c.tc : Thread nD τ).loc main_arg4) : S32.Idx → EReal) (ix1 f))
          (fun n => (m ((c.tc : Thread nD τ).loc main_arg2) : S100000.Idx → BitVec 32) (ix1 n))
          (fun f => (m ((c.tc : Thread nD τ).loc main_arg5) : S32x1.Idx → EReal) (ix2 f (0 : Fin 1)))
          ((m ((c.tc : Thread nD τ).loc main_arg6) : S1.Idx → EReal) (ix1 (0 : Fin 1))) g := by
  rw [Cert.ReferenceIdeal.Read.val_main_v63_eq]
  exact ref_last _ _ _ _ _ _ _ g

end Cert.ReferenceIdeal.Hand

end
-- ==== Proof.AggAlgebra.lean ====
/-
  The two arrangements of the aggregation agree: the long edge list is the stored edges followed by the self loops,
  so its degree is the stored count plus one; the self loop of node `i` contributes `h i · dinv i · dinv i`; and
  the target's factor `dinv i`, a non-negative real, moves out of the sum over the stored edges.
-/
import proofs.«428440_j16372415332644_2_alg».proof.Proof.Spec
import Mathlib.Algebra.BigOperators.Fin
import Mathlib.Data.EReal.Operations

set_option maxRecDepth 16384

noncomputable section

namespace Cert.Spec

open Idealize.ShloMosaic Idealize.ShloMosaic.ValueIdx

/-! ## Sums over an initial and a final segment -/

/-- A sum over `N = m + n` indices is the sum over the first `m` plus the sum over the last `n`. -/
theorem sum_fin_split {M : Type} [AddCommMonoid M] (m n N : ℕ) (hN : m + n = N) (g : Fin N → M) :
    ∑ q : Fin N, g q
      = (∑ p : Fin m, g ⟨p.val, lt_of_lt_of_le p.isLt (by omega)⟩)
        + ∑ j : Fin n, g ⟨m + j.val, by have := j.isLt; omega⟩ := by
  subst hN
  rw [Fin.sum_univ_add]
  rfl

/-- A non-negative real factor moves out of a finite sum of extended reals. -/
theorem coe_mul_sum {ι : Type} (r : ℝ) (hr : 0 ≤ r) (s : Finset ι) (c : ι → EReal) :
    ∑ p ∈ s, (r : EReal) * c p = (r : EReal) * ∑ p ∈ s, c p := by
  classical
  induction s using Finset.induction_on with
  | empty => simp
  | insert a s ha ih =>
    rw [Finset.sum_insert ha, Finset.sum_insert ha, ih,
      EReal.left_distrib_of_nonneg_of_ne_top (EReal.coe_nonneg.mpr hr) (EReal.coe_ne_top r)]

/-! ## Words that are small natural numbers -/

/-- The word of a natural number below 100000 is that number as a signed integer. -/
theorem toInt_ofNat_small (j : ℕ) (hj : j < 100000) : (BitVec.ofNat 32 j).toInt = (j : ℤ) := by
  rw [BitVec.toInt_eq_toNat_cond, BitVec.toNat_ofNat]
  have h1 : j % 2 ^ 32 = j := Nat.mod_eq_of_lt (by omega)
  rw [h1, if_pos (by omega)]

/-- A word whose signed value is the node `i` is read as node `i`: it is not negative, so it is not wrapped, and it is
    already in range, so the clamp leaves it. -/
theorem node_of_toInt (v : BitVec 32) (i : Fin 100000) (hv : v.toInt = (i.val : ℤ)) : node v = i := by
  have hslt : IntOp.cmpi .slt v 0#32 = 0#1 := by
    show BitVec.ofBool (decide (v.toInt < (0#32).toInt)) = 0#1
    rw [BitVec.toInt_zero, hv, decide_eq_false (by omega)]
    rfl
  apply Fin.ext
  show min (Scalar.select (IntOp.cmpi .slt v 0#32) (IntOp.addi v 100000#32) v).toInt.toNat 99999 = i.val
  rw [hslt, select_zero, hv]
  have := i.isLt
  omega

/-! ## The long edge list on its two segments -/

theorem srcC_left (e : (Sh2 2 3200000).Idx → BitVec 32) (p : Fin 3200000) (hp : p.val < 3300000) :
    srcC e ⟨p.val, hp⟩ = src e p := dif_pos p.isLt
theorem dstC_left (e : (Sh2 2 3200000).Idx → BitVec 32) (p : Fin 3200000) (hp : p.val < 3300000) :
    dstC e ⟨p.val, hp⟩ = dst e p := dif_pos p.isLt

theorem srcC_right (e : (Sh2 2 3200000).Idx → BitVec 32) (j : Fin 100000) (hj : 3200000 + j.val < 3300000) :
    srcC e ⟨3200000 + j.val, hj⟩ = BitVec.ofNat 32 j.val := by
  show (if hq : 3200000 + j.val < 3200000 then src e ⟨3200000 + j.val, hq⟩
    else BitVec.ofNat 32 (3200000 + j.val - 3200000)) = _
  rw [dif_neg (by omega), Nat.add_sub_cancel_left]
theorem dstC_right (e : (Sh2 2 3200000).Idx → BitVec 32) (j : Fin 100000) (hj : 3200000 + j.val < 3300000) :
    dstC e ⟨3200000 + j.val, hj⟩ = BitVec.ofNat 32 j.val := by
  show (if hq : 3200000 + j.val < 3200000 then dst e ⟨3200000 + j.val, hq⟩
    else BitVec.ofNat 32 (3200000 + j.val - 3200000)) = _
  rw [dif_neg (by omega), Nat.add_sub_cancel_left]

/-- Among the self loops exactly the one of node `i` has target `i`. -/
theorem sum_loops {M : Type} [AddCommMonoid M] (e : (Sh2 2 3200000).Idx → BitVec 32) (i : Fin 100000)
    (t : Fin 100000 → M) (hj : ∀ j : Fin 100000, 3200000 + j.val < 3300000) :
    (∑ j : Fin 100000, if (dstC e ⟨3200000 + j.val, hj j⟩).toInt = (i.val : ℤ) then t j else 0) = t i := by
  rw [Finset.sum_eq_single i]
  · rw [dstC_right, toInt_ofNat_small _ i.isLt, if_pos rfl]
  · intro j _ hji
    rw [dstC_right, toInt_ofNat_small _ j.isLt, if_neg]
    intro hh
    exact hji (Fin.ext (by exact_mod_cast hh))
  · intro hh
    exact absurd (Finset.mem_univ i) hh

/-! ## The degrees -/

/-- The long list's degree is the stored count plus the self loop. -/
theorem cntC_eq (e : (Sh2 2 3200000).Idx → BitVec 32) (i : Fin 100000) : cntC e i = cnt e i + 1 := by
  unfold cntC cnt
  rw [Finset.card_filter, sum_fin_split 3200000 100000 3300000 (by norm_num), Finset.card_filter]
  refine congrArg₂ (· + ·) ?_ ?_
  · exact Finset.sum_congr rfl fun p _ => by rw [dstC_left]
  · exact sum_loops e i (fun _ => 1) _

/-- So both programs scale by the same factors. -/
theorem dinvC_eq (e : (Sh2 2 3200000).Idx → BitVec 32) : dinvC e = dinv e := by
  funext i
  unfold dinvC dinv
  rw [cntC_eq, Nat.cast_add, Nat.cast_one]

/-! ## The aggregation -/

theorem aggR_eq_aggK (h : Fin 100000 → Fin 32 → EReal) (e : (Sh2 2 3200000).Idx → BitVec 32) (i : Fin 100000) (f : Fin 32) :
    aggR h e i f = aggK h e i f := by
  -- the target's factor is a non-negative real
  obtain ⟨r, hr, hdr⟩ : ∃ r : ℝ, 0 ≤ r ∧ dinv e i = (r : EReal) :=
    ⟨_, inv_nonneg.mpr (Real.sqrt_nonneg _), rfl⟩
  -- the reference's sum, over the whole long list, with the target's node named
  have key : aggR h e i f
      = ∑ q : Fin 3300000, if (dstC e q).toInt = (i.val : ℤ)
          then h (node (srcC e q)) f * (dinv e (node (srcC e q)) * dinv e i) else 0 := by
    unfold aggR
    rw [dinvC_eq, Finset.sum_filter]
    refine Finset.sum_congr rfl fun q _ => ?_
    by_cases hq : (dstC e q).toInt = (i.val : ℤ)
    · rw [if_pos hq, if_pos hq, node_of_toInt _ i hq]
    · rw [if_neg hq, if_neg hq]
  rw [key, sum_fin_split 3200000 100000 3300000 (by norm_num)]
  unfold aggK
  refine congrArg₂ (· + ·) ?_ ?_
  · -- the stored edges: the factor moves out of the sum
    rw [hdr, ← coe_mul_sum r hr, Finset.sum_filter]
    refine Finset.sum_congr rfl fun p _ => ?_
    rw [dstC_left, srcC_left]
    by_cases hp : (dst e p).toInt = (i.val : ℤ)
    · rw [if_pos hp, if_pos hp, mul_comm (dinv e (node (src e p))) (r : EReal), mul_left_comm]
    · rw [if_neg hp, if_neg hp]
  · -- the self loops: only node i's own
    rw [sum_loops e i (fun j => h (node (srcC e ⟨3200000 + j.val, by have := j.isLt; omega⟩)) f
      * (dinv e (node (srcC e ⟨3200000 + j.val, by have := j.isLt; omega⟩)) * dinv e i))]
    rw [srcC_right, node_of_toInt _ i (toInt_ofNat_small _ i.isLt)]
    exact mul_comm _ _

end Cert.Spec

end
-- ==== Proof.lean ====
/-
  The certificate. Both programs compute, per graph, the mean over the graph's nodes of the rectified, symmetrically
  normalised graph convolution of the node features, against the output layer.

  The kernel's program runs two kernel regions around its host operations: the first multiplies the node features
  by the weights block by block; the host operations count each node's incoming edges, take the reciprocal root of
  the count plus one, and scatter-add the scaled messages, with the target's factor taken out of the sum and the
  self loop added analytically; the second region accumulates, block by block, each graph's sum of rectified
  features and its node count through a one-hot product, and at its last point divides and applies the output layer.
  The reference appends one self loop per node to the edge list and does all of it with host operations.

  The two agree because a non-negative real factor moves out of a sum of extended reals, because the long edge list's
  sum splits into the stored edges and the self loops, and because a sum of one-hot products over row blocks is the
  sum over the graph's nodes. No input need be finite for these laws, so the precondition is not opened.
-/
import proofs.«428440_j16372415332644_2_alg».proof.Defs
import proofs.«428440_j16372415332644_2_alg».proof.Proof.Gen.Kernel
import proofs.«428440_j16372415332644_2_alg».proof.Proof.Gen.KernelIdeal
import proofs.«428440_j16372415332644_2_alg».proof.Proof.Gen.ReferenceIdeal
import proofs.«428440_j16372415332644_2_alg».proof.Proof.Gen.Pre_finite_inputs
import proofs.«428440_j16372415332644_2_alg».proof.Proof.Run
import proofs.«428440_j16372415332644_2_alg».proof.Proof.KRun
import proofs.«428440_j16372415332644_2_alg».proof.Proof.Value0
import proofs.«428440_j16372415332644_2_alg».proof.Proof.Value1
import proofs.«428440_j16372415332644_2_alg».proof.Proof.HostK
import proofs.«428440_j16372415332644_2_alg».proof.Proof.Ref
import proofs.«428440_j16372415332644_2_alg».proof.Proof.AggAlgebra
import Idealize.ShloMosaic.Adequacy
import Idealize.ShloMosaic.Init

set_option maxRecDepth 16384

noncomputable section

namespace Cert.Proof

open Idealize.ShloMosaic Idealize.ShloMosaic.TcCoe Idealize.SL.Sem Idealize.ShloMosaic.ValueIdx

/-- The result both programs end with, at graph `g`, as a function of the kernel program's launch memory. -/
def result (m : (ℓ : Loc Cert.KernelIdeal.nD Cert.KernelIdeal.τ Cert.KernelIdeal.sig) → Buf (Elt Ideal) ℓ)
    (c : Dev Cert.KernelIdeal.nD) : Buf (Elt Ideal) ((c.tc : Thread Cert.KernelIdeal.nD Cert.KernelIdeal.τ).loc Cert.KernelIdeal.main_v41) :=
  Cert.KernelIdeal.Hand.out1 (F := Ideal) m c

/-- The first region's result, as the host operations read it, is the linear layer. -/
theorem h0_lin (m : (ℓ : Loc Cert.KernelIdeal.nD Cert.KernelIdeal.τ Cert.KernelIdeal.sig) → Buf (Elt Ideal) ℓ)
    (c : Dev Cert.KernelIdeal.nD) (n : Fin 100000) (f : Fin 32) :
    (Cert.KernelIdeal.Hand.outs1 (F := Ideal) m 1 Cert.KernelIdeal.main_v0 c : Cert.KernelIdeal.S100000x32.Idx → EReal) (ix2 n f)
      = Cert.Spec.lin (m ((c.tc : Thread Cert.KernelIdeal.nD Cert.KernelIdeal.τ).loc Cert.KernelIdeal.main_arg0))
          (m ((c.tc : Thread Cert.KernelIdeal.nD Cert.KernelIdeal.τ).loc Cert.KernelIdeal.main_arg3)) n f := by
  have e : Cert.KernelIdeal.Hand.outs1 (F := Ideal) m 1 Cert.KernelIdeal.main_v0 c = Cert.KernelIdeal.Hand.h0 m c := by
    unfold Cert.KernelIdeal.Hand.outs1; exact Function.update_self _ _ _
  rw [e]
  exact Cert.KernelIdeal.Hand.h_lin (Cert.KernelIdeal.Hand.E0 m) c n f

/-- The pooled output depends on its five operands only through their values. -/
theorem out_congr {a a' : Fin 100000 → Fin 32 → EReal} {b b' : Fin 32 → EReal} {bt bt' : Fin 100000 → BitVec 32}
    {w w' : Fin 32 → EReal} {o o' : EReal} (ha : a = a') (hb : b = b') (hbt : bt = bt') (hw : w = w') (ho : o = o') (g : Fin 64) :
    Cert.Spec.out a b bt w o g = Cert.Spec.out a' b' bt' w' o' g := by
  subst ha hb hbt hw ho; rfl

/-- The kernel program's result array at graph `g` is the pooled output of the kernel's arrangement of the aggregation. -/
theorem kernel_out (m : (ℓ : Loc Cert.KernelIdeal.nD Cert.KernelIdeal.τ Cert.KernelIdeal.sig) → Buf (Elt Ideal) ℓ)
    (c : Dev Cert.KernelIdeal.nD) (g : Fin 64) :
    (Cert.KernelIdeal.Hand.out1 (F := Ideal) m c : Cert.KernelIdeal.S64x1.Idx → EReal) (ix2 g (0 : Fin 1))
      = Cert.Spec.out
          (Cert.Spec.aggK (Cert.Spec.lin (m ((c.tc : Thread Cert.KernelIdeal.nD Cert.KernelIdeal.τ).loc Cert.KernelIdeal.main_arg0))
              (m ((c.tc : Thread Cert.KernelIdeal.nD Cert.KernelIdeal.τ).loc Cert.KernelIdeal.main_arg3)))
            (m ((c.tc : Thread Cert.KernelIdeal.nD Cert.KernelIdeal.τ).loc Cert.KernelIdeal.main_arg1)))
          (fun f => (m ((c.tc : Thread Cert.KernelIdeal.nD Cert.KernelIdeal.τ).loc Cert.KernelIdeal.main_arg4) : Cert.KernelIdeal.S32.Idx → EReal) (ix1 f))
          (fun n => (m ((c.tc : Thread Cert.KernelIdeal.nD Cert.KernelIdeal.τ).loc Cert.KernelIdeal.main_arg2) : Cert.KernelIdeal.S100000.Idx → BitVec 32) (ix1 n))
          (fun f => (m ((c.tc : Thread Cert.KernelIdeal.nD Cert.KernelIdeal.τ).loc Cert.KernelIdeal.main_arg5) : Cert.KernelIdeal.S32x1.Idx → EReal) (ix2 f (0 : Fin 1)))
          ((m ((c.tc : Thread Cert.KernelIdeal.nD Cert.KernelIdeal.τ).loc Cert.KernelIdeal.main_arg6) : Cert.KernelIdeal.S1.Idx → EReal) (ix1 (0 : Fin 1))) g := by
  unfold Cert.KernelIdeal.Hand.out1
  rw [Cert.KernelIdeal.Hand.out_pool (Cert.KernelIdeal.Hand.E1 m) c
    (fun g => Cert.KernelIdeal.Hand.v39_eq m (Cert.KernelIdeal.Hand.outs1 m) c g) g]
  refine out_congr ?_ ?_ ?_ ?_ ?_ g
  · funext n f
    refine (Cert.KernelIdeal.Hand.v35_eq m (Cert.KernelIdeal.Hand.outs1 m) c n f).trans ?_
    exact congrArg (fun h => Cert.Spec.aggK h _ n f) (funext fun n => funext fun f => h0_lin m c n f)
  · funext f; exact Cert.KernelIdeal.Hand.v37_eq m (Cert.KernelIdeal.Hand.outs1 m) c f
  · funext n; exact Cert.KernelIdeal.Hand.v36_eq m (Cert.KernelIdeal.Hand.outs1 m) c n
  · funext f
    exact congrFun (Cert.KernelIdeal.Hand.v4_arg5 m (Cert.KernelIdeal.Hand.outs1 m) c) (ix2 f (0 : Fin 1))
  · exact Cert.KernelIdeal.Hand.v40_eq m (Cert.KernelIdeal.Hand.outs1 m) c

theorem claim : Cert.Claim := ⟨Cert.Kernel.Gen.facts, Cert.KernelIdeal.Gen.facts, Cert.ReferenceIdeal.Gen.facts, Cert.Pre_finite_inputs.Gen.facts, by
  refine ⟨?_, ?_, ?_, trivial, ?_⟩
  · -- the word-level program runs and leaves its arguments as launched
    exact fun m ρ _ => (θ_run Cert.Kernel.defs _ _).mono (fun _ h c => (h c).2) (Cert.Kernel.Hand.run_value (F := Bits) m ρ)
  · exact fun m ρ _ => (θ_run Cert.KernelIdeal.defs _ _).mono (fun _ h c => (h c).2) (Cert.KernelIdeal.Hand.run_value (F := Ideal) m ρ)
  · exact fun m ρ _ => (θ_run Cert.ReferenceIdeal.defs _ _).mono (fun _ h c => (h c).2) (Cert.ReferenceIdeal.Value.run (F := Ideal) m ρ)
  · intro m ρ m' ρ' _ hagree
    refine ⟨result m, Cert.KernelIdeal.Hand.run_value (F := Ideal) m ρ, ?_⟩
    refine (θ_run Cert.ReferenceIdeal.defs _ _).mono (fun _ h c => ⟨(h c).1.trans ?_, (h c).2⟩)
      (Cert.ReferenceIdeal.Value.run (F := Ideal) m' ρ')
    -- graph by graph both results are the pooled output; the two arrangements of the aggregation agree
    funext i
    obtain ⟨g, rfl⟩ : ∃ g : Fin 64, i = ix2 g (0 : Fin 1) :=
      ⟨i 0, (eq_ix2 i).trans (congrArg (ix2 (i 0)) (Fin.ext (Nat.lt_one_iff.mp (show (i 1).val < 1 from (i 1).isLt))))⟩
    refine (Cert.ReferenceIdeal.Hand.ref_out m' c g).trans ?_
    rw [(hagree c).1, (hagree c).2.1, (hagree c).2.2.1, (hagree c).2.2.2.1, (hagree c).2.2.2.2.1,
      (hagree c).2.2.2.2.2.1, (hagree c).2.2.2.2.2.2]
    refine (out_congr ?_ rfl rfl rfl rfl g).trans (kernel_out m c g).symm
    funext n f
    exact Cert.Spec.aggR_eq_aggK _ _ n f⟩

end Cert.Proof

end
